-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x56x56 : Shape := ⟨4, ![8, 512, 56, 56]⟩
abbrev S_ : Shape := ⟨0, ![]⟩

class Facts : Prop where
  bcast_S_S8x512x56x56 : S_.BroadcastsInDim S8x512x56x56 (![] : Fin 0 → Fin S8x512x56x56.rank)
  reducesTo_S8x512x56x56_S_d0_1_2_3 : S8x512x56x56.ReducesTo [0, 1, 2, 3] S_
  h_S_ : 0 < S_.numel

variable [Facts]

def fn {F : FTy → Type} [FloatOps F] (main_arg0 : FVec F S8x512x56x56 .f32) (main_arg1 : FVec F S8x512x56x56 .f32) (main_arg2 : FVec F S8x512x56x56 .f32) : IVec S_ 1 :=
  let main_v0 : FVec F S8x512x56x56 .f32 := Host.absf main_arg0
  let main_cst : FVec F S_ .f32 := constant S_ .f32 0x7F800000#32
  let main_v1 : FVec F S8x512x56x56 .f32 := broadcastInDim S8x512x56x56 ![] bcast_S_S8x512x56x56 main_cst
  let main_v2 : IVec S8x512x56x56 1 := cmpf .olt main_v0 main_v1
  let main_c : IVec S_ 1 := constantI S_ 1 1#1
  let main_v3 : IVec S_ 1 := (fun x v => Host.reduce IntOp.andi x v reducesTo_S8x512x56x56_S_d0_1_2_3 h_S_) main_v2 main_c
  let main_v4 : FVec F S8x512x56x56 .f32 := Host.absf main_arg1
  let main_cst_0 : FVec F S_ .f32 := constant S_ .f32 0x7F800000#32
  let main_v5 : FVec F S8x512x56x56 .f32 := broadcastInDim S8x512x56x56 ![] bcast_S_S8x512x56x56 main_cst_0
  let main_v6 : IVec S8x512x56x56 1 := cmpf .olt main_v4 main_v5
  let main_c_1 : IVec S_ 1 := constantI S_ 1 1#1
  let main_v7 : IVec S_ 1 := (fun x v => Host.reduce IntOp.andi x v reducesTo_S8x512x56x56_S_d0_1_2_3 h_S_) main_v6 main_c_1
  let main_v8 : IVec S_ 1 := andi main_v3 main_v7
  let main_v9 : FVec F S8x512x56x56 .f32 := Host.absf main_arg2
  let main_cst_2 : FVec F S_ .f32 := constant S_ .f32 0x7F800000#32
  let main_v10 : FVec F S8x512x56x56 .f32 := broadcastInDim S8x512x56x56 ![] bcast_S_S8x512x56x56 main_cst_2
  let main_v11 : IVec S8x512x56x56 1 := cmpf .olt main_v9 main_v10
  let main_c_3 : IVec S_ 1 := constantI S_ 1 1#1
  let main_v12 : IVec S_ 1 := (fun x v => Host.reduce IntOp.andi x v reducesTo_S8x512x56x56_S_d0_1_2_3 h_S_) main_v11 main_c_3
  let main_v13 : IVec S_ 1 := andi main_v8 main_v12
  main_v13
-- ==== Kernel.lean ====
abbrev S8x512x56x56 : Shape := ⟨4, ![8, 512, 56, 56]⟩
abbrev S8x512x3136 : Shape := ⟨3, ![8, 512, 3136]⟩
abbrev S_ : Shape := ⟨0, ![]⟩
abbrev S8x512x3200 : Shape := ⟨3, ![8, 512, 3200]⟩
abbrev S8x3200x1 : Shape := ⟨3, ![8, 3200, 1]⟩
abbrev S1x512x640 : Shape := ⟨3, ![1, 512, 640]⟩
abbrev S1x640x1 : Shape := ⟨3, ![1, 640, 1]⟩
abbrev S512x640 : Shape := ⟨2, ![512, 640]⟩
abbrev S640 : Shape := ⟨1, ![640]⟩
abbrev S1x640 : Shape := ⟨2, ![1, 640]⟩
abbrev S640x1 : Shape := ⟨2, ![640, 1]⟩
abbrev S640x640 : Shape := ⟨2, ![640, 640]⟩

abbrev nBuf : Space → Nat
  | .hbm => 22
  | .vmem => 29
  | .smem => 0
  | _ => 0

abbrev bufTy : (tb : Table) → Fin (tcTables nBuf tb) → BufTy
  | .hbm, ⟨0, _⟩ => ⟨S8x512x56x56, .f32⟩
  | .hbm, ⟨1, _⟩ => ⟨S8x512x56x56, .f32⟩
  | .hbm, ⟨2, _⟩ => ⟨S8x512x56x56, .f32⟩
  | .hbm, ⟨3, _⟩ => ⟨S8x512x3136, .f32⟩
  | .hbm, ⟨4, _⟩ => ⟨S8x512x3136, .f32⟩
  | .hbm, ⟨5, _⟩ => ⟨S8x512x3136, .f32⟩
  | .hbm, ⟨6, _⟩ => ⟨S_, .i32⟩
  | .hbm, ⟨7, _⟩ => ⟨S_, .f32⟩
  | .hbm, ⟨8, _⟩ => ⟨S8x512x3200, .f32⟩
  | .hbm, ⟨9, _⟩ => ⟨S_, .i32⟩
  | .hbm, ⟨10, _⟩ => ⟨S_, .f32⟩
  | .hbm, ⟨11, _⟩ => ⟨S8x512x3200, .f32⟩
  | .hbm, ⟨12, _⟩ => ⟨S_, .i32⟩
  | .hbm, ⟨13, _⟩ => ⟨S_, .f32⟩
  | .hbm, ⟨14, _⟩ => ⟨S8x512x3200, .f32⟩
  | .hbm, ⟨15, _⟩ => ⟨S8x512x3200, .bf16⟩
  | .hbm, ⟨16, _⟩ => ⟨S8x3200x1, .f32⟩
  | .hbm, ⟨17, _⟩ => ⟨S8x512x3200, .bf16⟩
  | .hbm, ⟨18, _⟩ => ⟨S8x3200x1, .f32⟩
  | .hbm, ⟨19, _⟩ => ⟨S8x512x3200, .f32⟩
  | .hbm, ⟨20, _⟩ => ⟨S8x512x3136, .f32⟩
  | .hbm, ⟨21, _⟩ => ⟨S8x512x56x56, .f32⟩
  | .local _ .vmem, ⟨0, _⟩ => ⟨S1x512x640, .f32⟩
  | .local _ .vmem, ⟨1, _⟩ => ⟨S1x512x640, .f32⟩
  | .local _ .vmem, ⟨2, _⟩ => ⟨S1x512x640, .f32⟩
  | .local _ .vmem, ⟨3, _⟩ => ⟨S1x512x640, .f32⟩
  | .local _ .vmem, ⟨4, _⟩ => ⟨S1x512x640, .bf16⟩
  | .local _ .vmem, ⟨5, _⟩ => ⟨S1x512x640, .bf16⟩
  | .local _ .vmem, ⟨6, _⟩ => ⟨S1x640x1, .f32⟩
  | .local _ .vmem, ⟨7, _⟩ => ⟨S1x640x1, .f32⟩
  | .local _ .vmem, ⟨8, _⟩ => ⟨S1x512x640, .bf16⟩
  | .local _ .vmem, ⟨9, _⟩ => ⟨S1x512x640, .bf16⟩
  | .local _ .vmem, ⟨10, _⟩ => ⟨S1x640x1, .f32⟩
  | .local _ .vmem, ⟨11, _⟩ => ⟨S1x640x1, .f32⟩
  | .local _ .vmem, ⟨12, _⟩ => ⟨S1x512x640, .f32⟩
  | .local _ .vmem, ⟨13, _⟩ => ⟨S1x512x640, .f32⟩
  | .local _ .vmem, ⟨14, _⟩ => ⟨S1x512x640, .bf16⟩
  | .local _ .vmem, ⟨15, _⟩ => ⟨S1x512x640, .bf16⟩
  | .local _ .vmem, ⟨16, _⟩ => ⟨S1x640x1, .f32⟩
  | .local _ .vmem, ⟨17, _⟩ => ⟨S1x640x1, .f32⟩
  | .local _ .vmem, ⟨18, _⟩ => ⟨S1x512x640, .bf16⟩
  | .local _ .vmem, ⟨19, _⟩ => ⟨S1x512x640, .bf16⟩
  | .local _ .vmem, ⟨20, _⟩ => ⟨S1x640x1, .f32⟩
  | .local _ .vmem, ⟨21, _⟩ => ⟨S1x640x1, .f32⟩
  | .local _ .vmem, ⟨22, _⟩ => ⟨S1x512x640, .f32⟩
  | .local _ .vmem, ⟨23, _⟩ => ⟨S1x512x640, .f32⟩
  | .local _ .vmem, ⟨24, _⟩ => ⟨S512x640, .bf16⟩
  | .local _ .vmem, ⟨25, _⟩ => ⟨S512x640, .f32⟩
  | .local _ .vmem, ⟨26, _⟩ => ⟨S512x640, .f32⟩
  | .local _ .vmem, ⟨27, _⟩ => ⟨S1x640, .f32⟩
  | .local _ .vmem, ⟨28, _⟩ => ⟨S1x640, .f32⟩
  | _, _ => ⟨S8x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_call0_v0 : Ref sig .tc := ⟨.hbm, 7, rfl⟩
abbrev main_call0_v3 : Ref sig .tc := ⟨.hbm, 8, rfl⟩
abbrev main_call0_c_0 : Ref sig .tc := ⟨.hbm, 9, rfl⟩
abbrev main_call0_call1_v0 : Ref sig .tc := ⟨.hbm, 10, rfl⟩
abbrev main_call0_v4 : Ref sig .tc := ⟨.hbm, 11, rfl⟩
abbrev main_call0_c_1 : Ref sig .tc := ⟨.hbm, 12, rfl⟩
abbrev main_call0_call2_v0 : Ref sig .tc := ⟨.hbm, 13, rfl⟩
abbrev main_call0_v5 : Ref sig .tc := ⟨.hbm, 14, rfl⟩
abbrev main_call0_v6_0 : Ref sig .tc := ⟨.hbm, 15, rfl⟩
abbrev main_call0_v6_1 : Ref sig .tc := ⟨.hbm, 16, rfl⟩
abbrev main_call0_v6_2 : Ref sig .tc := ⟨.hbm, 17, rfl⟩
abbrev main_call0_v6_3 : Ref sig .tc := ⟨.hbm, 18, rfl⟩
abbrev main_call0_v7 : Ref sig .tc := ⟨.hbm, 19, rfl⟩
abbrev main_call0_v8 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc1_scratch3 : Ref sig .tc := ⟨.vmem, 27, rfl⟩
abbrev cc1_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 5, 5], ![false, false, false]⟩

def k1_cond2 (i : grid1.Coords) : BitVec 1 :=
  let arg2 : BitVec 32 := BitVec.ofNat 32 (i 2).val
  let c4_i32 : BitVec 32 := 4#32
  let v62 : BitVec 1 := Scalar.cmpi .eq arg2 c4_i32
  let v63 : BitVec 32 := Scalar.extui v62
  let c0_i32_39 : BitVec 32 := 0#32
  let v64 : BitVec 1 := Scalar.cmpi .ne v63 c0_i32_39
  v64

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x512x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x640x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x640 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x640x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x512x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S8x512x56x56_S8x512x3136 : S8x512x56x56.ShapeCasts S8x512x3136
  pads_S8x512x3136_S8x512x3200_000_000_0640 : S8x512x3136.Pads (![0, 0, 0] : Fin 3 → Nat) ![0, 0, 64] ![0, 0, 0] S8x512x3200
  h_S_ : 0 < S_.numel
  slices_S8x512x3200_S8x512x3136_0_0_0 : S8x512x3200.Slices ![0, 0, 0] S8x512x3136
  shapeCasts_S8x512x3136_S8x512x56x56 : S8x512x3136.ShapeCasts S8x512x56x56
  inb_S1x512x640_S1x512x640_0_0_0 : ∀ a, (![0, 0, 0] : Fin 3 → Nat) a + S1x512x640.size a ≤ S1x512x640.size a
  h_S1x512x640 : 0 < S1x512x640.numel
  shapeCasts_S1x512x640_S512x640 : S1x512x640.ShapeCasts S512x640
  reduces_S512x640_S640 : S512x640.Reduces [0] S640
  shapeCasts_S640_S1x640 : S640.ShapeCasts S1x640
  broadcasts_S1x640_S512x640 : S1x640.Broadcasts S512x640
  bitsLt_bf16_f32 : FTy.bits .bf16 < FTy.bits .f32
  shapeCasts_S512x640_S1x512x640 : S512x640.ShapeCasts S1x512x640
  packedbf16_S1x512x640_S1x512x640_0_0_0 : (Rect.unit (s := S1x512x640) ![0, 0, 0] S1x512x640.size inb_S1x512x640_S1x512x640_0_0_0).PackedRows (EltTy.packing .bf16)
  transposes_S1x640_p1_0_S640x1 : S1x640.Transposes [1, 0] S640x1
  inb_S1x640x1_S1x640x1_0_0_0 : ∀ a, (![0, 0, 0] : Fin 3 → Nat) a + S1x640x1.size a ≤ S1x640x1.size a
  h_S1x640x1 : 0 < S1x640x1.numel
  shapeCasts_S1x640x1_S640x1 : S1x640x1.ShapeCasts S640x1
  shapeCasts_S640x1_S1x640x1 : S640x1.ShapeCasts S1x640x1
  inb_S512x640_S512x640_0_0 : ∀ a, (![0, 0] : Fin 2 → Nat) a + S512x640.size a ≤ S512x640.size a
  h_S512x640 : 0 < S512x640.numel
  shapeCasts_S512x640_S512x640 : S512x640.ShapeCasts S512x640
  packedbf16_S512x640_S512x640_0_0 : (Rect.unit (s := S512x640) ![0, 0] S512x640.size inb_S512x640_S512x640_0_0).PackedRows (EltTy.packing .bf16)
  inb_S1x640_S1x640_0_0 : ∀ a, (![0, 0] : Fin 2 → Nat) a + S1x640.size a ≤ S1x640.size a
  h_S1x640 : 0 < S1x640.numel
  shapeCasts_S1x640_S1x640 : S1x640.ShapeCasts S1x640
  iota_S640x640_d0_w32 : S640x640.Iotas .tc 32 [0]
  reduces_S640x640_S640 : S640x640.Reduces [0] S640
  broadcasts_S640x1_S640x640 : S640x1.Broadcasts S640x640
  dot_S512x640_S512x640_S640x640_0_0_1_1_n_n_wf : DotDims.WF S512x640 S512x640 S640x640 [0] [0] [1] [1] [] []
  dot_S512x640_S640x640_S512x640_1_0_0_1_n_n_wf : DotDims.WF S512x640 S640x640 S512x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x640.size a ≤ S8x512x3200.size a
  hwx0_0 : ∀ i : grid0.Coords, EltTy.bits .f32 = 32 ∨ (Rect.block (s := S8x512x3200) S1x512x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x640.size a ≤ S8x512x3200.size a
  hwx0_1 : ∀ i : grid0.Coords, EltTy.bits .f32 = 32 ∨ (Rect.block (s := S8x512x3200) S1x512x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x640.size a ≤ S8x512x3200.size a
  hwx0_2 : ∀ i : grid0.Coords, EltTy.bits .bf16 = 32 ∨ (Rect.block (s := S8x512x3200) S1x512x640.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x640x1.size a ≤ S8x3200x1.size a
  hwx0_3 : ∀ i : grid0.Coords, EltTy.bits .f32 = 32 ∨ (Rect.block (s := S8x3200x1) S1x640x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x640.size a ≤ S8x512x3200.size a
  hwx0_4 : ∀ i : grid0.Coords, EltTy.bits .bf16 = 32 ∨ (Rect.block (s := S8x512x3200) S1x512x640.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x640x1.size a ≤ S8x3200x1.size a
  hwx0_5 : ∀ i : grid0.Coords, EltTy.bits .f32 = 32 ∨ (Rect.block (s := S8x3200x1) S1x640x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x640.size a ≤ S8x512x3200.size a
  hwx1_0 : ∀ i : grid1.Coords, EltTy.bits .f32 = 32 ∨ (Rect.block (s := S8x512x3200) S1x512x640.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x640.size a ≤ S8x512x3200.size a
  hwx1_1 : ∀ i : grid1.Coords, EltTy.bits .bf16 = 32 ∨ (Rect.block (s := S8x512x3200) S1x512x640.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x640x1.size a ≤ S8x3200x1.size a
  hwx1_2 : ∀ i : grid1.Coords, EltTy.bits .f32 = 32 ∨ (Rect.block (s := S8x3200x1) S1x640x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x640.size a ≤ S8x512x3200.size a
  hwx1_3 : ∀ i : grid1.Coords, EltTy.bits .bf16 = 32 ∨ (Rect.block (s := S8x512x3200) S1x512x640.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x640x1.size a ≤ S8x3200x1.size a
  hwx1_4 : ∀ i : grid1.Coords, EltTy.bits .f32 = 32 ∨ (Rect.block (s := S8x3200x1) S1x640x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x640.size a ≤ S8x512x3200.size a
  hwx1_5 : ∀ i : grid1.Coords, EltTy.bits .f32 = 32 ∨ (Rect.block (s := S8x512x3200) S1x512x640.size (cc1_transform_5 i) (hinb1_5 i)).WholeWords (EltTy.packing .f32)

variable [Facts₀]

def dot_S512x640_S512x640_S640x640_0_0_1_1_n_n : DotDims S512x640 S512x640 S640x640 where
  lhsContracting := [0]
  rhsContracting := [0]
  lhsNonContracting := [1]
  rhsNonContracting := [1]
  lhsBatch := []
  rhsBatch := []
  wf := dot_S512x640_S512x640_S640x640_0_0_1_1_n_n_wf
def dot_S512x640_S640x640_S512x640_1_0_0_1_n_n : DotDims S512x640 S640x640 S512x640 where
  lhsContracting := [1]
  rhsContracting := [0]
  lhsNonContracting := [0]
  rhsNonContracting := [1]
  lhsBatch := []
  rhsBatch := []
  wf := dot_S512x640_S640x640_S512x640_1_0_0_1_n_n_wf

abbrev win0_0 : Pipeline.Window sig grid0 :=
  Pipeline.Window.ofSpec (Memref.whole main_call0_v4) S1x512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1x512x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6_0) S1x512x640.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6_1) S1x640x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6_2) S1x512x640.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6_3) S1x640x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v3) S1x512x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6_0) S1x512x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6_1) S1x640x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v6_2) S1x512x640.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6_3) S1x640x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v7) S1x512x640.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where
  halias1_5 : Pipeline.Aliased win1 0 5

variable [Facts]
-- ==== ReferenceIdeal.lean ====
abbrev S8x512x56x56 : Shape := ⟨4, ![8, 512, 56, 56]⟩
abbrev S8x512x3136 : Shape := ⟨3, ![8, 512, 3136]⟩
abbrev S_ : Shape := ⟨0, ![]⟩
abbrev S8x3136 : Shape := ⟨2, ![8, 3136]⟩
abbrev S8x1x3136 : Shape := ⟨3, ![8, 1, 3136]⟩
abbrev S8x3136x3136 : Shape := ⟨3, ![8, 3136, 3136]⟩
abbrev S8x3136x1 : Shape := ⟨3, ![8, 3136, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x512x56x56, .f32⟩
  | .hbm, ⟨1, _⟩ => ⟨S8x512x56x56, .f32⟩
  | .hbm, ⟨2, _⟩ => ⟨S8x512x56x56, .f32⟩
  | .hbm, ⟨3, _⟩ => ⟨S8x512x3136, .f32⟩
  | .hbm, ⟨4, _⟩ => ⟨S8x512x3136, .f32⟩
  | .hbm, ⟨5, _⟩ => ⟨S8x512x3136, .f32⟩
  | .hbm, ⟨6, _⟩ => ⟨S8x512x3136, .f32⟩
  | .hbm, ⟨7, _⟩ => ⟨S_, .f32⟩
  | .hbm, ⟨8, _⟩ => ⟨S8x3136, .f32⟩
  | .hbm, ⟨9, _⟩ => ⟨S8x1x3136, .f32⟩
  | .hbm, ⟨10, _⟩ => ⟨S8x1x3136, .f32⟩
  | .hbm, ⟨11, _⟩ => ⟨S_, .f32⟩
  | .hbm, ⟨12, _⟩ => ⟨S8x1x3136, .f32⟩
  | .hbm, ⟨13, _⟩ => ⟨S8x1x3136, .f32⟩
  | .hbm, ⟨14, _⟩ => ⟨S8x512x3136, .f32⟩
  | .hbm, ⟨15, _⟩ => ⟨S8x512x3136, .f32⟩
  | .hbm, ⟨16, _⟩ => ⟨S8x512x3136, .f32⟩
  | .hbm, ⟨17, _⟩ => ⟨S_, .f32⟩
  | .hbm, ⟨18, _⟩ => ⟨S8x3136, .f32⟩
  | .hbm, ⟨19, _⟩ => ⟨S8x1x3136, .f32⟩
  | .hbm, ⟨20, _⟩ => ⟨S8x1x3136, .f32⟩
  | .hbm, ⟨21, _⟩ => ⟨S_, .f32⟩
  | .hbm, ⟨22, _⟩ => ⟨S8x1x3136, .f32⟩
  | .hbm, ⟨23, _⟩ => ⟨S8x1x3136, .f32⟩
  | .hbm, ⟨24, _⟩ => ⟨S8x512x3136, .f32⟩
  | .hbm, ⟨25, _⟩ => ⟨S8x512x3136, .f32⟩
  | .hbm, ⟨26, _⟩ => ⟨S8x512x3136, .f32⟩
  | .hbm, ⟨27, _⟩ => ⟨S_, .f32⟩
  | .hbm, ⟨28, _⟩ => ⟨S8x3136, .f32⟩
  | .hbm, ⟨29, _⟩ => ⟨S8x1x3136, .f32⟩
  | .hbm, ⟨30, _⟩ => ⟨S8x1x3136, .f32⟩
  | .hbm, ⟨31, _⟩ => ⟨S_, .f32⟩
  | .hbm, ⟨32, _⟩ => ⟨S8x1x3136, .f32⟩
  | .hbm, ⟨33, _⟩ => ⟨S8x1x3136, .f32⟩
  | .hbm, ⟨34, _⟩ => ⟨S8x512x3136, .f32⟩
  | .hbm, ⟨35, _⟩ => ⟨S8x512x3136, .f32⟩
  | .hbm, ⟨36, _⟩ => ⟨S8x3136x3136, .f32⟩
  | .hbm, ⟨37, _⟩ => ⟨S8x3136x3136, .f32⟩
  | .hbm, ⟨38, _⟩ => ⟨S8x3136x3136, .f32⟩
  | .hbm, ⟨39, _⟩ => ⟨S8x3136x3136, .f32⟩
  | .hbm, ⟨40, _⟩ => ⟨S_, .f32⟩
  | .hbm, ⟨41, _⟩ => ⟨S8x3136, .f32⟩
  | .hbm, ⟨42, _⟩ => ⟨S_, .f32⟩
  | .hbm, ⟨43, _⟩ => ⟨S8x3136, .f32⟩
  | .hbm, ⟨44, _⟩ => ⟨S8x3136, .f32⟩
  | .hbm, ⟨45, _⟩ => ⟨S8x3136x1, .f32⟩
  | .hbm, ⟨46, _⟩ => ⟨S8x3136x3136, .f32⟩
  | .hbm, ⟨47, _⟩ => ⟨S8x3136x3136, .f32⟩
  | .hbm, ⟨48, _⟩ => ⟨S8x3136x3136, .f32⟩
  | .hbm, ⟨49, _⟩ => ⟨S_, .f32⟩
  | .hbm, ⟨50, _⟩ => ⟨S8x3136, .f32⟩
  | .hbm, ⟨51, _⟩ => ⟨S8x3136x1, .f32⟩
  | .hbm, ⟨52, _⟩ => ⟨S8x3136x3136, .f32⟩
  | .hbm, ⟨53, _⟩ => ⟨S8x3136x3136, .f32⟩
  | .hbm, ⟨54, _⟩ => ⟨S_, .f32⟩
  | .hbm, ⟨55, _⟩ => ⟨S8x3136, .f32⟩
  | .hbm, ⟨56, _⟩ => ⟨S_, .f32⟩
  | .hbm, ⟨57, _⟩ => ⟨S8x3136, .f32⟩
  | .hbm, ⟨58, _⟩ => ⟨S8x3136, .f32⟩
  | .hbm, ⟨59, _⟩ => ⟨S8x3136x1, .f32⟩
  | .hbm, ⟨60, _⟩ => ⟨S8x3136x3136, .f32⟩
  | .hbm, ⟨61, _⟩ => ⟨S8x3136x3136, .f32⟩
  | .hbm, ⟨62, _⟩ => ⟨S8x3136x3136, .f32⟩
  | .hbm, ⟨63, _⟩ => ⟨S_, .f32⟩
  | .hbm, ⟨64, _⟩ => ⟨S8x3136, .f32⟩
  | .hbm, ⟨65, _⟩ => ⟨S8x3136x1, .f32⟩
  | .hbm, ⟨66, _⟩ => ⟨S8x3136x3136, .f32⟩
  | .hbm, ⟨67, _⟩ => ⟨S8x3136x3136, .f32⟩
  | .hbm, ⟨68, _⟩ => ⟨S8x512x3136, .f32⟩
  | .hbm, ⟨69, _⟩ => ⟨S8x512x56x56, .f32⟩
  | .hbm, ⟨70, _⟩ => ⟨S8x512x3136, .f32⟩
  | .hbm, ⟨71, _⟩ => ⟨S8x512x56x56, .f32⟩
  | .hbm, ⟨72, _⟩ => ⟨S_, .f32⟩
  | .hbm, ⟨73, _⟩ => ⟨S8x512x56x56, .f32⟩
  | .hbm, ⟨74, _⟩ => ⟨S8x512x56x56, .f32⟩
  | .hbm, ⟨75, _⟩ => ⟨S8x512x56x56, .f32⟩
  | .hbm, ⟨76, _⟩ => ⟨S_, .f32⟩
  | .hbm, ⟨77, _⟩ => ⟨S8x512x56x56, .f32⟩
  | .hbm, ⟨78, _⟩ => ⟨S8x512x56x56, .f32⟩
  | .hbm, ⟨79, _⟩ => ⟨S8x512x56x56, .f32⟩
  | _, _ => ⟨S8x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]

class Facts₀ : Prop where
  shapeCasts_S8x512x56x56_S8x512x3136 : S8x512x56x56.ShapeCasts S8x512x3136
  reducesTo_S8x512x3136_S8x3136_d1 : S8x512x3136.ReducesTo [1] S8x3136
  h_S_ : 0 < S_.numel
  bcast_S8x3136_S8x1x3136_0_2 : S8x3136.BroadcastsInDim S8x1x3136 (![0, 2] : Fin 2 → Fin S8x1x3136.rank)
  bcast_S_S8x1x3136 : S_.BroadcastsInDim S8x1x3136 (![] : Fin 0 → Fin S8x1x3136.rank)
  bcast_S8x1x3136_S8x512x3136_0_1_2 : S8x1x3136.BroadcastsInDim S8x512x3136 (![0, 1, 2] : Fin 3 → Fin S8x512x3136.rank)
  reducesTo_S8x3136x3136_S8x3136_d2 : S8x3136x3136.ReducesTo [2] S8x3136
  bcast_S_S8x3136 : S_.BroadcastsInDim S8x3136 (![] : Fin 0 → Fin S8x3136.rank)
  bcast_S8x3136_S8x3136x1_0_1 : S8x3136.BroadcastsInDim S8x3136x1 (![0, 1] : Fin 2 → Fin S8x3136x1.rank)
  bcast_S8x3136x1_S8x3136x3136_0_1_2 : S8x3136x1.BroadcastsInDim S8x3136x3136 (![0, 1, 2] : Fin 3 → Fin S8x3136x3136.rank)
  shapeCasts_S8x512x3136_S8x512x56x56 : S8x512x3136.ShapeCasts S8x512x56x56
  bcast_S_S8x512x56x56 : S_.BroadcastsInDim S8x512x56x56 (![] : Fin 0 → Fin S8x512x56x56.rank)
  dot_S8x512x3136_S8x512x3136_S8x3136x3136_1_1_2_2_0_0_wf : DotDims.WF S8x512x3136 S8x512x3136 S8x3136x3136 [1] [1] [2] [2] [0] [0]
  dot_S8x512x3136_S8x3136x3136_S8x512x3136_2_2_1_1_0_0_wf : DotDims.WF S8x512x3136 S8x3136x3136 S8x512x3136 [2] [2] [1] [1] [0] [0]

variable [Facts₀]

def dot_S8x512x3136_S8x512x3136_S8x3136x3136_1_1_2_2_0_0 : DotDims S8x512x3136 S8x512x3136 S8x3136x3136 where
  lhsContracting := [1]
  rhsContracting := [1]
  lhsNonContracting := [2]
  rhsNonContracting := [2]
  lhsBatch := [0]
  rhsBatch := [0]
  wf := dot_S8x512x3136_S8x512x3136_S8x3136x3136_1_1_2_2_0_0_wf
def dot_S8x512x3136_S8x3136x3136_S8x512x3136_2_2_1_1_0_0 : DotDims S8x512x3136 S8x3136x3136 S8x512x3136 where
  lhsContracting := [2]
  rhsContracting := [2]
  lhsNonContracting := [1]
  rhsNonContracting := [1]
  lhsBatch := [0]
  rhsBatch := [0]
  wf := dot_S8x512x3136_S8x3136x3136_S8x512x3136_2_2_1_1_0_0_wf

class Facts : Prop extends Facts₀ where

variable [Facts]
-- ==== Proof.KiReg0Run.lean ====
import proofs.«413954_j46394236731667_3_alg».proof.Proof.Gen.KernelIdeal.Launch
import proofs.«413954_j46394236731667_3_alg».proof.Proof.Gen.KernelIdeal.Skeleton
import proofs.«413954_j46394236731667_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The normalising kernel's body, run once on whole staging buffers

The body reads its two input blocks, and for each writes the normalised block and the column of clamped norms.
It also loads each output buffer before storing into it; those loaded values are never used, so the buffers may
hold anything when the body starts. The stores each buffer ends with are found by the run itself. -/

set_option maxHeartbeats 4000000 in
noncomputable def kernelRun0 (c : Dev nD) (i : grid0.Coords)
    (arg2 : Memref sig .tc .vmem S1x512x640 .f32) (harg2 : arg2.IsWhole) (arg3 : Memref sig .tc .vmem S1x512x640 .f32) (harg3 : arg3.IsWhole)
    (arg4 : Memref sig .tc .vmem S1x512x640 .bf16) (harg4 : arg4.IsWhole) (arg5 : Memref sig .tc .vmem S1x640x1 .f32) (harg5 : arg5.IsWhole)
    (arg6 : Memref sig .tc .vmem S1x512x640 .bf16) (harg6 : arg6.IsWhole) (arg7 : Memref sig .tc .vmem S1x640x1 .f32) (harg7 : arg7.IsWhole)
    (x0 : Vec F S1x512x640 .f32) (x1 : Vec F S1x512x640 .f32) :
    Σ' (L2 : List (View.Piece (Elt F) S1x512x640 .bf16)) (L3 : List (View.Piece (Elt F) S1x640x1 .f32)) (L4 : List (View.Piece (Elt F) S1x512x640 .bf16)),
      { L5 : List (View.Piece (Elt F) S1x640x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Hand

end
-- ==== Proof.KiReg0.lean ====
import proofs.«413954_j46394236731667_3_alg».proof.Proof.KiReg0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The normalising kernel as a pipeline region: its proof data and its body obligation

Everything is stated at a parameter `V`: the core's buffer contents when the region is entered. -/

abbrev ms0_0 (t : Fin cfg0.N) : Memref sig .tc .vmem S1x512x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x640x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x640 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640x1 .f32 := win0_5.stage (cfg0.slots t 5)
abbrev hs0_5 (t : Fin cfg0.N) : (ms0_5 t).IsWhole := hstage0_5 ((cfg0.slots t 5).cast nbuf0_5)

/-- One staging buffer of each output window, through which its contents are stated. -/
abbrev VO0_2 : View sig .tc .vmem S1x512x640 .bf16 := (Memref.whole cc0_stg2_0 : Memref sig .tc .vmem S1x512x640 .bf16).view
abbrev VO0_3 : View sig .tc .vmem S1x640x1 .f32 := (Memref.whole cc0_stg3_0 : Memref sig .tc .vmem S1x640x1 .f32).view
abbrev VO0_4 : View sig .tc .vmem S1x512x640 .bf16 := (Memref.whole cc0_stg4_0 : Memref sig .tc .vmem S1x512x640 .bf16).view
abbrev VO0_5 : View sig .tc .vmem S1x640x1 .f32 := (Memref.whole cc0_stg5_0 : Memref sig .tc .vmem S1x640x1 .f32).view

theorem bodyAt0_eq (t : Fin cfg0.N) : bodyAt0 (F := F) t = cc0_kernel (grid0.coords t) (ms0_0 t) (hs0_0 t) (ms0_1 t) (hs0_1 t) (ms0_2 t) (hs0_2 t) (ms0_3 t) (hs0_3 t) (ms0_4 t) (hs0_4 t) (ms0_5 t) (hs0_5 t) := rfl

/-- The stores the body ends output window 2's buffer with tile it, so they cover it. -/
theorem cover0_2 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) (y : S1x512x640.Idx) :
    ∃ pc ∈ (kernelRun0 c i arg2 harg2 arg3 harg3 arg4 harg4 arg5 harg5 arg6 harg6 arg7 harg7 x0 x1).1, y ∈ pc.1.set :=
  View.cover_of_tiledL (kernelRun0 c i arg2 harg2 arg3 harg3 arg4 harg4 arg5 harg5 arg6 harg6 arg7 harg7 x0 x1).1 S1x512x640.size (by sl_kernel_rfl) y

/-- What the body leaves in output window 2's buffer: its stores read back. -/
def out0_2 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) : Vec F S1x512x640 .bf16 :=
  VO0_2.read (Elt F) (VO0_2.writes (Elt F) VO0_2.junk (kernelRun0 c i arg2 harg2 arg3 harg3 arg4 harg4 arg5 harg5 arg6 harg6 arg7 harg7 x0 x1).1)

/-- The stores the body ends output window 3's buffer with tile it, so they cover it. -/
theorem cover0_3 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) (y : S1x640x1.Idx) :
    ∃ pc ∈ (kernelRun0 c i arg2 harg2 arg3 harg3 arg4 harg4 arg5 harg5 arg6 harg6 arg7 harg7 x0 x1).2.1, y ∈ pc.1.set :=
  View.cover_of_tiledL (kernelRun0 c i arg2 harg2 arg3 harg3 arg4 harg4 arg5 harg5 arg6 harg6 arg7 harg7 x0 x1).2.1 S1x640x1.size (by sl_kernel_rfl) y

/-- What the body leaves in output window 3's buffer: its stores read back. -/
def out0_3 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) : Vec F S1x640x1 .f32 :=
  VO0_3.read (Elt F) (VO0_3.writes (Elt F) VO0_3.junk (kernelRun0 c i arg2 harg2 arg3 harg3 arg4 harg4 arg5 harg5 arg6 harg6 arg7 harg7 x0 x1).2.1)

/-- The stores the body ends output window 4's buffer with tile it, so they cover it. -/
theorem cover0_4 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) (y : S1x512x640.Idx) :
    ∃ pc ∈ (kernelRun0 c i arg2 harg2 arg3 harg3 arg4 harg4 arg5 harg5 arg6 harg6 arg7 harg7 x0 x1).2.2.1, y ∈ pc.1.set :=
  View.cover_of_tiledL (kernelRun0 c i arg2 harg2 arg3 harg3 arg4 harg4 arg5 harg5 arg6 harg6 arg7 harg7 x0 x1).2.2.1 S1x512x640.size (by sl_kernel_rfl) y

/-- What the body leaves in output window 4's buffer: its stores read back. -/
def out0_4 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) : Vec F S1x512x640 .bf16 :=
  VO0_4.read (Elt F) (VO0_4.writes (Elt F) VO0_4.junk (kernelRun0 c i arg2 harg2 arg3 harg3 arg4 harg4 arg5 harg5 arg6 harg6 arg7 harg7 x0 x1).2.2.1)

/-- The stores the body ends output window 5's buffer with tile it, so they cover it. -/
theorem cover0_5 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) (y : S1x640x1.Idx) :
    ∃ pc ∈ (kernelRun0 c i arg2 harg2 arg3 harg3 arg4 harg4 arg5 harg5 arg6 harg6 arg7 harg7 x0 x1).2.2.2.1, y ∈ pc.1.set :=
  View.cover_of_tiledL (kernelRun0 c i arg2 harg2 arg3 harg3 arg4 harg4 arg5 harg5 arg6 harg6 arg7 harg7 x0 x1).2.2.2.1 S1x640x1.size (by sl_kernel_rfl) y

/-- What the body leaves in output window 5's buffer: its stores read back. -/
def out0_5 (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) : Vec F S1x640x1 .f32 :=
  VO0_5.read (Elt F) (VO0_5.writes (Elt F) VO0_5.junk (kernelRun0 c i arg2 harg2 arg3 harg3 arg4 harg4 arg5 harg5 arg6 harg6 arg7 harg7 x0 x1).2.2.2.1)

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the normalising region on core `c`: the arrays as the region finds them; after the body each
    input's buffer at its block and each output's at what the body's stores leave; the class invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t)
    | ⟨3, _⟩ => out0_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t)
    | ⟨4, _⟩ => out0_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t)
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) := by dsimp only [dat0]
theorem after0_3 (c : Dev nD) (t : Fin cfg0.N) : (dat0 V c).after 3 t = out0_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) := by dsimp only [dat0]
theorem after0_4 (c : Dev nD) (t : Fin cfg0.N) : (dat0 V c).after 4 t = out0_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' buffers hold their blocks, so the run applies; each output's buffer ends
    at its stores read back, which cover it; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold out0_2 out0_3 out0_4 out0_5
  iintro ⟨HΦ, Ho, ⟨%d0, H0⟩, ⟨%d1, H1⟩, ⟨%d2, H2⟩, ⟨%d3, H3⟩, ⟨%d4, H4⟩, ⟨%d5, H5⟩⟩
  iapply ((kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_2 c _ _ _ _ _ _ _ _ _ _ _ _ _ _ _)
  isplitl [H3]
  · unfold owns; iexists _; isplitr
    swap; · iexact H3
    ipureintro; exact View.read_writes_of_cover _ _ _ _ _ (cover0_3 c _ _ _ _ _ _ _ _ _ _ _ _ _ _ _)
  isplitl [H4]
  · unfold owns; iexists _; isplitr
    swap; · iexact H4
    ipureintro; exact View.read_writes_of_cover _ _ _ _ _ (cover0_4 c _ _ _ _ _ _ _ _ _ _ _ _ _ _ _)
  unfold owns; iexists _; isplitr
  swap; · iexact H5
  ipureintro; exact View.read_writes_of_cover _ _ _ _ _ (cover0_5 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KiReg1Base.lean ====
import proofs.«413954_j46394236731667_3_alg».proof.Proof.Gen.KernelIdeal.Launch
import proofs.«413954_j46394236731667_3_alg».proof.Proof.Gen.KernelIdeal.Skeleton
import proofs.«413954_j46394236731667_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel: what its three control cases share

The grid is (batch, query tile, key tile), key tile innermost. The body resets its five scratch buffers when the key
tile is 0, accumulates at every key tile, and writes the output block when the key tile is 4. -/

/-- "The key tile is 0": the body's first branch, the scalar chain over the third grid coordinate. -/
abbrev cond1_0 (i : grid1.Coords) : Prop :=
  (Scalar.cmpi .ne (Scalar.extui (Scalar.cmpi .eq (BitVec.ofNat 32 (i 2).val) 0#32)) 0#32) = 1#1
/-- It holds exactly at the points that are 0 modulo 5. -/
theorem hcond1_0 : ∀ t : Fin cfg1.N, cond1_0 (grid1.coords t) ↔ t.val % 5 = 0 :=
  (by decide +kernel : ∀ t : Fin grid1.N, cond1_0 (grid1.coords t) ↔ t.val % 5 = 0)

/-- "The key tile is 4", the last: the body's second branch. -/
abbrev cond1_1 (i : grid1.Coords) : Prop := k1_cond2 i = 1#1
/-- It holds exactly at the points that are 4 modulo 5. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last key tile nothing is stored into the output window: it is idle there, -/
theorem idleAt1_5 : ∀ t : Fin cfg1.N, ¬cond1_1 (grid1.coords t) → cfg1.idle 5 (grid1.coords t) = true := by decide +kernel
/-- and its block is not written back. -/
theorem noFlush1_5 : ∀ t : Fin cfg1.N, ¬cond1_1 (grid1.coords t) → (cfg1.win 5).flush t = false := by decide +kernel
/-- At the last key tile it is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x512x640 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x640 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x640x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x640 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x640x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x640 .f32 := win1_5.stage (cfg1.slots t 5)
abbrev hs1_5 (t : Fin cfg1.N) : (ms1_5 t).IsWhole := hstage1_5 ((cfg1.slots t 5).cast nbuf1_5)

/-- The five scratch buffers: the normalised query block, the two numerators, the two denominators. -/
abbrev scM1_0 : Memref sig .tc .vmem S512x640 .bf16 := Memref.whole cc1_scratch0
abbrev scM1_1 : Memref sig .tc .vmem S512x640 .f32 := Memref.whole cc1_scratch1
abbrev scM1_2 : Memref sig .tc .vmem S512x640 .f32 := Memref.whole cc1_scratch2
abbrev scM1_3 : Memref sig .tc .vmem S1x640 .f32 := Memref.whole cc1_scratch3
abbrev scM1_4 : Memref sig .tc .vmem S1x640 .f32 := Memref.whole cc1_scratch4
abbrev VS1_0 : View sig .tc .vmem S512x640 .bf16 := scM1_0.view
abbrev VS1_1 : View sig .tc .vmem S512x640 .f32 := scM1_1.view
abbrev VS1_2 : View sig .tc .vmem S512x640 .f32 := scM1_2.view
abbrev VS1_3 : View sig .tc .vmem S1x640 .f32 := scM1_3.view
abbrev VS1_4 : View sig .tc .vmem S1x640 .f32 := scM1_4.view
/-- One staging buffer of the output window, through which its contents are stated. -/
abbrev VO1_5 : View sig .tc .vmem S1x512x640 .f32 := (Memref.whole cc1_stg5_0 : Memref sig .tc .vmem S1x512x640 .f32).view

/-- The kernel body at a point, as the pipeline calls it, with the scratch operands named. -/
theorem bodyAt1_eq (t : Fin cfg1.N) :
    bodyAt1 (F := F) t = cc1_kernel (grid1.coords t) (ms1_0 t) (hs1_0 t) (ms1_1 t) (hs1_1 t) (ms1_2 t) (hs1_2 t) (ms1_3 t) (hs1_3 t) (ms1_4 t) (hs1_4 t) (ms1_5 t) (hs1_5 t)
      scM1_0 (Memref.isWhole_whole _) scM1_1 (Memref.isWhole_whole _) scM1_2 (Memref.isWhole_whole _) scM1_3 (Memref.isWhole_whole _) scM1_4 (Memref.isWhole_whole _) := rfl

/-- The region's class invariant with the five scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d))
        ∗ (∃ r, prngReg c r)) := by
  unfold Pipeline.ΦA; rw [scopedRest1_eq]; simp only [scM1_0, scM1_1, scM1_2, scM1_3, scM1_4, owns_whole]; try rfl

end Cert.KernelIdeal.Hand

end
-- ==== Proof.KiReg1RunA.lean ====
import proofs.«413954_j46394236731667_3_alg».proof.Proof.KiReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body in the case where the key tile is 0: the query block is normalised into its scratch, the four accumulators are reset, and the first key tile is accumulated; the output window is idle and handed back untouched.

The stores each buffer ends with are found by the run. -/

set_option maxHeartbeats 8000000 in
noncomputable def kernelRun1_A (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole)
    (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) :
    Σ' (LS0 : List (View.Piece (Elt F) S512x640 .bf16)) (LS1 : List (View.Piece (Elt F) S512x640 .f32)) (LS2 : List (View.Piece (Elt F) S512x640 .f32)) (LS3 : List (View.Piece (Elt F) S1x640 .f32)),
      { LS4 : List (View.Piece (Elt F) S1x640 .f32) //
      ∀ (xi5 : Vec F S1x512x640 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1_kernel i arg3 harg3 arg4 harg4 arg5 harg5 arg6 harg6 arg7 harg7 arg8 harg8 arg9 harg9 arg10 harg10 arg11 harg11 arg12 harg12 arg13 harg13) K } := by
  refine ⟨?_, ?_, ?_, ?_, ?_, fun xi5 E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KiReg1RunB.lean ====
import proofs.«413954_j46394236731667_3_alg».proof.Proof.KiReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body in the case where the key tile is 1, 2 or 3: the key tile is accumulated onto what the point before left in the four accumulators; the cached query block is only read; the output window is idle and handed back untouched.

The stores each buffer ends with are found by the run. -/

set_option maxHeartbeats 8000000 in
noncomputable def kernelRun1_B (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole)
    (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    Σ' (LS1 : List (View.Piece (Elt F) S512x640 .f32)) (LS2 : List (View.Piece (Elt F) S512x640 .f32)) (LS3 : List (View.Piece (Elt F) S1x640 .f32)),
      { LS4 : List (View.Piece (Elt F) S1x640 .f32) //
      ∀ (xi5 : Vec F S1x512x640 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1_kernel i arg3 harg3 arg4 harg4 arg5 harg5 arg6 harg6 arg7 harg7 arg8 harg8 arg9 harg9 arg10 harg10 arg11 harg11 arg12 harg12 arg13 harg13) K } := by
  refine ⟨?_, ?_, ?_, ?_, fun xi5 E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    isplitl [HS2]; · iexists _; iexact HS2
    isplitl [HS3]; · iexists _; iexact HS3
    iexists _; iexact HS4

end Cert.KernelIdeal.Hand

end
-- ==== Proof.KiReg1RunC.lean ====
import proofs.«413954_j46394236731667_3_alg».proof.Proof.KiReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body in the case where the key tile is 4: the last key tile is accumulated, then the output block is the residual plus the two scaled quotients; the cached query block is only read.

The stores each buffer ends with are found by the run. -/

set_option maxHeartbeats 8000000 in
noncomputable def kernelRun1_C (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole)
    (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    Σ' (L5 : List (View.Piece (Elt F) S1x512x640 .f32)) (LS1 : List (View.Piece (Elt F) S512x640 .f32)) (LS2 : List (View.Piece (Elt F) S512x640 .f32)) (LS3 : List (View.Piece (Elt F) S1x640 .f32)),
      { LS4 : List (View.Piece (Elt F) S1x640 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1_kernel i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    isplitl [HS2]; · iexists _; iexact HS2
    isplitl [HS3]; · iexists _; iexact HS3
    iexists _; iexact HS4

end Cert.KernelIdeal.Hand

end
-- ==== Proof.KiReg1.lean ====
import proofs.«413954_j46394236731667_3_alg».proof.Proof.KiReg1RunA
import proofs.«413954_j46394236731667_3_alg».proof.Proof.KiReg1RunB
import proofs.«413954_j46394236731667_3_alg».proof.Proof.KiReg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel as a pipeline region: its proof data and its body obligation

Per case, what the body's stores leave in each buffer (read back from the run's pieces, which cover it); then, point
by point, what the output window and the five scratch buffers hold; the invariant that carries the scratch buffers
from one point to the next; the proof data; the body obligation, by cases on the key tile. -/

theorem scover1_A_0 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (y : S512x640.Idx) :
    ∃ pc ∈ (kernelRun1_A c i arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 hc0 hc1 x0 x1 x2 x3 x4).1 S512x640.size (by sl_kernel_rfl) y
def sout1_A_0 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) : Vec F S512x640 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 arg13 harg13 hc0 hc1 x0 x1 x2 x3 x4).1)

theorem scover1_A_1 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (y : S512x640.Idx) :
    ∃ pc ∈ (kernelRun1_A c i arg3 harg3 arg4 harg4 arg5 harg5 arg6 harg6 arg7 harg7 arg8 harg8 arg9 harg9 arg10 harg10 arg11 harg11 arg12 harg12 arg13 harg13 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 hc0 hc1 x0 x1 x2 x3 x4).2.1 S512x640.size (by sl_kernel_rfl) y
def sout1_A_1 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) : Vec F S512x640 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 arg13 harg13 hc0 hc1 x0 x1 x2 x3 x4).2.1)

theorem scover1_A_2 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (y : S512x640.Idx) :
    ∃ pc ∈ (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.1 S512x640.size (by sl_kernel_rfl) y
def sout1_A_2 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) : Vec F S512x640 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.1)

theorem scover1_A_3 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (y : S1x640.Idx) :
    ∃ pc ∈ (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.2.1 S1x640.size (by sl_kernel_rfl) y
def sout1_A_3 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) : Vec F S1x640 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.2.1)

theorem scover1_A_4 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (y : S1x640.Idx) :
    ∃ pc ∈ (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.2.2.1 S1x640.size (by sl_kernel_rfl) y
def sout1_A_4 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) : Vec F S1x640 .f32 :=
  VS1_4.read (Elt F) (VS1_4.writes (Elt F) VS1_4.junk (kernelRun1_A c i arg3 harg3 arg4 harg4 arg5 harg5 arg6 harg6 arg7 harg7 arg8 harg8 arg9 harg9 arg10 harg10 arg11 harg11 arg12 harg12 arg13 harg13 hc0 hc1 x0 x1 x2 x3 x4).2.2.2.2.1)

theorem scover1_B_1 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S512x640.Idx) :
    ∃ pc ∈ (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).1 S512x640.size (by sl_kernel_rfl) y
def sout1_B_1 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S512x640 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).1)

theorem scover1_B_2 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S512x640.Idx) :
    ∃ pc ∈ (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.1 S512x640.size (by sl_kernel_rfl) y
def sout1_B_2 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S512x640 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.1)

theorem scover1_B_3 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S1x640.Idx) :
    ∃ pc ∈ (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.1 S1x640.size (by sl_kernel_rfl) y
def sout1_B_3 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S1x640 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.1)

theorem scover1_B_4 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S1x640.Idx) :
    ∃ pc ∈ (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.1 S1x640.size (by sl_kernel_rfl) y
def sout1_B_4 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S1x640 .f32 :=
  VS1_4.read (Elt F) (VS1_4.writes (Elt F) VS1_4.junk (kernelRun1_B c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.1)

theorem scover1_C_1 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S512x640.Idx) :
    ∃ pc ∈ (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.1 S512x640.size (by sl_kernel_rfl) y
def sout1_C_1 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S512x640 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.1)

theorem scover1_C_2 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S512x640.Idx) :
    ∃ pc ∈ (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.1 S512x640.size (by sl_kernel_rfl) y
def sout1_C_2 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S512x640 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.1)

theorem scover1_C_3 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S1x640.Idx) :
    ∃ pc ∈ (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.1 S1x640.size (by sl_kernel_rfl) y
def sout1_C_3 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S1x640 .f32 :=
  VS1_3.read (Elt F) (VS1_3.writes (Elt F) VS1_3.junk (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.1)

theorem scover1_C_4 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S1x640.Idx) :
    ∃ pc ∈ (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.2.1 S1x640.size (by sl_kernel_rfl) y
def sout1_C_4 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S1x640 .f32 :=
  VS1_4.read (Elt F) (VS1_4.writes (Elt F) VS1_4.junk (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).2.2.2.2.1)

theorem cover1_C_5 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) (y : S1x512x640.Idx) :
    ∃ pc ∈ (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).1, y ∈ pc.1.set :=
  View.cover_of_tiledL (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).1 S1x512x640.size (by sl_kernel_rfl) y
def out1_C_5 (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) : Vec F S1x512x640 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4).1)

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output block, the cached normalised query block, the two numerators, the two denominators. -/
abbrev T6 (F : FTy → Type) : Type :=
  Vec F S1x512x640 .f32 × Vec F S512x640 .bf16 × Vec F S512x640 .f32 × Vec F S512x640 .f32 × Vec F S1x640 .f32 × Vec F S1x640 .f32

theorem notc0 (t : Fin cfg1.N) (h : ¬ t.val % 5 = 0) : ¬cond1_0 (grid1.coords t) := fun hc => h ((hcond1_0 t).mp hc)
theorem notc1 (t : Fin cfg1.N) (h : ¬ t.val % 5 = 4) : ¬cond1_1 (grid1.coords t) := fun hc => h ((hcond1_1 t).mp hc)

/-- After a point whose key tile is 0: everything from this point's blocks alone (the output window idle: a placeholder). -/
def stepA (c : Dev nD) (t : Fin cfg1.N) (h0 : t.val % 5 = 0) : T6 F :=
  (VO1_5.read (Elt F) VO1_5.junk, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t (fun h => by omega)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t (fun h => by omega)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t (fun h => by omega)) (iblk1 V c 0 t) (iblk1 V c 1 t) (iblk1 V c 2 t) (iblk1 V c 3 t) (iblk1 V c 4 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t (fun h => by omega)) (iblk1 V c 0 t) (iblk1 V c 1 t) (iblk1 V c 2 t) (iblk1 V c 3 t) (iblk1 V c 4 t), sout1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t (fun h => by omega)) (iblk1 V c 0 t) (iblk1 V c 1 t) (iblk1 V c 2 t) (iblk1 V c 3 t) (iblk1 V c 4 t))
/-- After a point whose key tile is 1, 2 or 3: the accumulators over what the point before left `p`; the query block kept. -/
def stepB (c : Dev nD) (t : Fin cfg1.N) (h0 : ¬ t.val % 5 = 0) (h1 : ¬ t.val % 5 = 4) (p : T6 F) : T6 F :=
  (VO1_5.read (Elt F) VO1_5.junk, p.2.1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) p.2.1 p.2.2.1 p.2.2.2.1 p.2.2.2.2.1 p.2.2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) p.2.1 p.2.2.1 p.2.2.2.1 p.2.2.2.2.1 p.2.2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) p.2.1 p.2.2.1 p.2.2.2.1 p.2.2.2.2.1 p.2.2.2.2.2, sout1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) p.2.1 p.2.2.1 p.2.2.2.1 p.2.2.2.2.1 p.2.2.2.2.2)
/-- After a point whose key tile is 4: the same, and the output block. -/
def stepC (c : Dev nD) (t : Fin cfg1.N) (h0 : ¬ t.val % 5 = 0) (h1 : t.val % 5 = 4) (p : T6 F) : T6 F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) p.2.1 p.2.2.1 p.2.2.2.1 p.2.2.2.2.1 p.2.2.2.2.2, p.2.1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) p.2.1 p.2.2.1 p.2.2.2.1 p.2.2.2.2.1 p.2.2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) p.2.1 p.2.2.1 p.2.2.2.1 p.2.2.2.2.1 p.2.2.2.2.2, sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) p.2.1 p.2.2.1 p.2.2.2.1 p.2.2.2.2.1 p.2.2.2.2.2, sout1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) p.2.1 p.2.2.1 p.2.2.2.1 p.2.2.2.2.1 p.2.2.2.2.2)

/-- What the output window's buffer and the five scratch buffers hold after the body at position `n`. -/
def outsAt1 (c : Dev nD) : (n : ℕ) → n < cfg1.N → T6 F
  | 0, hn => stepA V c ⟨0, hn⟩ (Nat.zero_mod 5)
  | n + 1, hn =>
    if h0 : (n + 1) % 5 = 0 then stepA V c ⟨n + 1, hn⟩ h0
    else if h1 : (n + 1) % 5 = 4 then stepC V c ⟨n + 1, hn⟩ h0 h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 5 = 0) : outsAt1 V c t.val t.isLt = stepA V c t h0 := by
  obtain ⟨n, hn⟩ := t
  cases n with
  | zero => exact rfl
  | succ n => exact (dif_pos h0).trans rfl
theorem outsAt1_B (c : Dev nD) (t : Fin cfg1.N) (h0 : ¬ t.val % 5 = 0) (h1 : ¬ t.val % 5 = 4) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬ t.val % 5 = 0) (h1 : t.val % 5 = 4) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The core's scoped buffers that are no staging buffer of this region: the other region's staging buffers at
    anything, and the five scratch buffers as given. -/
def scoped1 (c : Dev nD) (S0 S1 S2 S3 S4 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1 ∗ S2 ∗ S3 ∗ S4)

theorem PhiA1_sc (c : Dev nD) :
    (Pipeline.ΦA spec1 c : sProp 𝕄) = iprop(scoped1 c iprop(∃ d, owns (c : Thread nD τ) scM1_0 fullShare d) iprop(∃ d, owns (c : Thread nD τ) scM1_1 fullShare d) iprop(∃ d, owns (c : Thread nD τ) scM1_2 fullShare d) iprop(∃ d, owns (c : Thread nD τ) scM1_3 fullShare d) iprop(∃ d, owns (c : Thread nD τ) scM1_4 fullShare d) ∗ (∃ r, prngReg c r)) := by
  rw [PhiA1_eq]; rfl

/-- The region invariant before position `n`: before the first point every scratch buffer at anything; afterwards
    each at what the point before left in it. The generator register at some state throughout. -/
def PhiS (c : Dev nD) : (n : ℕ) → n ≤ cfg1.N → sProp 𝕄
  | 0, _ => Pipeline.ΦA spec1 c
  | n + 1, hn => iprop(scoped1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2.1) (owns (c : Thread nD τ) scM1_3 fullShare (outsAt1 V c n hn).2.2.2.2.1) (owns (c : Thread nD τ) scM1_4 fullShare (outsAt1 V c n hn).2.2.2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scoped1 c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2.1) (owns (c : Thread nD τ) scM1_3 fullShare (outsAt1 V c n hn).2.2.2.2.1) (owns (c : Thread nD τ) scM1_4 fullShare (outsAt1 V c n hn).2.2.2.2.2) ∗ (∃ r, prngReg c r)) := rfl
theorem PhiS_pos (c : Dev nD) (n : ℕ) (h : n ≤ cfg1.N) (hz : n ≠ 0) :
    PhiS V c n h = iprop(scoped1 c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2.1) (owns (c : Thread nD τ) scM1_3 fullShare (outsAt1 V c (n - 1) (by omega)).2.2.2.2.1) (owns (c : Thread nD τ) scM1_4 fullShare (outsAt1 V c (n - 1) (by omega)).2.2.2.2.2) ∗ (∃ r, prngReg c r)) := by
  cases n with
  | zero => exact absurd rfl hz
  | succ n => rfl

/-- The proof data of the attention region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5_live (c : Dev nD) (t : Fin cfg1.N) (h1 : t.val % 5 = 4) :
    (dat1 V c).leavesExact 5 t = owns (c : Thread nD τ) (ms1_5 t) fullShare ((outsAt1 V c t.val t.isLt).1) := by
  unfold Dat.leavesExact; rw [liveAt1_5 t ((hcond1_1 t).mpr h1), after1_5]
theorem leaves1_5_idle (c : Dev nD) (t : Fin cfg1.N) (h1 : ¬ t.val % 5 = 4) :
    (dat1 V c).leavesExact 5 t = iprop(∃ d, owns (c : Thread nD τ) (ms1_5 t) fullShare ((dat1 V c).before 5 t d)) :=
  Dat.leavesExact_idle (dat1 V c) 5 t (idleAt1_5 t (notc1 t h1)) (noFlush1_5 t (notc1 t h1))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_sc]
  unfold scoped1
  iintro ⟨⟨R0, R1, R2, R3, R4, R5, R6, R7, R8, R9, R10, R11, HS0, HS1, HS2, HS3, HS4⟩, Hg⟩
  isplitl [R0 R1 R2 R3 R4 R5 R6 R7 R8 R9 R10 R11 HS0 HS1 HS2 HS3 HS4]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    isplitl [HS1]; · iexists _; iexact HS1
    isplitl [HS2]; · iexists _; iexact HS2
    isplitl [HS3]; · iexists _; iexact HS3
    iexists _; iexact HS4
  iexact Hg

theorem hout1 (c : Dev nD) : (dat1 V c).Φ (Fin.last cfg1.N) ⊢ Pipeline.ΦA spec1 c :=
  Phi_out1 V c _ (by rw [Fin.val_last]; have : cfg1.N = 200 := N_1; omega)

end Region

end Cert.KernelIdeal.Hand

end
-- ==== Proof.KiReg1SA.lean ====
import proofs.«413954_j46394236731667_3_alg».proof.Proof.KiReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body obligation at a point whose key tile is 0 -/
section Region
variable (V : (c : Dev nD) → (b : Ref sig .tc) → Buf (Elt F) ((c : Thread nD τ).loc b))

set_option maxHeartbeats 1500000 in
/-- At the very first point the scratch buffers hold anything (the class's invariant). -/
theorem sound1_A0 (c : Dev nD) (t : Fin cfg1.N) (h0 : t.val % 5 = 0) (hz : t.val = 0) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have h1 : ¬ t.val % 5 = 4 := by omega
  rw [leaves1_5_idle V c t h1, outsAt1_A V c t h0]
  unfold stepA sout1_A_0 sout1_A_1 sout1_A_2 sout1_A_3 sout1_A_4; (try dsimp only)
  rw [PhiS_castSucc V c t, PhiS_zero V c _ _ hz, PhiA1_sc]; unfold scoped1
  iintro ⟨⟨⟨R0, R1, R2, R3, R4, R5, R6, R7, R8, R9, R10, R11, HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%es0, HS0⟩, ⟨%es1, HS1⟩, ⟨%es2, HS2⟩, ⟨%es3, HS3⟩, ⟨%es4, HS4⟩⟩
  isplitl [R0 R1 R2 R3 R4 R5 R6 R7 R8 R9 R10 R11 HS0 HS1 HS2 HS3 HS4 Hg]
  · isplitl [R0 R1 R2 R3 R4 R5 R6 R7 R8 R9 R10 R11 HS0 HS1 HS2 HS3 HS4]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [HS0]
      · unfold owns; iexists _; isplitr
        swap; · iexact HS0
        ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      isplitl [HS1]
      · unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      isplitl [HS2]
      · unfold owns; iexists _; isplitr
        swap; · iexact HS2
        ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      isplitl [HS3]
      · unfold owns; iexists _; isplitr
        swap; · iexact HS3
        ipureintro; exact View.read_writes_of_cover _ _ _ _ _ (scover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      unfold owns; iexists _; isplitr
      swap; · iexact HS4
      ipureintro; exact View.read_writes_of_cover _ _ _ _ _ (scover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1500000 in
/-- At a later point whose key tile is 0 the scratch buffers' named contents are simply forgotten: the body resets them. -/
theorem sound1_A1 (c : Dev nD) (t : Fin cfg1.N) (h0 : t.val % 5 = 0) (hz : t.val ≠ 0) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have h1 : ¬ t.val % 5 = 4 := by omega
  rw [leaves1_5_idle V c t h1, outsAt1_A V c t h0]
  unfold stepA sout1_A_0 sout1_A_1 sout1_A_2 sout1_A_3 sout1_A_4; (try dsimp only)
  rw [PhiS_castSucc V c t, PhiS_pos V c _ _ hz]; unfold scoped1
  iintro ⟨⟨⟨R0, R1, R2, R3, R4, R5, R6, R7, R8, R9, R10, R11, HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, ⟨%es0, HS0⟩, ⟨%es1, HS1⟩, ⟨%es2, HS2⟩, ⟨%es3, HS3⟩, ⟨%es4, HS4⟩⟩
  isplitl [R0 R1 R2 R3 R4 R5 R6 R7 R8 R9 R10 R11 HS0 HS1 HS2 HS3 HS4 Hg]
  · isplitl [R0 R1 R2 R3 R4 R5 R6 R7 R8 R9 R10 R11 HS0 HS1 HS2 HS3 HS4]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [HS0]
      · unfold owns; iexists _; isplitr
        swap; · iexact HS0
        ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      isplitl [HS1]
      · unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      isplitl [HS2]
      · unfold owns; iexists _; isplitr
        swap; · iexact HS2
        ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      isplitl [HS3]
      · unfold owns; iexists _; isplitr
        swap; · iexact HS3
        ipureintro; exact View.read_writes_of_cover _ _ _ _ _ (scover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
      unfold owns; iexists _; isplitr
      swap; · iexact HS4
      ipureintro; exact View.read_writes_of_cover _ _ _ _ _ (scover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) ((hcond1_0 t).mpr h0) (notc1 t h1) (iblk1 V c 0 t) (iblk1 V c 1 t) (iblk1 V c 2 t) (iblk1 V c 3 t) (iblk1 V c 4 t))
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Region

end Cert.KernelIdeal.Hand

end
-- ==== Proof.KiReg1SB.lean ====
import proofs.«413954_j46394236731667_3_alg».proof.Proof.KiReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body obligation at a point whose key tile is 1, 2 or 3 -/
section Region
variable (V : (c : Dev nD) → (b : Ref sig .tc) → Buf (Elt F) ((c : Thread nD τ).loc b))

set_option maxHeartbeats 1500000 in
theorem sound1_B (c : Dev nD) (t : Fin cfg1.N) (h0 : ¬ t.val % 5 = 0) (h1 : ¬ t.val % 5 = 4) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hz : t.val ≠ 0 := fun e => h0 (by rw [e])
  rw [leaves1_5_idle V c t h1, outsAt1_B V c t h0 h1]
  unfold stepB sout1_B_1 sout1_B_2 sout1_B_3 sout1_B_4; (try dsimp only)
  rw [PhiS_castSucc V c t, PhiS_pos V c _ _ hz]; unfold scoped1
  iintro ⟨⟨⟨R0, R1, R2, R3, R4, R5, R6, R7, R8, R9, R10, R11, HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, ⟨%es1, HS1⟩, ⟨%es2, HS2⟩, ⟨%es3, HS3⟩, ⟨%es4, HS4⟩⟩
  isplitl [R0 R1 R2 R3 R4 R5 R6 R7 R8 R9 R10 R11 HS0 HS1 HS2 HS3 HS4 Hg]
  · isplitl [R0 R1 R2 R3 R4 R5 R6 R7 R8 R9 R10 R11 HS0 HS1 HS2 HS3 HS4]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [HS0]; · iexact HS0
      isplitl [HS1]
      · unfold owns; iexists _; isplitr
        swap; · iexact HS1
        ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
      isplitl [HS2]
      · unfold owns; iexists _; isplitr
        swap; · iexact HS2
        ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
      isplitl [HS3]
      · unfold owns; iexists _; isplitr
        swap; · iexact HS3
        ipureintro; exact View.read_writes_of_cover _ _ _ _ _ (scover1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
      unfold owns; iexists _; isplitr
      swap; · iexact HS4
      ipureintro; exact View.read_writes_of_cover _ _ _ _ _ (scover1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) (notc1 t h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Region

end Cert.KernelIdeal.Hand

end
-- ==== Proof.KiReg1SC.lean ====
import proofs.«413954_j46394236731667_3_alg».proof.Proof.KiReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body obligation at a point whose key tile is 4 -/
section Region
variable (V : (c : Dev nD) → (b : Ref sig .tc) → Buf (Elt F) ((c : Thread nD τ).loc b))

set_option maxHeartbeats 1500000 in
theorem sound1_C (c : Dev nD) (t : Fin cfg1.N) (h0 : ¬ t.val % 5 = 0) (h1 : t.val % 5 = 4) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hz : t.val ≠ 0 := fun e => h0 (by rw [e])
  rw [leaves1_5_live V c t h1, outsAt1_C V c t h0 h1]
  unfold stepC out1_C_5 sout1_C_1 sout1_C_2 sout1_C_3 sout1_C_4; (try dsimp only)
  rw [PhiS_castSucc V c t, PhiS_pos V c _ _ hz]; unfold scoped1
  iintro ⟨⟨⟨R0, R1, R2, R3, R4, R5, R6, R7, R8, R9, R10, R11, HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, HS0, ⟨%es1, HS1⟩, ⟨%es2, HS2⟩, ⟨%es3, HS3⟩, ⟨%es4, HS4⟩⟩
  isplitl [R0 R1 R2 R3 R4 R5 R6 R7 R8 R9 R10 R11 HS0 HS1 HS2 HS3 HS4 Hg]
  · isplitl [R0 R1 R2 R3 R4 R5 R6 R7 R8 R9 R10 R11 HS0 HS1 HS2 HS3 HS4]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [HS0]; · iexact HS0
      isplitl [HS1]
      · unfold owns; iexists _; isplitr
        swap; · iexact HS1
        ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
      isplitl [HS2]
      · unfold owns; iexists _; isplitr
        swap; · iexact HS2
        ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
      isplitl [HS3]
      · unfold owns; iexists _; isplitr
        swap; · iexact HS3
        ipureintro; exact View.read_writes_of_cover _ _ _ _ _ (scover1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
      unfold owns; iexists _; isplitr
      swap; · iexact HS4
      ipureintro; exact View.read_writes_of_cover _ _ _ _ _ (scover1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) scM1_4 (Memref.isWhole_whole _) (notc0 t h0) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2)

end Region

end Cert.KernelIdeal.Hand

end
-- ==== Proof.KiReg1Ob.lean ====
import proofs.«413954_j46394236731667_3_alg».proof.Proof.KiReg1SA
import proofs.«413954_j46394236731667_3_alg».proof.Proof.KiReg1SB
import proofs.«413954_j46394236731667_3_alg».proof.Proof.KiReg1SC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention kernel's body obligation, by cases on the key tile -/
section Region
variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 5 = 0
  · by_cases hz : t.val = 0
    · exact sound1_A0 V c t h0 hz
    · exact sound1_A1 V c t h0 hz
  · by_cases h1 : t.val % 5 = 4
    · exact sound1_C V c t h0 h1
    · exact sound1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KiRun.lean ====
import proofs.«413954_j46394236731667_3_alg».proof.Proof.KiReg0
import proofs.«413954_j46394236731667_3_alg».proof.Proof.KiReg1Ob
import proofs.«413954_j46394236731667_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run of the whole program

@main is: twelve host operations (reshape and pad the three inputs), the normalising region, one host copy (the
residual's padded buffer into the attention region's output array), the attention region, two host operations (slice
the padding off, reshape back). The buffer contents at each boundary are a fold from the launch memory; the launch
theorem for a list of host stretches and regions gives a run whose every final memory holds each unscoped buffer at
the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: the normalising region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the normalising region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host copy: the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the end of @main. -/
abbrev W5 : Dev nD → Valuation τ sig (Elt F) := fun c => StableHlo.after hostOps2 (W4 m ρ c)

/-- A buffer that no host operation writes and that is no array of either region ends as launched. -/
theorem W5_keep (c : Dev nD) (r : Ref sig .tc) (h0 : r ∉ (hostOps0_W : List (Ref sig .tc))) (h1 : r ∉ (hostOps1_W : List (Ref sig .tc)))
    (h2 : r ∉ (hostOps2_W : List (Ref sig .tc))) (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_keep m ρ c main_arg0 (by decide) (by decide) (by decide) (by decide) (by decide)
theorem W5_main_arg1 (c : Dev nD) : W5 m ρ c (Proc.devRef .tc main_arg1) = m ((c : Thread nD τ).loc main_arg1) :=
  W5_keep m ρ c main_arg1 (by decide) (by decide) (by decide) (by decide) (by decide)
theorem W5_main_arg2 (c : Dev nD) : W5 m ρ c (Proc.devRef .tc main_arg2) = m ((c : Thread nD τ).loc main_arg2) :=
  W5_keep m ρ c main_arg2 (by decide) (by decide) (by decide) (by decide) (by decide)

/-! ## The proof data family and the thread state -/

abbrev adm : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register. -/
abbrev Tₙ (c : Dev nD) : sProp 𝕄 := iprop(StableHlo.held (c : Thread nD τ) (Pipeline.ucRefs τ sig) (W5 m ρ c) ∗ ∃ r, prngReg c r)

set_option backward.isDefEq.respectTransparency.types false in
set_option maxHeartbeats 2000000 in
/-- Region 0 over the thread state "every unscoped buffer at the boundary's contents, the generator register at
    some state, nothing owed": entered from the contents `W1`, left at `W2`. Its arrays are split out of the
    unscoped buffers and put back at what the write-backs leave; the generator register goes into the region's
    invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 1 over the thread state "every unscoped buffer at the boundary's contents, the generator register at
    some state, nothing owed": entered from the contents `W3`, left at `W4`. Its arrays are split out of the
    unscoped buffers and put back at what the write-backs leave; the generator register goes into the region's
    invariant and comes back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    refine BIBase.Entails.trans (show (pdats m ρ 1 c).Φ (Fin.last _) ⊢ Pipeline.ΦA spec1 c from hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
set_option maxHeartbeats 2000000 in
/-- THE RUN: from any memory with zero counters every weakly fair execution of @main terminates, nothing faulting,
    and every final memory holds each unscoped buffer at the end's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.KiVal0P.lean ====
import proofs.«413954_j46394236731667_3_alg».proof.Proof.KiReg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What the normalising kernel's stores leave, as payloads of the input blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The first result's buffer ends at the normalised first input block. -/
theorem out0_2_eq (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) :
    out0_2 c i arg2 harg2 arg3 harg3 arg4 harg4 arg5 harg5 arg6 harg6 arg7 harg7 x0 x1 = k0_pay4 x0 := by
  unfold out0_2
  rw [View.read_writes_eq_canon _ _ _ (cover0_2 c i arg2 harg2 arg3 harg3 arg4 harg4 arg5 harg5 arg6 harg6 arg7 harg7 x0 x1)]
  unfold kernelRun0
  dsimp only
  sl_unfold_words
  rw [View.canon_unit_zero hz3]
  simp only [View.readAt_eq_ld, harg2.read_unread, harg3.read_unread, View.ld_unit_zero (S := S1x512x640) hz3]
/-- The second result's buffer ends at the column of the first input block's clamped norms. -/
theorem out0_3_eq (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) :
    out0_3 c i arg2 harg2 arg3 harg3 arg4 harg4 arg5 harg5 arg6 harg6 arg7 harg7 x0 x1 = k0_pay5 x0 := by
  unfold out0_3
  rw [View.read_writes_eq_canon _ _ _ (cover0_3 c i arg2 harg2 arg3 harg3 arg4 harg4 arg5 harg5 arg6 harg6 arg7 harg7 x0 x1)]
  unfold kernelRun0
  dsimp only
  sl_unfold_words
  rw [View.canon_unit_zero hz3]
  simp only [View.readAt_eq_ld, harg2.read_unread, harg3.read_unread, View.ld_unit_zero (S := S1x512x640) hz3]
/-- The third result's buffer ends at the normalised second input block. -/
theorem out0_4_eq (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) :
    out0_4 c i arg2 harg2 arg3 harg3 arg4 harg4 arg5 harg5 arg6 harg6 arg7 harg7 x0 x1 = k0_pay8 x1 := by
  unfold out0_4
  rw [View.read_writes_eq_canon _ _ _ (cover0_4 c i arg2 harg2 arg3 harg3 arg4 harg4 arg5 harg5 arg6 harg6 arg7 harg7 x0 x1)]
  unfold kernelRun0
  dsimp only
  sl_unfold_words
  rw [View.canon_unit_zero hz3]
  simp only [View.readAt_eq_ld, harg2.read_unread, harg3.read_unread, View.ld_unit_zero (S := S1x512x640) hz3]
/-- The fourth result's buffer ends at the column of the second input block's clamped norms. -/
theorem out0_5_eq (c : Dev nD) (i : grid0.Coords) (arg2 : Memref sig .tc .vmem S1x512x640 .f32) (harg2 : arg2.IsWhole) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (x0 : Vec F S1x512x640 .f32) (x1 : Vec F S1x512x640 .f32) :
    out0_5 c i arg2 harg2 arg3 harg3 arg4 harg4 arg5 harg5 arg6 harg6 arg7 harg7 x0 x1 = k0_pay1 (k0_pay9 x1) := by
  unfold out0_5
  rw [View.read_writes_eq_canon _ _ _ (cover0_5 c i arg2 harg2 arg3 harg3 arg4 harg4 arg5 harg5 arg6 harg6 arg7 harg7 x0 x1)]
  unfold kernelRun0
  dsimp only
  sl_unfold_words
  rw [View.canon_unit_zero hz3]
  simp only [View.readAt_eq_ld, harg2.read_unread, harg3.read_unread, View.ld_unit_zero (S := S1x512x640) hz3]

end Cert.KernelIdeal.Hand

end
-- ==== Proof.Spec.lean ====
import Idealize.ShloMosaic.PureOps.Ideal

/-! # The mathematics of both programs, over the reals

Inputs are three arrays of shape (8, 512, 56, 56). Flattened over the last two axes they are (batch, channel, token)
with 3136 tokens. The kernel pads the token axis with zeros to 3200 = 5 · 640 and works on tiles of 640 tokens.

Everything here is a plain definition over real-valued functions of literal `Fin` indices; no program is mentioned. -/

noncomputable section

namespace Cert.Spec

open Finset

/-- The clamp below the column norm: the real the single-precision pattern of `1e-12` denotes. -/
def epsR : ℝ := 9223372 / 2 ^ 63
/-- The residual scale: the real the single-precision pattern of `0.001` denotes. -/
def facR : ℝ := 8589935 / 2 ^ 33

theorem epsR_pos : 0 < epsR := by unfold epsR; positivity
theorem facR_pos : 0 < facR := by unfold facR; positivity

/-! ## Block level: what one call of a kernel body computes from real blocks -/

/-- A block of 512 channels by 640 tokens. -/
abbrev Blk := Fin 512 → Fin 640 → ℝ

/-- The clamped Euclidean norm of token `n`'s channel vector. -/
def nrm (X : Blk) (n : Fin 640) : ℝ := max (Real.sqrt (∑ c, X c n * X c n)) epsR
theorem nrm_pos (X : Blk) (n : Fin 640) : 0 < nrm X n := lt_of_lt_of_le epsR_pos (le_max_right _ _)
/-- The block with every token's channel vector divided by its clamped norm. -/
def nrmlz (X : Blk) : Blk := fun c n => X c n / nrm X n

/-- The weight of key `m` (a row) for query `n` (a column) in key tile `ki`: the exponential of minus the inner
    product of the normalised key and query vectors; zero for a key in the padding (global index 3136 or more). -/
def pw (ki : ℕ) (K QN : Blk) (m n : Fin 640) : ℝ :=
  if ki * 640 + m.val < 3136 then Real.exp (0 - ∑ c, K c m * QN c n) else 0
/-- One key tile added onto a denominator. -/
def lstep (L : Fin 640 → ℝ) (Pw : Fin 640 → Fin 640 → ℝ) : Fin 640 → ℝ := fun n => L n + ∑ m, Pw m n
/-- One key tile added onto a numerator: the normalised keys times (weight times clamped key norm). -/
def astep (A : Blk) (K : Blk) (Pw : Fin 640 → Fin 640 → ℝ) (N : Fin 640 → ℝ) : Blk :=
  fun c n => A c n + ∑ m, K c m * (Pw m n * N m)
/-- The output block: the residual plus the two scaled quotients. -/
def outBlk (X A2 A3 : Blk) (L2 L3 : Fin 640 → ℝ) : Blk :=
  fun c n => X c n + facR * (A2 c n / L2 n) + facR * (A3 c n / L3 n)

/-! ## Array level, the kernel's way: padded arrays, tiles, five accumulation steps -/

/-- An input array: (batch, channel, row, column). -/
abbrev In := Fin 8 → Fin 512 → Fin 56 → Fin 56 → ℝ
/-- A padded flattened array for one batch element: (channel, token below 3200). -/
abbrev Pad := Fin 512 → Fin 3200 → ℝ

/-- Flatten the two image axes and pad the token axis with zeros. -/
def padR (x : In) (b : Fin 8) : Pad := fun c n =>
  if h : n.val < 3136 then x b c ⟨n.val / 56, by omega⟩ ⟨n.val % 56, Nat.mod_lt _ (by omega)⟩ else 0
/-- Tile `k` (of five) of a padded array. -/
def tile (A : Pad) (k : ℕ) : Blk := fun c r => if h : k * 640 + r.val < 3200 then A c ⟨k * 640 + r.val, h⟩ else 0
/-- The column of clamped norms of tile `k`. -/
def tnrm (A : Pad) (k : ℕ) : Fin 640 → ℝ := nrm (tile A k)

/-- The denominator after key tiles `0 … k`, for the query block `QN` and the padded key array `A`. -/
def accL (QN : Blk) (A : Pad) : ℕ → Fin 640 → ℝ
  | 0 => lstep (fun _ => 0) (pw 0 (nrmlz (tile A 0)) QN)
  | k + 1 => lstep (accL QN A k) (pw (k + 1) (nrmlz (tile A (k + 1))) QN)
/-- The numerator after key tiles `0 … k`. -/
def accA (QN : Blk) (A : Pad) : ℕ → Blk
  | 0 => astep (fun _ _ => 0) (nrmlz (tile A 0)) (pw 0 (nrmlz (tile A 0)) QN) (tnrm A 0)
  | k + 1 => astep (accA QN A k) (nrmlz (tile A (k + 1))) (pw (k + 1) (nrmlz (tile A (k + 1))) QN) (tnrm A (k + 1))

/-- The kernel's padded output for batch `b`, query tile `qi`: a block. -/
def kerBlk (x1 x2 x3 : In) (b : Fin 8) (qi : ℕ) : Blk :=
  let X := tile (padR x1 b) qi
  let QN := nrmlz X
  outBlk X (accA QN (padR x2 b) 4) (accA QN (padR x3 b) 4) (accL QN (padR x2 b) 4) (accL QN (padR x3 b) 4)

/-- The kernel's result: the padded output sliced back to 3136 tokens and reshaped. -/
def Gk (x1 x2 x3 : In) (b : Fin 8) (c : Fin 512) (h w : Fin 56) : ℝ :=
  kerBlk x1 x2 x3 b ((h.val * 56 + w.val) / 640) c ⟨(h.val * 56 + w.val) % 640, Nat.mod_lt _ (by omega)⟩

/-! ## Array level, the reference's way: whole arrays over the 3136 real tokens -/

/-- Flattened: (batch, channel, token below 3136). -/
def flat (x : In) (b : Fin 8) (c : Fin 512) (n : Fin 3136) : ℝ :=
  x b c ⟨n.val / 56, by omega⟩ ⟨n.val % 56, Nat.mod_lt _ (by omega)⟩
/-- The clamped norm of a token's channel vector. -/
def rnrm (x : In) (b : Fin 8) (n : Fin 3136) : ℝ := max (Real.sqrt (∑ c, flat x b c n * flat x b c n)) epsR
theorem rnrm_pos (x : In) (b : Fin 8) (n : Fin 3136) : 0 < rnrm x b n := lt_of_lt_of_le epsR_pos (le_max_right _ _)
/-- The normalised array. -/
def rn (x : In) (b : Fin 8) (c : Fin 512) (n : Fin 3136) : ℝ := flat x b c n / rnrm x b n
/-- The score of query `n` against key `m`: minus the inner product of the normalised vectors. -/
def score (x1 xk : In) (b : Fin 8) (n m : Fin 3136) : ℝ := -(∑ c, rn x1 b c n * rn xk b c m)
/-- The largest score of a query (the shift of the softmax). -/
def smax (x1 xk : In) (b : Fin 8) (n : Fin 3136) : ℝ := univ.sup' univ_nonempty (fun m => score x1 xk b n m)
/-- The shifted exponential. -/
def sexp (x1 xk : In) (b : Fin 8) (n m : Fin 3136) : ℝ := Real.exp (score x1 xk b n m - smax x1 xk b n)
/-- The softmax weight. -/
def soft (x1 xk : In) (b : Fin 8) (n m : Fin 3136) : ℝ := sexp x1 xk b n m / ∑ m', sexp x1 xk b n m'
/-- The attended values: the raw keys averaged with the softmax weights. -/
def att (x1 xk : In) (b : Fin 8) (c : Fin 512) (n : Fin 3136) : ℝ := ∑ m, flat xk b c m * soft x1 xk b n m
/-- The reference's result. -/
def G (x1 x2 x3 : In) (b : Fin 8) (c : Fin 512) (h w : Fin 56) : ℝ :=
  x1 b c h w + facR * att x1 x2 b c ⟨h.val * 56 + w.val, by omega⟩ + facR * att x1 x3 b c ⟨h.val * 56 + w.val, by omega⟩

end Cert.Spec

end
-- ==== Proof.KiCoe.lean ====
import proofs.«413954_j46394236731667_3_alg».proof.Proof.Gen.KernelIdeal.Skeleton
import proofs.«413954_j46394236731667_3_alg».proof.Proof.Spec
import Idealize.ShloMosaic.Lib.ValueIdx

/-! # Real blocks as vectors of extended reals

A vector of the idealised kernel holds extended reals. These definitions present a real-valued block, column or
weight matrix as such a vector of each shape the kernel uses, every entry the coercion of the real entry. -/

noncomputable section

namespace Cert.KernelIdeal.Hand

open Cert.KernelIdeal Idealize.ShloMosaic

/-- A (512 × 640) real block as a vector of shape (1, 512, 640): the leading unit axis ignored. -/
def cB3 (X : Spec.Blk) : S1x512x640.Idx → EReal := fun i => ((X (i 1) (i 2) : ℝ) : EReal)
/-- The same block as a vector of shape (512, 640). -/
def cB2 (X : Spec.Blk) : S512x640.Idx → EReal := fun i => ((X (i 0) (i 1) : ℝ) : EReal)
/-- A real column of 640 entries as a vector of shape (1, 640, 1). -/
def cN3 (N : Fin 640 → ℝ) : S1x640x1.Idx → EReal := fun i => ((N (i 1) : ℝ) : EReal)
/-- A real row of 640 entries as a vector of shape (1, 640). -/
def cL2 (L : Fin 640 → ℝ) : S1x640.Idx → EReal := fun i => ((L (i 1) : ℝ) : EReal)
/-- A (640 × 640) real matrix as a vector of that shape: rows are keys, columns queries. -/
def cP (Pw : Fin 640 → Fin 640 → ℝ) : S640x640.Idx → EReal := fun i => ((Pw (i 0) (i 1) : ℝ) : EReal)

end Cert.KernelIdeal.Hand

end
-- ==== Proof.Consts.lean ====
import proofs.«413954_j46394236731667_3_alg».proof.Proof.Spec

/-! # The float literals the programs spell, as the reals their patterns denote -/

noncomputable section

namespace Cert.Consts

open Idealize.ShloMosaic

/-- The single-precision pattern of `1e-12`: (2^23 + 834764) / 2^63. -/
theorem ofBits_eps : Ideal.ofBits .f32 0x2B8CBCCC#32 = ((Cert.Spec.epsR : ℝ) : EReal) := by
  unfold Cert.Spec.epsR
  simp [Ideal.ofBits, Ideal.ieee, -EReal.coe_mul]; norm_num

/-- The single-precision pattern of `0.001`: (2^23 + 201327) / 2^33. -/
theorem ofBits_fac : Ideal.ofBits .f32 0x3A83126F#32 = ((Cert.Spec.facR : ℝ) : EReal) := by
  unfold Cert.Spec.facR
  simp [Ideal.ofBits, Ideal.ieee, -EReal.coe_mul]; norm_num

/-- The zero pattern. -/
theorem ofBits_zero : Ideal.ofBits .f32 0x00000000#32 = 0 := by
  simp [Ideal.ofBits, Ideal.ieee]

/-- Minus infinity's pattern (the reference's initial value of a running maximum). -/
theorem ofBits_neg_inf : Ideal.ofBits .f32 0xFF800000#32 = ⊥ := by
  simp [Ideal.ofBits, Ideal.ieee]

end Cert.Consts

end
-- ==== Proof.KiPay0.lean ====
import proofs.«413954_j46394236731667_3_alg».proof.Proof.KiCoe
import proofs.«413954_j46394236731667_3_alg».proof.Proof.Consts
import Idealize.ShloMosaic.PureOps.IdealRules
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic
open Idealize.ShloMosaic.ValueIdx

/-! # The normalising kernel's stored values, at real blocks

Each value the body stores, applied to an input block whose entries are reals, is the coercion of a real function
of that block: the block with every token's channel vector divided by its clamped norm, and the column of clamped
norms. A rounding to half precision is the identity on the extended reals. -/

/-! ## The shared computation

All five values are built from one vector-level computation on a (512 × 640) block: square every entry, add the
squares of each column, take the square root, clamp it from below, and divide the block by the resulting row. The
lemmas below read each stage at a block of coerced reals; the five statements then follow by rewriting. -/

/-- A finite sum of coerced reals is the coercion of the sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The row of clamped column norms, as the kernels compute it from a (512 × 640) vector: the square root of each
    column's sum of squares, clamped below by the constant. -/
def nrmRow (V : FVec Ideal S512x640 .f32) : FVec Ideal S1x640 .f32 :=
  maximumf (sqrt (shapeCast S1x640 (multiReduction .add [0] S640 (mulf V V) 0x00000000#32 reduces_S512x640_S640 (.inl rfl) rfl) shapeCasts_S640_S1x640)) (broadcast S1x640 (Scalar.ofBits .f32 0x2B8CBCCC#32))

/-- The block divided, column by column, by its row of clamped norms, then rounded to half precision. -/
def nrmlzV (V : FVec Ideal S512x640 .f32) : FVec Ideal S512x640 .bf16 :=
  truncf .bf16 (divf V (broadcastTo S512x640 (nrmRow V) broadcasts_S1x640_S512x640)) bitsLt_bf16_f32

/-! Each payload is, by unfolding alone, one of these two computations applied to the block with its unit axis dropped,
followed by a change of shape. -/

theorem k0_pay4_eq (v0 : Vec Ideal S1x512x640 .f32) :
    k0_pay4 (F := Ideal) v0 = shapeCast S1x512x640 (nrmlzV (k0_pay2 v0)) shapeCasts_S512x640_S1x512x640 := rfl
theorem k0_pay8_eq (v0 : Vec Ideal S1x512x640 .f32) :
    k0_pay8 (F := Ideal) v0 = shapeCast S1x512x640 (nrmlzV (k0_pay2 v0)) shapeCasts_S512x640_S1x512x640 := rfl
theorem k1_pay1_eq (v0 : Vec Ideal S1x512x640 .f32) :
    k1_pay1 (F := Ideal) v0 = shapeCast S512x640 (nrmlzV (k0_pay2 v0)) shapeCasts_S512x640_S512x640 := rfl
theorem k0_pay5_eq (v0 : Vec Ideal S1x512x640 .f32) :
    k0_pay5 (F := Ideal) v0 = shapeCast S1x640x1 (transpose S640x1 [1, 0] (nrmRow (k0_pay2 v0)) transposes_S1x640_p1_0_S640x1) shapeCasts_S640x1_S1x640x1 := rfl
theorem k0_pay19_eq (v0 : Vec Ideal S1x512x640 .f32) :
    k0_pay1 (F := Ideal) (k0_pay9 (F := Ideal) v0) = shapeCast S1x640x1 (transpose S640x1 [1, 0] (nrmRow (k0_pay2 v0)) transposes_S1x640_p1_0_S640x1) shapeCasts_S640x1_S1x640x1 := rfl

/-- Dropping the leading unit axis of a real block presented with three axes gives the block presented with two. -/
theorem k0_pay2_real (X : Spec.Blk) : k0_pay2 (F := Ideal) (cB3 X) = cB2 X := by
  funext j
  obtain ⟨c, n, rfl⟩ : ∃ c n, j = ix2 c n := ⟨j 0, j 1, eq_ix2 j⟩
  exact shapeCast_1ab_ab_apply (cB3 X) shapeCasts_S1x512x640_S512x640 c n

/-- The entrywise square of a real block is the coercion of the real squares. -/
theorem sq_real (X : Spec.Blk) : mulf (F := Ideal) (φ := .f32) (cB2 X) (cB2 X) = cB2 (fun c n => X c n * X c n) := by
  funext j
  show ((X (j 0) (j 1) : ℝ) : EReal) * ((X (j 0) (j 1) : ℝ) : EReal) = ((X (j 0) (j 1) * X (j 0) (j 1) : ℝ) : EReal)
  rw [EReal.coe_mul]

/-- The sum over the channel axis of a real block, at column `n`, is the coercion of the real sum over the channels. -/
theorem colsum_real (Y : Spec.Blk) (n : Fin 640) :
    multiReduction (F := Ideal) .add [0] S640 (cB2 Y) 0x00000000#32 reduces_S512x640_S640 (.inl rfl) rfl (ix1 n)
      = ((∑ c, Y c n : ℝ) : EReal) := by
  refine (Ideal.multiReduction_add_single (φ := .f32) (cB2 Y) _ reduces_S512x640_S640 _ _ (ix1 n)).trans ?_
  refine Eq.trans ?_ (coe_sum Finset.univ (fun c => Y c n))
  exact Finset.sum_congr rfl (fun k _ => rfl)

/-- The row of clamped column norms of a real block is the coercion of the real clamped norms: a sum of squares is
    nonnegative, so its extended square root is the real one, and the coercion commutes with the maximum. -/
theorem nrmRow_real (X : Spec.Blk) : nrmRow (cB2 X) = cL2 (Spec.nrm X) := by
  funext j
  obtain ⟨u, n, rfl⟩ : ∃ u n, j = ix2 u n := ⟨j 0, j 1, eq_ix2 j⟩
  show max (Ideal.sqrt (shapeCast S1x640 (multiReduction (F := Ideal) .add [0] S640 (mulf (F := Ideal) (φ := .f32) (cB2 X) (cB2 X)) 0x00000000#32 reduces_S512x640_S640 (.inl rfl) rfl) shapeCasts_S640_S1x640 (ix2 u n))) (Ideal.ofBits .f32 0x2B8CBCCC#32) = ((Spec.nrm X n : ℝ) : EReal)
  rw [shapeCast_a_1a_apply, Consts.ofBits_eps, sq_real, colsum_real, Ideal.sqrt_coe,
    if_neg (not_lt.mpr (Finset.sum_nonneg fun c _ => mul_self_nonneg (X c n)))]
  exact (EReal.coe_strictMono.monotone.map_max).symm

/-- The quotient of a real block by its row of clamped norms is the coercion of the real normalised block: the divisor
    is the coercion of a positive real, so the extended quotient is the real one. -/
theorem nrmlzV_real (X : Spec.Blk) : nrmlzV (cB2 X) = cB2 (Spec.nrmlz X) := by
  funext j
  obtain ⟨c, n, rfl⟩ : ∃ c n, j = ix2 c n := ⟨j 0, j 1, eq_ix2 j⟩
  show Ideal.div ((X c n : ℝ) : EReal) (broadcastTo S512x640 (nrmRow (cB2 X)) broadcasts_S1x640_S512x640 (ix2 c n))
    = ((X c n / Spec.nrm X n : ℝ) : EReal)
  rw [nrmRow_real, broadcastTo_1b_ab_apply]
  show Ideal.div ((X c n : ℝ) : EReal) ((Spec.nrm X n : ℝ) : EReal) = _
  rw [Ideal.div_coe (ne_of_gt (Spec.nrm_pos X n)), ← EReal.coe_mul, mul_one_div]

/-- Adding a leading unit axis to a real block presented with two axes gives the block presented with three. -/
theorem to3_real (Y : Spec.Blk) : shapeCast S1x512x640 (cB2 Y) shapeCasts_S512x640_S1x512x640 = cB3 Y := by
  funext j
  obtain ⟨u, c, n, rfl⟩ : ∃ u c n, j = ix3 u c n := ⟨j 0, j 1, j 2, eq_ix3 j⟩
  exact shapeCast_ab_1ab_apply (cB2 Y) shapeCasts_S512x640_S1x512x640 u c n

/-- A real row transposed into a column, with a leading unit axis added, is the column presentation of the same reals. -/
theorem col_real (N : Fin 640 → ℝ) :
    shapeCast S1x640x1 (transpose S640x1 [1, 0] (cL2 N) transposes_S1x640_p1_0_S640x1) shapeCasts_S640x1_S1x640x1 = cN3 N := by
  funext j
  obtain ⟨u, n, w, rfl⟩ : ∃ u n w, j = ix3 u n w := ⟨j 0, j 1, j 2, eq_ix3 j⟩
  refine (shapeCast_ab_1ab_apply _ shapeCasts_S640x1_S1x640x1 u n w).trans ?_
  exact transpose_ix2_apply (cL2 N) transposes_S1x640_p1_0_S640x1 n w

/-! ## The five stored values -/

theorem k0_pay4_real (X : Spec.Blk) : k0_pay4 (F := Ideal) (cB3 X) = cB3 (Spec.nrmlz X) := by
  rw [k0_pay4_eq, k0_pay2_real, nrmlzV_real, to3_real]
theorem k0_pay5_real (X : Spec.Blk) : k0_pay5 (F := Ideal) (cB3 X) = cN3 (Spec.nrm X) := by
  rw [k0_pay5_eq, k0_pay2_real, nrmRow_real, col_real]
theorem k0_pay8_real (X : Spec.Blk) : k0_pay8 (F := Ideal) (cB3 X) = cB3 (Spec.nrmlz X) := by
  rw [k0_pay8_eq, k0_pay2_real, nrmlzV_real, to3_real]
theorem k0_pay19_real (X : Spec.Blk) : k0_pay1 (F := Ideal) (k0_pay9 (F := Ideal) (cB3 X)) = cN3 (Spec.nrm X) := by
  rw [k0_pay19_eq, k0_pay2_real, nrmRow_real, col_real]
/-- The attention kernel normalises its query block the same way. -/
theorem k1_pay1_real (X : Spec.Blk) : k1_pay1 (F := Ideal) (cB3 X) = cB2 (Spec.nrmlz X) := by
  rw [k1_pay1_eq, k0_pay2_real, nrmlzV_real, shapeCast_self]

end Cert.KernelIdeal.Hand

end
-- ==== Proof.SpecArr.lean ====
import proofs.«413954_j46394236731667_3_alg».proof.Proof.Spec

/-! # The arrays between the program's steps, over the reals -/

noncomputable section

namespace Cert.Spec

/-- A padded array: (batch, channel, token below 3200). -/
abbrev Arr := Fin 8 → Fin 512 → Fin 3200 → ℝ
/-- A column array: (batch, token below 3200). -/
abbrev Col := Fin 8 → Fin 3200 → ℝ

/-- Column `n` of a padded array lies in tile `n / 640` at column `n % 640`. -/
def colOf (n : Fin 3200) : Fin 640 := ⟨n.val % 640, Nat.mod_lt _ (by omega)⟩

/-- The padded input. -/
def padA (x : In) : Arr := fun b => padR x b
/-- The normalised padded input, tile by tile (what the normalising kernel writes as its first and third results). -/
def knA (x : In) : Arr := fun b c n => nrmlz (tile (padR x b) (n.val / 640)) c (colOf n)
/-- The clamped norms, tile by tile (its second and fourth results). -/
def nmA (x : In) : Col := fun b n => tnrm (padR x b) (n.val / 640) (colOf n)
/-- The attention kernel's padded output, block by block. -/
def outA (x1 x2 x3 : In) : Arr := fun b c n => kerBlk x1 x2 x3 b (n.val / 640) c (colOf n)

/-- Tile `k` of batch `b` of a padded array, as a block. -/
def tileA (A : Arr) (b : Fin 8) (k : ℕ) : Blk := tile (A b) k
/-- Tile `k` of batch `b` of a column array. -/
def tileC (N : Col) (b : Fin 8) (k : ℕ) : Fin 640 → ℝ := fun r => if h : k * 640 + r.val < 3200 then N b ⟨k * 640 + r.val, h⟩ else 0

end Cert.Spec

end
-- ==== Proof.SpecCoe.lean ====
import proofs.«413954_j46394236731667_3_alg».proof.Proof.Spec
import Idealize.ShloMosaic.Lib.ValueIdx

/-! # A real input array as an array of extended reals -/

noncomputable section

namespace Cert.Spec

open Idealize.ShloMosaic

/-- A real (8, 512, 56, 56) array as a buffer of extended reals: every entry the coercion of the real entry. -/
def cIn (x : In) : (⟨4, ![8, 512, 56, 56]⟩ : Shape).Idx → EReal := fun i => ((x (i 0) (i 1) (i 2) (i 3) : ℝ) : EReal)

end Cert.Spec

end
-- ==== Proof.KiCoeA.lean ====
import proofs.«413954_j46394236731667_3_alg».proof.Proof.KiCoe
import proofs.«413954_j46394236731667_3_alg».proof.Proof.SpecArr
import proofs.«413954_j46394236731667_3_alg».proof.Proof.SpecCoe

/-! # Real arrays as buffers of extended reals -/

noncomputable section

namespace Cert.KernelIdeal.Hand

open Cert.KernelIdeal Idealize.ShloMosaic

/-- A padded real array as a buffer of shape (8, 512, 3200). -/
def cA3 (A : Spec.Arr) : S8x512x3200.Idx → EReal := fun i => ((A (i 0) (i 1) (i 2) : ℝ) : EReal)
/-- A real column array as a buffer of shape (8, 3200, 1). -/
def cC3 (N : Spec.Col) : S8x3200x1.Idx → EReal := fun i => ((N (i 0) (i 1) : ℝ) : EReal)

end Cert.KernelIdeal.Hand

end
-- ==== Proof.Blocks.lean ====
import proofs.«413954_j46394236731667_3_alg».proof.Proof.KiCoeA
import proofs.«413954_j46394236731667_3_alg».proof.Proof.Gen.KernelIdeal.Points
import proofs.«413954_j46394236731667_3_alg».proof.Proof.Gen.KernelIdeal.Launch
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic

/-! # Blocks of real arrays

Grid point `t` of the normalising kernel is (batch `t / 5`, token tile `t % 5`); of the attention kernel (batch
`t / 25`, query tile `t / 5 % 5`, key tile `t % 5`). Each window's block at a point, read off an array of coerced
reals, is the coerced tile of the real array; and the written-back blocks of each output window cover its array. -/

/-- The batch element of a point of the normalising kernel's grid. -/
def b0 (t : Fin cfg0.N) : Fin 8 := ⟨t.val / 5, by have := t.isLt; have h : cfg0.N = 40 := N_0; omega⟩
/-- The batch element of a point of the attention kernel's grid. -/
def b1 (t : Fin cfg1.N) : Fin 8 := ⟨t.val / 25, by have := t.isLt; have h : cfg1.N = 200 := N_1; omega⟩

open Idealize.ShloMosaic.ValueIdx

/-- The attention kernel's key-tile coordinate. -/
theorem coords1_2 (t : Fin cfg1.N) : (grid1.coords t 2).val = t.val % 5 := by
  exact (by decide +kernel : ∀ t : Fin grid1.N, (grid1.coords t 2).val = t.val % 5) t

/-! ## The block index of every window at every point, decided over the grid -/

theorem ix0_0 : ∀ t : Fin cfg0.N, win0_0.index t (0 : Fin 3) = t.val / 5 ∧ win0_0.index t (1 : Fin 3) = 0 ∧ win0_0.index t (2 : Fin 3) = t.val % 5 :=
  (by decide +kernel : ∀ t : Fin grid0.N, _)
theorem ix0_1 : ∀ t : Fin cfg0.N, win0_1.index t (0 : Fin 3) = t.val / 5 ∧ win0_1.index t (1 : Fin 3) = 0 ∧ win0_1.index t (2 : Fin 3) = t.val % 5 :=
  (by decide +kernel : ∀ t : Fin grid0.N, _)
theorem ix0_2 : ∀ t : Fin cfg0.N, win0_2.index t (0 : Fin 3) = t.val / 5 ∧ win0_2.index t (1 : Fin 3) = 0 ∧ win0_2.index t (2 : Fin 3) = t.val % 5 :=
  (by decide +kernel : ∀ t : Fin grid0.N, _)
theorem ix0_4 : ∀ t : Fin cfg0.N, win0_4.index t (0 : Fin 3) = t.val / 5 ∧ win0_4.index t (1 : Fin 3) = 0 ∧ win0_4.index t (2 : Fin 3) = t.val % 5 :=
  (by decide +kernel : ∀ t : Fin grid0.N, _)
theorem ix0_3 : ∀ t : Fin cfg0.N, win0_3.index t (0 : Fin 3) = t.val / 5 ∧ win0_3.index t (1 : Fin 3) = t.val % 5 ∧ win0_3.index t (2 : Fin 3) = 0 :=
  (by decide +kernel : ∀ t : Fin grid0.N, _)
theorem ix0_5 : ∀ t : Fin cfg0.N, win0_5.index t (0 : Fin 3) = t.val / 5 ∧ win0_5.index t (1 : Fin 3) = t.val % 5 ∧ win0_5.index t (2 : Fin 3) = 0 :=
  (by decide +kernel : ∀ t : Fin grid0.N, _)
theorem ix1_0 : ∀ t : Fin cfg1.N, win1_0.index t (0 : Fin 3) = t.val / 25 ∧ win1_0.index t (1 : Fin 3) = 0 ∧ win1_0.index t (2 : Fin 3) = t.val / 5 % 5 :=
  (by decide +kernel : ∀ t : Fin grid1.N, _)
theorem ix1_1 : ∀ t : Fin cfg1.N, win1_1.index t (0 : Fin 3) = t.val / 25 ∧ win1_1.index t (1 : Fin 3) = 0 ∧ win1_1.index t (2 : Fin 3) = t.val % 5 :=
  (by decide +kernel : ∀ t : Fin grid1.N, _)
theorem ix1_2 : ∀ t : Fin cfg1.N, win1_2.index t (0 : Fin 3) = t.val / 25 ∧ win1_2.index t (1 : Fin 3) = t.val % 5 ∧ win1_2.index t (2 : Fin 3) = 0 :=
  (by decide +kernel : ∀ t : Fin grid1.N, _)
theorem ix1_3 : ∀ t : Fin cfg1.N, win1_3.index t (0 : Fin 3) = t.val / 25 ∧ win1_3.index t (1 : Fin 3) = 0 ∧ win1_3.index t (2 : Fin 3) = t.val % 5 :=
  (by decide +kernel : ∀ t : Fin grid1.N, _)
theorem ix1_4 : ∀ t : Fin cfg1.N, win1_4.index t (0 : Fin 3) = t.val / 25 ∧ win1_4.index t (1 : Fin 3) = t.val % 5 ∧ win1_4.index t (2 : Fin 3) = 0 :=
  (by decide +kernel : ∀ t : Fin grid1.N, _)
theorem ix1_5 : ∀ t : Fin cfg1.N, win1_5.index t (0 : Fin 3) = t.val / 25 ∧ win1_5.index t (1 : Fin 3) = 0 ∧ win1_5.index t (2 : Fin 3) = t.val / 5 % 5 :=
  (by decide +kernel : ∀ t : Fin grid1.N, _)

/-! ## One block of each shape, entry by entry -/

/-- An entry of a padded array whose coordinates are block index times block size plus the local coordinate, for the
    block index (batch `b`, 0, tile `k`) of a (1 × 512 × 640) block, is the local entry of tile `k` of batch `b`. -/
theorem blkA (A : Spec.Arr) (b : Fin 8) (k : ℕ) (hk : k < 5) (i : S8x512x3200.Idx) (y : S1x512x640.Idx) (j0 j1 j2 : ℕ)
    (c0 : (i 0).val = j0 * 1 + 1 * (y 0).val) (c1 : (i 1).val = j1 * 512 + 1 * (y 1).val)
    (c2 : (i 2).val = j2 * 640 + 1 * (y 2).val) (h0 : j0 = b.val) (h1 : j1 = 0) (h2 : j2 = k) :
    cA3 A i = cB3 (Spec.tileA A b k) y := by
  have hy0 : (y 0).val < 1 := (y 0).isLt
  have hy : (y 2).val < 640 := (y 2).isLt
  have hlt : k * 640 + (y 2).val < 3200 := by omega
  show ((A (i 0) (i 1) (i 2) : ℝ) : EReal) = ((Spec.tile (A b) k (y 1) (y 2) : ℝ) : EReal)
  unfold Spec.tile
  rw [dif_pos hlt]
  have e0 : i 0 = b := Fin.ext (by omega)
  have e1 : i 1 = y 1 := Fin.ext (by omega)
  have e2 : i 2 = ⟨k * 640 + (y 2).val, hlt⟩ := Fin.ext (by show (i 2).val = k * 640 + (y 2).val; omega)
  rw [e0, e1, e2]
  rfl

/-- The same for a column array and a (1 × 640 × 1) block with block index (batch `b`, tile `k`, 0). -/
theorem blkC (N : Spec.Col) (b : Fin 8) (k : ℕ) (hk : k < 5) (i : S8x3200x1.Idx) (y : S1x640x1.Idx) (j0 j1 j2 : ℕ)
    (c0 : (i 0).val = j0 * 1 + 1 * (y 0).val) (c1 : (i 1).val = j1 * 640 + 1 * (y 1).val)
    (c2 : (i 2).val = j2 * 1 + 1 * (y 2).val) (h0 : j0 = b.val) (h1 : j1 = k) (h2 : j2 = 0) :
    cC3 N i = cN3 (Spec.tileC N b k) y := by
  have hy0 : (y 0).val < 1 := (y 0).isLt
  have hy : (y 1).val < 640 := (y 1).isLt
  have hlt : k * 640 + (y 1).val < 3200 := by omega
  show ((N (i 0) (i 1) : ℝ) : EReal) = ((Spec.tileC N b k (y 1) : ℝ) : EReal)
  unfold Spec.tileC
  rw [dif_pos hlt]
  have e0 : i 0 = b := Fin.ext (by omega)
  have e1 : i 1 = ⟨k * 640 + (y 1).val, hlt⟩ := Fin.ext (by show (i 1).val = k * 640 + (y 1).val; omega)
  rw [e0, e1]
  rfl

/-! ## The normalising kernel's windows -/

theorem rd0_0 (t : Fin cfg0.N) (A : Spec.Arr) :
    ((cfg0.win 0).blk t).view.read (Elt Ideal) (cA3 A) = cB3 (Spec.tileA A (b0 t) (t.val % 5)) := by
  obtain ⟨e0, e1, e2⟩ := ix0_0 t
  funext y
  rw [View.read_apply, cast_eq]
  exact blkA A (b0 t) (t.val % 5) (by omega) _ y (win0_0.index t 0) (win0_0.index t 1) (win0_0.index t 2) rfl rfl rfl e0 e1 e2
theorem rd0_1 (t : Fin cfg0.N) (A : Spec.Arr) :
    ((cfg0.win 1).blk t).view.read (Elt Ideal) (cA3 A) = cB3 (Spec.tileA A (b0 t) (t.val % 5)) := by
  obtain ⟨e0, e1, e2⟩ := ix0_1 t
  funext y
  rw [View.read_apply, cast_eq]
  exact blkA A (b0 t) (t.val % 5) (by omega) _ y (win0_1.index t 0) (win0_1.index t 1) (win0_1.index t 2) rfl rfl rfl e0 e1 e2
theorem rd0_2 (t : Fin cfg0.N) (A : Spec.Arr) :
    ((cfg0.win 2).blk t).view.read (Elt Ideal) (cA3 A) = cB3 (Spec.tileA A (b0 t) (t.val % 5)) := by
  obtain ⟨e0, e1, e2⟩ := ix0_2 t
  funext y
  rw [View.read_apply, cast_eq]
  exact blkA A (b0 t) (t.val % 5) (by omega) _ y (win0_2.index t 0) (win0_2.index t 1) (win0_2.index t 2) rfl rfl rfl e0 e1 e2
theorem rd0_3 (t : Fin cfg0.N) (N : Spec.Col) :
    ((cfg0.win 3).blk t).view.read (Elt Ideal) (cC3 N) = cN3 (Spec.tileC N (b0 t) (t.val % 5)) := by
  obtain ⟨e0, e1, e2⟩ := ix0_3 t
  funext y
  rw [View.read_apply, cast_eq]
  exact blkC N (b0 t) (t.val % 5) (by omega) _ y (win0_3.index t 0) (win0_3.index t 1) (win0_3.index t 2) rfl rfl rfl e0 e1 e2
theorem rd0_4 (t : Fin cfg0.N) (A : Spec.Arr) :
    ((cfg0.win 4).blk t).view.read (Elt Ideal) (cA3 A) = cB3 (Spec.tileA A (b0 t) (t.val % 5)) := by
  obtain ⟨e0, e1, e2⟩ := ix0_4 t
  funext y
  rw [View.read_apply, cast_eq]
  exact blkA A (b0 t) (t.val % 5) (by omega) _ y (win0_4.index t 0) (win0_4.index t 1) (win0_4.index t 2) rfl rfl rfl e0 e1 e2
theorem rd0_5 (t : Fin cfg0.N) (N : Spec.Col) :
    ((cfg0.win 5).blk t).view.read (Elt Ideal) (cC3 N) = cN3 (Spec.tileC N (b0 t) (t.val % 5)) := by
  obtain ⟨e0, e1, e2⟩ := ix0_5 t
  funext y
  rw [View.read_apply, cast_eq]
  exact blkC N (b0 t) (t.val % 5) (by omega) _ y (win0_5.index t 0) (win0_5.index t 1) (win0_5.index t 2) rfl rfl rfl e0 e1 e2

/-- Every index of an output array lies in the block some point writes back (every point writes back). -/
theorem cov0_2 (i : S8x512x3200.Idx) : ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 3200 := (i 2).isLt
  have hN : cfg0.N = 40 := N_0
  have ht : (i 0).val * 5 + (i 2).val / 640 < cfg0.N := by omega
  obtain ⟨e0, e1, e2⟩ := ix0_2 ⟨(i 0).val * 5 + (i 2).val / 640, ht⟩
  have e0' : win0_2.index ⟨(i 0).val * 5 + (i 2).val / 640, ht⟩ (0 : Fin 3) = (i 0).val := by rw [e0]; show ((i 0).val * 5 + (i 2).val / 640) / 5 = _; omega
  have e2' : win0_2.index ⟨(i 0).val * 5 + (i 2).val / 640, ht⟩ (2 : Fin 3) = (i 2).val / 640 := by rw [e2]; show ((i 0).val * 5 + (i 2).val / 640) % 5 = _; omega
  refine ⟨⟨(i 0).val * 5 + (i 2).val / 640, ht⟩, flush0_2 _, ?_⟩
  show i ∈ ((View.whole main_call0_v6_0).slice (win0_2.rect ⟨(i 0).val * 5 + (i 2).val / 640, ht⟩)).set
  rw [View.set_slice_whole, Rect.mem_set_unit]
  intro a
  match a with
  | ⟨0, _⟩ =>
    show win0_2.index ⟨(i 0).val * 5 + (i 2).val / 640, ht⟩ (0 : Fin 3) * 1 ≤ (i 0).val ∧ (i 0).val < win0_2.index ⟨(i 0).val * 5 + (i 2).val / 640, ht⟩ (0 : Fin 3) * 1 + 1
    omega
  | ⟨1, _⟩ =>
    show win0_2.index ⟨(i 0).val * 5 + (i 2).val / 640, ht⟩ (1 : Fin 3) * 512 ≤ (i 1).val ∧ (i 1).val < win0_2.index ⟨(i 0).val * 5 + (i 2).val / 640, ht⟩ (1 : Fin 3) * 512 + 512
    omega
  | ⟨2, _⟩ =>
    show win0_2.index ⟨(i 0).val * 5 + (i 2).val / 640, ht⟩ (2 : Fin 3) * 640 ≤ (i 2).val ∧ (i 2).val < win0_2.index ⟨(i 0).val * 5 + (i 2).val / 640, ht⟩ (2 : Fin 3) * 640 + 640
    omega
theorem cov0_3 (i : S8x3200x1.Idx) : ∃ t : Fin cfg0.N, (cfg0.win 3).flush t = true ∧ i ∈ ((cfg0.win 3).blk t).view.set := by
  have hi0 : (i 0).val < 8 := (i 0).isLt
  have hi1 : (i 1).val < 3200 := (i 1).isLt
  have hi2 : (i 2).val < 1 := (i 2).isLt
  have hN : cfg0.N = 40 := N_0
  have ht : (i 0).val * 5 + (i 1).val / 640 < cfg0.N := by omega
  obtain ⟨e0, e1, e2⟩ := ix0_3 ⟨(i 0).val * 5 + (i 1).val / 640, ht⟩
  have e0' : win0_3.index ⟨(i 0).val * 5 + (i 1).val / 640, ht⟩ (0 : Fin 3) = (i 0).val := by rw [e0]; show ((i 0).val * 5 + (i 1).val / 640) / 5 = _; omega
  have e1' : win0_3.index ⟨(i 0).val * 5 + (i 1).val / 640, ht⟩ (1 : Fin 3) = (i 1).val / 640 := by rw [e1]; show ((i 0).val * 5 + (i 1).val / 640) % 5 = _; omega
  refine ⟨⟨(i 0).val * 5 + (i 1).val / 640, ht⟩, flush0_3 _, ?_⟩
  show i ∈ ((View.whole main_call0_v6_1).slice (win0_3.rect ⟨(i 0).val * 5 + (i 1).val / 640, ht⟩)).set
  rw [View.set_slice_whole, Rect.mem_set_unit]
  intro a
  match a with
  | ⟨0, _⟩ =>
    show win0_3.index ⟨(i 0).val * 5 + (i 1).val / 640, ht⟩ (0 : Fin 3) * 1 ≤ (i 0).val ∧ (i 0).val < win0_3.index ⟨(i 0).val * 5 + (i 1).val / 640, ht⟩ (0 : Fin 3) * 1 + 1
    omega
  | ⟨1, _⟩ =>
    show win0_3.index ⟨(i 0).val * 5 + (i 1).val / 640, ht⟩ (1 : Fin 3) * 640 ≤ (i 1).val ∧ (i 1).val < win0_3.index ⟨(i 0).val * 5 + (i 1).val / 640, ht⟩ (1 : Fin 3) * 640 + 640
    omega
  | ⟨2, _⟩ =>
    show win0_3.index ⟨(i 0).val * 5 + (i 1).val / 640, ht⟩ (2 : Fin 3) * 1 ≤ (i 2).val ∧ (i 2).val < win0_3.index ⟨(i 0).val * 5 + (i 1).val / 640, ht⟩ (2 : Fin 3) * 1 + 1
    omega
theorem cov0_4 (i : S8x512x3200.Idx) : ∃ t : Fin cfg0.N, (cfg0.win 4).flush t = true ∧ i ∈ ((cfg0.win 4).blk t).view.set := by
  have hi0 : (i 0).val < 8 := (i 0).isLt
  have hi1 : (i 1).val < 512 := (i 1).isLt
  have hi2 : (i 2).val < 3200 := (i 2).isLt
  have hN : cfg0.N = 40 := N_0
  have ht : (i 0).val * 5 + (i 2).val / 640 < cfg0.N := by omega
  obtain ⟨e0, e1, e2⟩ := ix0_4 ⟨(i 0).val * 5 + (i 2).val / 640, ht⟩
  have e0' : win0_4.index ⟨(i 0).val * 5 + (i 2).val / 640, ht⟩ (0 : Fin 3) = (i 0).val := by rw [e0]; show ((i 0).val * 5 + (i 2).val / 640) / 5 = _; omega
  have e2' : win0_4.index ⟨(i 0).val * 5 + (i 2).val / 640, ht⟩ (2 : Fin 3) = (i 2).val / 640 := by rw [e2]; show ((i 0).val * 5 + (i 2).val / 640) % 5 = _; omega
  refine ⟨⟨(i 0).val * 5 + (i 2).val / 640, ht⟩, flush0_4 _, ?_⟩
  show i ∈ ((View.whole main_call0_v6_2).slice (win0_4.rect ⟨(i 0).val * 5 + (i 2).val / 640, ht⟩)).set
  rw [View.set_slice_whole, Rect.mem_set_unit]
  intro a
  match a with
  | ⟨0, _⟩ =>
    show win0_4.index ⟨(i 0).val * 5 + (i 2).val / 640, ht⟩ (0 : Fin 3) * 1 ≤ (i 0).val ∧ (i 0).val < win0_4.index ⟨(i 0).val * 5 + (i 2).val / 640, ht⟩ (0 : Fin 3) * 1 + 1
    omega
  | ⟨1, _⟩ =>
    show win0_4.index ⟨(i 0).val * 5 + (i 2).val / 640, ht⟩ (1 : Fin 3) * 512 ≤ (i 1).val ∧ (i 1).val < win0_4.index ⟨(i 0).val * 5 + (i 2).val / 640, ht⟩ (1 : Fin 3) * 512 + 512
    omega
  | ⟨2, _⟩ =>
    show win0_4.index ⟨(i 0).val * 5 + (i 2).val / 640, ht⟩ (2 : Fin 3) * 640 ≤ (i 2).val ∧ (i 2).val < win0_4.index ⟨(i 0).val * 5 + (i 2).val / 640, ht⟩ (2 : Fin 3) * 640 + 640
    omega
theorem cov0_5 (i : S8x3200x1.Idx) : ∃ t : Fin cfg0.N, (cfg0.win 5).flush t = true ∧ i ∈ ((cfg0.win 5).blk t).view.set := by
  have hi0 : (i 0).val < 8 := (i 0).isLt
  have hi1 : (i 1).val < 3200 := (i 1).isLt
  have hi2 : (i 2).val < 1 := (i 2).isLt
  have hN : cfg0.N = 40 := N_0
  have ht : (i 0).val * 5 + (i 1).val / 640 < cfg0.N := by omega
  obtain ⟨e0, e1, e2⟩ := ix0_5 ⟨(i 0).val * 5 + (i 1).val / 640, ht⟩
  have e0' : win0_5.index ⟨(i 0).val * 5 + (i 1).val / 640, ht⟩ (0 : Fin 3) = (i 0).val := by rw [e0]; show ((i 0).val * 5 + (i 1).val / 640) / 5 = _; omega
  have e1' : win0_5.index ⟨(i 0).val * 5 + (i 1).val / 640, ht⟩ (1 : Fin 3) = (i 1).val / 640 := by rw [e1]; show ((i 0).val * 5 + (i 1).val / 640) % 5 = _; omega
  refine ⟨⟨(i 0).val * 5 + (i 1).val / 640, ht⟩, flush0_5 _, ?_⟩
  show i ∈ ((View.whole main_call0_v6_3).slice (win0_5.rect ⟨(i 0).val * 5 + (i 1).val / 640, ht⟩)).set
  rw [View.set_slice_whole, Rect.mem_set_unit]
  intro a
  match a with
  | ⟨0, _⟩ =>
    show win0_5.index ⟨(i 0).val * 5 + (i 1).val / 640, ht⟩ (0 : Fin 3) * 1 ≤ (i 0).val ∧ (i 0).val < win0_5.index ⟨(i 0).val * 5 + (i 1).val / 640, ht⟩ (0 : Fin 3) * 1 + 1
    omega
  | ⟨1, _⟩ =>
    show win0_5.index ⟨(i 0).val * 5 + (i 1).val / 640, ht⟩ (1 : Fin 3) * 640 ≤ (i 1).val ∧ (i 1).val < win0_5.index ⟨(i 0).val * 5 + (i 1).val / 640, ht⟩ (1 : Fin 3) * 640 + 640
    omega
  | ⟨2, _⟩ =>
    show win0_5.index ⟨(i 0).val * 5 + (i 1).val / 640, ht⟩ (2 : Fin 3) * 1 ≤ (i 2).val ∧ (i 2).val < win0_5.index ⟨(i 0).val * 5 + (i 1).val / 640, ht⟩ (2 : Fin 3) * 1 + 1
    omega

/-! ## The attention kernel's windows -/

theorem rd1_0 (t : Fin cfg1.N) (A : Spec.Arr) :
    ((cfg1.win 0).blk t).view.read (Elt Ideal) (cA3 A) = cB3 (Spec.tileA A (b1 t) (t.val / 5 % 5)) := by
  obtain ⟨e0, e1, e2⟩ := ix1_0 t
  funext y
  rw [View.read_apply, cast_eq]
  exact blkA A (b1 t) (t.val / 5 % 5) (by omega) _ y (win1_0.index t 0) (win1_0.index t 1) (win1_0.index t 2) rfl rfl rfl e0 e1 e2
theorem rd1_1 (t : Fin cfg1.N) (A : Spec.Arr) :
    ((cfg1.win 1).blk t).view.read (Elt Ideal) (cA3 A) = cB3 (Spec.tileA A (b1 t) (t.val % 5)) := by
  obtain ⟨e0, e1, e2⟩ := ix1_1 t
  funext y
  rw [View.read_apply, cast_eq]
  exact blkA A (b1 t) (t.val % 5) (by omega) _ y (win1_1.index t 0) (win1_1.index t 1) (win1_1.index t 2) rfl rfl rfl e0 e1 e2
theorem rd1_2 (t : Fin cfg1.N) (N : Spec.Col) :
    ((cfg1.win 2).blk t).view.read (Elt Ideal) (cC3 N) = cN3 (Spec.tileC N (b1 t) (t.val % 5)) := by
  obtain ⟨e0, e1, e2⟩ := ix1_2 t
  funext y
  rw [View.read_apply, cast_eq]
  exact blkC N (b1 t) (t.val % 5) (by omega) _ y (win1_2.index t 0) (win1_2.index t 1) (win1_2.index t 2) rfl rfl rfl e0 e1 e2
theorem rd1_3 (t : Fin cfg1.N) (A : Spec.Arr) :
    ((cfg1.win 3).blk t).view.read (Elt Ideal) (cA3 A) = cB3 (Spec.tileA A (b1 t) (t.val % 5)) := by
  obtain ⟨e0, e1, e2⟩ := ix1_3 t
  funext y
  rw [View.read_apply, cast_eq]
  exact blkA A (b1 t) (t.val % 5) (by omega) _ y (win1_3.index t 0) (win1_3.index t 1) (win1_3.index t 2) rfl rfl rfl e0 e1 e2
theorem rd1_4 (t : Fin cfg1.N) (N : Spec.Col) :
    ((cfg1.win 4).blk t).view.read (Elt Ideal) (cC3 N) = cN3 (Spec.tileC N (b1 t) (t.val % 5)) := by
  obtain ⟨e0, e1, e2⟩ := ix1_4 t
  funext y
  rw [View.read_apply, cast_eq]
  exact blkC N (b1 t) (t.val % 5) (by omega) _ y (win1_4.index t 0) (win1_4.index t 1) (win1_4.index t 2) rfl rfl rfl e0 e1 e2
theorem rd1_5 (t : Fin cfg1.N) (A : Spec.Arr) :
    ((cfg1.win 5).blk t).view.read (Elt Ideal) (cA3 A) = cB3 (Spec.tileA A (b1 t) (t.val / 5 % 5)) := by
  obtain ⟨e0, e1, e2⟩ := ix1_5 t
  funext y
  rw [View.read_apply, cast_eq]
  exact blkA A (b1 t) (t.val / 5 % 5) (by omega) _ y (win1_5.index t 0) (win1_5.index t 1) (win1_5.index t 2) rfl rfl rfl e0 e1 e2

/-- Every index of the output array lies in the block some point with key tile 4 writes back. -/
theorem cov1_5 (i : S8x512x3200.Idx) : ∃ t : Fin cfg1.N, (cfg1.win 5).flush t = true ∧ i ∈ ((cfg1.win 5).blk t).view.set := by
  have hi0 : (i 0).val < 8 := (i 0).isLt
  have hi1 : (i 1).val < 512 := (i 1).isLt
  have hi2 : (i 2).val < 3200 := (i 2).isLt
  have hN : cfg1.N = 200 := N_1
  have ht : (i 0).val * 25 + (i 2).val / 640 * 5 + 4 < cfg1.N := by omega
  obtain ⟨e0, e1, e2⟩ := ix1_5 ⟨(i 0).val * 25 + (i 2).val / 640 * 5 + 4, ht⟩
  have e0' : win1_5.index ⟨(i 0).val * 25 + (i 2).val / 640 * 5 + 4, ht⟩ (0 : Fin 3) = (i 0).val := by rw [e0]; show ((i 0).val * 25 + (i 2).val / 640 * 5 + 4) / 25 = _; omega
  have e2' : win1_5.index ⟨(i 0).val * 25 + (i 2).val / 640 * 5 + 4, ht⟩ (2 : Fin 3) = (i 2).val / 640 := by rw [e2]; show ((i 0).val * 25 + (i 2).val / 640 * 5 + 4) / 5 % 5 = _; omega
  refine ⟨⟨(i 0).val * 25 + (i 2).val / 640 * 5 + 4, ht⟩, (flush1_5 _).mpr (by show ((i 0).val * 25 + (i 2).val / 640 * 5 + 4) % 5 = 4; omega), ?_⟩
  show i ∈ ((View.whole main_call0_v7).slice (win1_5.rect ⟨(i 0).val * 25 + (i 2).val / 640 * 5 + 4, ht⟩)).set
  rw [View.set_slice_whole, Rect.mem_set_unit]
  intro a
  match a with
  | ⟨0, _⟩ =>
    show win1_5.index ⟨(i 0).val * 25 + (i 2).val / 640 * 5 + 4, ht⟩ (0 : Fin 3) * 1 ≤ (i 0).val ∧ (i 0).val < win1_5.index ⟨(i 0).val * 25 + (i 2).val / 640 * 5 + 4, ht⟩ (0 : Fin 3) * 1 + 1
    omega
  | ⟨1, _⟩ =>
    show win1_5.index ⟨(i 0).val * 25 + (i 2).val / 640 * 5 + 4, ht⟩ (1 : Fin 3) * 512 ≤ (i 1).val ∧ (i 1).val < win1_5.index ⟨(i 0).val * 25 + (i 2).val / 640 * 5 + 4, ht⟩ (1 : Fin 3) * 512 + 512
    omega
  | ⟨2, _⟩ =>
    show win1_5.index ⟨(i 0).val * 25 + (i 2).val / 640 * 5 + 4, ht⟩ (2 : Fin 3) * 640 ≤ (i 2).val ∧ (i 2).val < win1_5.index ⟨(i 0).val * 25 + (i 2).val / 640 * 5 + 4, ht⟩ (2 : Fin 3) * 640 + 640
    omega

end Cert.KernelIdeal.Hand

end
-- ==== Proof.SpecTile.lean ====
import proofs.«413954_j46394236731667_3_alg».proof.Proof.SpecArr

/-! # Tiles of the array-level real functions -/

noncomputable section

namespace Cert.Spec

theorem tile_col (k : ℕ) (r : Fin 640) (hk : k < 5) :
    (k * 640 + r.val) / 640 = k ∧ (k * 640 + r.val) % 640 = r.val ∧ k * 640 + r.val < 3200 := by
  have := r.isLt; omega

/-- A tile of the padded input is the tile of the padded array of its batch element. -/
theorem tileA_padA (x : In) (b : Fin 8) (k : ℕ) : tileA (padA x) b k = tile (padR x b) k := rfl

/-- A tile of the normalised array is the normalised tile. -/
theorem tileA_knA (x : In) (b : Fin 8) (k : ℕ) (hk : k < 5) : tileA (knA x) b k = nrmlz (tile (padR x b) k) := by
  funext c r
  obtain ⟨h1, h2, h3⟩ := tile_col k r hk
  unfold tileA tile knA colOf
  rw [dif_pos h3]
  simp only [h1]
  congr 1
  exact Fin.ext h2

/-- A tile of the clamped-norm column array is the tile's column of clamped norms. -/
theorem tileC_nmA (x : In) (b : Fin 8) (k : ℕ) (hk : k < 5) : tileC (nmA x) b k = tnrm (padR x b) k := by
  funext r
  obtain ⟨h1, h2, h3⟩ := tile_col k r hk
  unfold tileC nmA colOf
  rw [dif_pos h3]
  simp only [h1]
  congr 1
  exact Fin.ext h2

/-- A tile of the padded output array is the output block of that query tile. -/
theorem tileA_outA (x1 x2 x3 : In) (b : Fin 8) (k : ℕ) (hk : k < 5) : tileA (outA x1 x2 x3) b k = kerBlk x1 x2 x3 b k := by
  funext c r
  obtain ⟨h1, h2, h3⟩ := tile_col k r hk
  unfold tileA tile outA colOf
  rw [dif_pos h3]
  simp only [h1]
  congr 1
  exact Fin.ext h2

end Cert.Spec

end
-- ==== Proof.KiVal0.lean ====
import proofs.«413954_j46394236731667_3_alg».proof.Proof.KiVal0P
import proofs.«413954_j46394236731667_3_alg».proof.Proof.KiPay0
import proofs.«413954_j46394236731667_3_alg».proof.Proof.Blocks
import proofs.«413954_j46394236731667_3_alg».proof.Proof.SpecTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The arrays the normalising kernel leaves

If the region finds its two input arrays holding the coerced padded reals, then after the region its first and third
result arrays hold the coerced normalised arrays and its second and fourth the coerced columns of clamped norms: at
every point the body's stores are the payloads of the input blocks, the input blocks are the coerced tiles, the
payloads of coerced tiles are the coerced normalised tiles, those are the blocks of the array-level functions, and the
written-back blocks cover each array. -/

section Region
variable (V : (c : Dev nD) → (b : Ref sig .tc) → Buf (Elt Ideal) ((c : Thread nD τ).loc b)) (x2 x3 : Spec.In)
  (c : Dev nD) (hV4 : V c main_call0_v4 = cA3 (Spec.padA x2)) (hV5 : V c main_call0_v5 = cA3 (Spec.padA x3))

theorem mod5_lt (t : Fin cfg0.N) : t.val % 5 < 5 := Nat.mod_lt _ (by omega)

include hV4 in
/-- The first input window's block at a point is the coerced tile of the padded second input. -/
theorem iblk0_0 (t : Fin cfg0.N) : iblk0 V c 0 t = cB3 (Spec.tile (Spec.padR x2 (b0 t)) (t.val % 5)) := by
  unfold iblk0
  rw [show V c (Pipeline.arrRef spec0 0) = cA3 (Spec.padA x2) from hV4]
  exact rd0_0 t _
include hV5 in
theorem iblk0_1 (t : Fin cfg0.N) : iblk0 V c 1 t = cB3 (Spec.tile (Spec.padR x3 (b0 t)) (t.val % 5)) := by
  unfold iblk0
  rw [show V c (Pipeline.arrRef spec0 1) = cA3 (Spec.padA x3) from hV5]
  exact rd0_1 t _

include hV4 in
theorem flushed0_2 (t : Fin cfg0.N) :
    (dat0 V c).flushed 2 t = ((cfg0.win 2).blk t).view.read (Elt Ideal) (cA3 (Spec.knA x2)) := by
  show (cfg0.win 2).cut (grid0.coords t) ((dat0 V c).after 2 t) = _
  rw [after0_2, out0_2_eq, iblk0_0 V x2 c hV4, k0_pay4_real, rd0_2, Spec.tileA_knA x2 _ _ (mod5_lt t)]
  rfl
include hV4 in
theorem flushed0_3 (t : Fin cfg0.N) :
    (dat0 V c).flushed 3 t = ((cfg0.win 3).blk t).view.read (Elt Ideal) (cC3 (Spec.nmA x2)) := by
  show (cfg0.win 3).cut (grid0.coords t) ((dat0 V c).after 3 t) = _
  rw [after0_3, out0_3_eq, iblk0_0 V x2 c hV4, k0_pay5_real, rd0_3, Spec.tileC_nmA x2 _ _ (mod5_lt t)]
  rfl
include hV5 in
theorem flushed0_4 (t : Fin cfg0.N) :
    (dat0 V c).flushed 4 t = ((cfg0.win 4).blk t).view.read (Elt Ideal) (cA3 (Spec.knA x3)) := by
  show (cfg0.win 4).cut (grid0.coords t) ((dat0 V c).after 4 t) = _
  rw [after0_4, out0_4_eq, iblk0_1 V x3 c hV5, k0_pay8_real, rd0_4, Spec.tileA_knA x3 _ _ (mod5_lt t)]
  rfl
include hV5 in
theorem flushed0_5 (t : Fin cfg0.N) :
    (dat0 V c).flushed 5 t = ((cfg0.win 5).blk t).view.read (Elt Ideal) (cC3 (Spec.nmA x3)) := by
  show (cfg0.win 5).cut (grid0.coords t) ((dat0 V c).after 5 t) = _
  rw [after0_5, out0_5_eq, iblk0_1 V x3 c hV5, k0_pay19_real, rd0_5, Spec.tileC_nmA x3 _ _ (mod5_lt t)]
  rfl

include hV4 in
/-- The first result array ends holding the normalised padded second input, -/
theorem final0_2 : (dat0 V c).arrAt 2 cfg0.N = cA3 (Spec.knA x2) :=
  (dat0 V c).arrAt_eq_of_cover 2 _ (fun t _ => flushed0_2 V x2 c hV4 t) cov0_2
include hV4 in
/-- the second its clamped norms, -/
theorem final0_3 : (dat0 V c).arrAt 3 cfg0.N = cC3 (Spec.nmA x2) :=
  (dat0 V c).arrAt_eq_of_cover 3 _ (fun t _ => flushed0_3 V x2 c hV4 t) cov0_3
include hV5 in
/-- the third the normalised padded third input, -/
theorem final0_4 : (dat0 V c).arrAt 4 cfg0.N = cA3 (Spec.knA x3) :=
  (dat0 V c).arrAt_eq_of_cover 4 _ (fun t _ => flushed0_4 V x3 c hV5 t) cov0_4
include hV5 in
/-- the fourth its clamped norms. -/
theorem final0_5 : (dat0 V c).arrAt 5 cfg0.N = cC3 (Spec.nmA x3) :=
  (dat0 V c).arrAt_eq_of_cover 5 _ (fun t _ => flushed0_5 V x3 c hV5 t) cov0_5

end Region

end Cert.KernelIdeal.Hand

end
-- ==== Proof.KiVal1P.lean ====
import proofs.«413954_j46394236731667_3_alg».proof.Proof.KiReg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What the attention kernel's stores leave, as payloads of the blocks and of the scratch contents before

A store through the whole buffer, last, leaves its payload; a load through the whole buffer of what one such store left
reads that payload; a load of an untouched buffer reads its contents. -/

theorem hz3' : (![0, 0, 0] : Fin 3 → Nat) = fun _ => 0 := funext fun a => by fin_cases a <;> rfl
theorem hz2' : (![0, 0] : Fin 2 → Nat) = fun _ => 0 := funext fun a => by fin_cases a <;> rfl
set_option maxHeartbeats 1000000 in
theorem sout1_A_0_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) :
    sout1_A_0 c i arg3 harg3 arg4 harg4 arg5 harg5 arg6 harg6 arg7 harg7 arg8 harg8 arg9 harg9 arg10 harg10 arg11 harg11 arg12 harg12 arg13 harg13 hc0 hc1 x0 x1 x2 x3 x4 = k1_pay1 x0 := by
  unfold sout1_A_0
  rw [View.read_writes_eq_canon _ _ _ (scover1_A_0 c i arg3 harg3 arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_A_1_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) :
    sout1_A_1 c i arg3 harg3 arg4 harg4 arg5 harg5 arg6 harg6 arg7 harg7 arg8 harg8 arg9 harg9 arg10 harg10 arg11 harg11 arg12 harg12 arg13 harg13 hc0 hc1 x0 x1 x2 x3 x4 = k1_pay13 (k1_pay6 x1) (k1_pay9 i (k1_pay1 x0) x1) x2 k1_pay3 := by
  unfold sout1_A_1
  rw [View.read_writes_eq_canon _ _ _ (scover1_A_1 c i arg3 harg3 arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_cons_unit_zero (S := S512x640) hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_A_2_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) :
    sout1_A_2 c i arg3 harg3 arg4 harg4 arg5 harg5 arg6 harg6 arg7 harg7 arg8 harg8 arg9 harg9 arg10 harg10 arg11 harg11 arg12 harg12 arg13 harg13 hc0 hc1 x0 x1 x2 x3 x4 = k1_pay14 (k1_pay7 x3) (k1_pay10 i (k1_pay1 x0) x3) x4 k1_pay5 := by
  unfold sout1_A_2
  rw [View.read_writes_eq_canon _ _ _ (scover1_A_2 c i arg3 harg3 arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_cons_unit_zero (S := S512x640) hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_A_3_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) :
    sout1_A_3 c i arg3 harg3 arg4 harg4 arg5 harg5 arg6 harg6 arg7 harg7 arg8 harg8 arg9 harg9 arg10 harg10 arg11 harg11 arg12 harg12 arg13 harg13 hc0 hc1 x0 x1 x2 x3 x4 = k1_pay11 i (k1_pay1 x0) x1 k1_pay2 := by
  unfold sout1_A_3
  rw [View.read_writes_eq_canon _ _ _ (scover1_A_3 c i arg3 harg3 arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_cons_unit_zero (S := S1x640) hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_A_4_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) :
    sout1_A_4 c i arg3 harg3 arg4 harg4 arg5 harg5 arg6 harg6 arg7 harg7 arg8 harg8 arg9 harg9 arg10 harg10 arg11 harg11 arg12 harg12 arg13 harg13 hc0 hc1 x0 x1 x2 x3 x4 = k1_pay12 (k1_pay10 i (k1_pay1 x0) x3) k1_pay4 := by
  unfold sout1_A_4
  rw [View.read_writes_eq_canon _ _ _ (scover1_A_4 c i arg3 harg3 arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_cons_unit_zero (S := S1x640) hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_B_1_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_B_1 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay13 (k1_pay6 x1) (k1_pay9 i xs0 x1) x2 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_B
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_B_2_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_B_2 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay14 (k1_pay7 x3) (k1_pay10 i xs0 x3) x4 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_B
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_B_3_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_B_3 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay11 i xs0 x1 xs3 := by
  unfold sout1_B_3
  rw [View.read_writes_eq_canon _ _ _ (scover1_B_3 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_B
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_B_4_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : ¬cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_B_4 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay12 (k1_pay10 i xs0 x3) xs4 := by
  unfold sout1_B_4
  rw [View.read_writes_eq_canon _ _ _ (scover1_B_4 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_B
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_C_1_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_C_1 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay13 (k1_pay6 x1) (k1_pay9 i xs0 x1) x2 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_C
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_C_2_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_C_2 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay14 (k1_pay7 x3) (k1_pay10 i xs0 x3) x4 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_C
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_C_3_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_C_3 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay11 i xs0 x1 xs3 := by
  unfold sout1_C_3
  rw [View.read_writes_eq_canon _ _ _ (scover1_C_3 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_C
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem sout1_C_4_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    sout1_C_4 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay12 (k1_pay10 i xs0 x3) xs4 := by
  unfold sout1_C_4
  rw [View.read_writes_eq_canon _ _ _ (scover1_C_4 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_C
  dsimp only
  sl_unfold_words
  rw [View.canon_unit_zero hz2']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']
set_option maxHeartbeats 1000000 in
theorem out1_C_5_eq (c : Dev nD) (i : grid1.Coords) (arg3 : Memref sig .tc .vmem S1x512x640 .f32) (harg3 : arg3.IsWhole) (arg4 : Memref sig .tc .vmem S1x512x640 .bf16) (harg4 : arg4.IsWhole) (arg5 : Memref sig .tc .vmem S1x640x1 .f32) (harg5 : arg5.IsWhole) (arg6 : Memref sig .tc .vmem S1x512x640 .bf16) (harg6 : arg6.IsWhole) (arg7 : Memref sig .tc .vmem S1x640x1 .f32) (harg7 : arg7.IsWhole) (arg8 : Memref sig .tc .vmem S1x512x640 .f32) (harg8 : arg8.IsWhole)
    (arg9 : Memref sig .tc .vmem S512x640 .bf16) (harg9 : arg9.IsWhole) (arg10 : Memref sig .tc .vmem S512x640 .f32) (harg10 : arg10.IsWhole) (arg11 : Memref sig .tc .vmem S512x640 .f32) (harg11 : arg11.IsWhole) (arg12 : Memref sig .tc .vmem S1x640 .f32) (harg12 : arg12.IsWhole) (arg13 : Memref sig .tc .vmem S1x640 .f32) (harg13 : arg13.IsWhole) (hc0 : ¬cond1_0 i) (hc1 : cond1_1 i) (x0 : Vec F S1x512x640 .f32) (x1 : Vec F S1x512x640 .bf16) (x2 : Vec F S1x640x1 .f32) (x3 : Vec F S1x512x640 .bf16) (x4 : Vec F S1x640x1 .f32) (xs0 : Vec F S512x640 .bf16) (xs1 : Vec F S512x640 .f32) (xs2 : Vec F S512x640 .f32) (xs3 : Vec F S1x640 .f32) (xs4 : Vec F S1x640 .f32) :
    out1_C_5 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k1_pay15 (k1_pay13 (k1_pay6 x1) (k1_pay9 i xs0 x1) x2 xs1) (k1_pay11 i xs0 x1 xs3)
      (k1_pay14 (k1_pay7 x3) (k1_pay10 i xs0 x3) x4 xs2) (k1_pay12 (k1_pay10 i xs0 x3) xs4) x0 := by
  unfold out1_C_5
  rw [View.read_writes_eq_canon _ _ _ (cover1_C_5 c i arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun1_C
  dsimp only
  sl_unfold_words
  rw [View.canon_unit_zero hz3']
  simp only [View.readAt_eq_ld, harg3.read_unread, harg4.read_unread, harg5.read_unread, harg6.read_unread, harg7.read_unread,
    harg9.read_unread, harg10.read_unread, harg11.read_unread, harg12.read_unread, harg13.read_unread,
    View.ld_unit_zero (S := S1x512x640) hz3', View.ld_unit_zero (S := S1x640x1) hz3', View.ld_unit_zero (S := S512x640) hz2',
    View.ld_unit_zero (S := S1x640) hz2', View.readCov_unit_zero (S := S512x640) _ hz2', View.readCov_unit_zero (S := S1x640) _ hz2']

end Cert.KernelIdeal.Hand

end
-- ==== Proof.KiPay1.lean ====
import proofs.«413954_j46394236731667_3_alg».proof.Proof.KiCoe
import proofs.«413954_j46394236731667_3_alg».proof.Proof.Consts
import Idealize.ShloMosaic.PureOps.IdealRules
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.ValueIdx

/-! # The attention kernel's stored values, at real blocks

The masked exponential weights, one accumulation step of a denominator and of a numerator, the resets, and the
output block: each, applied to vectors whose entries are reals, is the coercion of the matching real function. The
mask's fill is named minus infinity, whose exponential is zero. -/

/-! ## The resets: a splat of the zero pattern -/

theorem k1_pay2_real : k1_pay2 (F := Ideal) = cL2 (fun _ => 0) := by
  funext j
  unfold k1_pay2 cL2
  rw [shapeCast_self]
  show Ideal.ofBits .f32 0x00000000#32 = _
  rw [Cert.Consts.ofBits_zero, EReal.coe_zero]
theorem k1_pay3_real : k1_pay3 (F := Ideal) = cB2 (fun _ _ => 0) := by
  funext j
  unfold k1_pay3 cB2
  rw [shapeCast_self]
  show Ideal.ofBits .f32 0x00000000#32 = _
  rw [Cert.Consts.ofBits_zero, EReal.coe_zero]
theorem k1_pay4_real : k1_pay4 (F := Ideal) = cL2 (fun _ => 0) := k1_pay2_real
theorem k1_pay5_real : k1_pay5 (F := Ideal) = cB2 (fun _ _ => 0) := k1_pay3_real

/-! ## The mask: key row `m` of key tile `ki` is a real token when `ki * 640 + m < 3136` -/

/-- A word below `2 ^ 31` reads the same signed as it does as a natural number. -/
theorem k1_toInt_ofNat_small (x : ℕ) (hx : x < 2 ^ 31) : (BitVec.ofNat 32 x).toInt = (x : ℤ) := by
  have hN : (BitVec.ofNat 32 x).toNat = x := by rw [BitVec.toNat_ofNat]; omega
  rw [BitVec.toInt_eq_toNat_of_lt (by omega), hN]

theorem k1_pay8_apply (i : grid1.Coords) (m n : Fin 640) :
    k1_pay8 i (ix2 m n) = 1#1 ↔ (i 2).val * 640 + m.val < 3136 := by
  have hi : (i 2).val < 5 := (i 2).isLt
  have hm : m.val < 640 := m.isLt
  unfold k1_pay8
  show IntOp.cmpi .slt (IntOp.addi (Scalar.muli (BitVec.ofNat 32 (i 2).val) 640#32) (iota .tc S640x640 32 [0] iota_S640x640_d0_w32 (ix2 m n))) 3136#32 = 1#1 ↔ _
  rw [iota_single_apply, IntOp.cmpi_slt]
  have e : IntOp.addi (Scalar.muli (BitVec.ofNat 32 (i 2).val) 640#32) (BitVec.ofNat 32 m.val)
      = BitVec.ofNat 32 ((i 2).val * 640 + m.val) := by
    show BitVec.ofNat 32 (i 2).val * BitVec.ofNat 32 640 + BitVec.ofNat 32 m.val = _
    rw [BitVec.ofNat_add, BitVec.ofNat_mul]
  show (IntOp.addi (Scalar.muli (BitVec.ofNat 32 (i 2).val) 640#32) (BitVec.ofNat 32 m.val)).toInt < _ ↔ _
  rw [e, k1_toInt_ofNat_small _ (by omega), show (3136#32 : BitVec 32).toInt = 3136 from by decide]
  omega

/-! ## The weights: the product over the 512 channels, negated, masked, exponentiated -/

/-- A finite sum of coerced reals is the coercion of the sum. -/
theorem k1_coe_sum {ι : Type*} (s : Finset ι) (f : ι → ℝ) : ((∑ c ∈ s, f c : ℝ) : EReal) = ∑ c ∈ s, ((f c : ℝ) : EReal) := by
  classical
  induction s using Finset.induction_on with
  | empty => simp
  | insert a s ha ih => rw [Finset.sum_insert ha, Finset.sum_insert ha, EReal.coe_add, ih]

theorem lhs_dot_S512x640_S512x640_S640x640_0_0_1_1_n_n_0 (j : S640x640.Idx) (k : dot_S512x640_S512x640_S640x640_0_0_1_1_n_n.contr.Idx) :
    (dot_S512x640_S512x640_S640x640_0_0_1_1_n_n.lhsIdx j k 0 : ℕ) = k ⟨0, by decide⟩ :=
  DotDims.lhsIdx_val_of_single _ rfl j k
theorem lhs_dot_S512x640_S512x640_S640x640_0_0_1_1_n_n_1 (j : S640x640.Idx) (k : dot_S512x640_S512x640_S640x640_0_0_1_1_n_n.contr.Idx) :
    (dot_S512x640_S512x640_S640x640_0_0_1_1_n_n.lhsIdx j k 1 : ℕ) = j 0 := by
  simp [DotDims.lhsIdx, dot_S512x640_S512x640_S640x640_0_0_1_1_n_n]; rfl
theorem rhs_dot_S512x640_S512x640_S640x640_0_0_1_1_n_n_0 (j : S640x640.Idx) (k : dot_S512x640_S512x640_S640x640_0_0_1_1_n_n.contr.Idx) :
    (dot_S512x640_S512x640_S640x640_0_0_1_1_n_n.rhsIdx j k 0 : ℕ) = k ⟨0, by decide⟩ :=
  DotDims.rhsIdx_val_of_single _ rfl j k
theorem rhs_dot_S512x640_S512x640_S640x640_0_0_1_1_n_n_1 (j : S640x640.Idx) (k : dot_S512x640_S512x640_S640x640_0_0_1_1_n_n.contr.Idx) :
    (dot_S512x640_S512x640_S640x640_0_0_1_1_n_n.rhsIdx j k 1 : ℕ) = j 1 := by
  simp [DotDims.rhsIdx, dot_S512x640_S512x640_S640x640_0_0_1_1_n_n]; rfl

/-- The product that contracts the 512 channels of two blocks, read at (key m, query n). -/
theorem k1_gram_apply (A B : Spec.Blk) (m n : Fin 640) :
    matmul (F := Ideal) (φ₁ := .bf16) (φ₂ := .bf16) dot_S512x640_S512x640_S640x640_0_0_1_1_n_n none
        (shapeCast S512x640 (cB3 A) shapeCasts_S1x512x640_S512x640) (cB2 B)
        (constant S640x640 .f32 0x00000000#32) (ix2 m n)
      = ((∑ c, A c m * B c n : ℝ) : EReal) := by
  simp only [matmul]
  rw [Ideal.matmul_constant_zero_apply,
    ← Equiv.sum_comp (contrEquiv1 dot_S512x640_S512x640_S640x640_0_0_1_1_n_n 512 rfl rfl).symm, k1_coe_sum]
  refine Finset.sum_congr rfl fun c _ => ?_
  have hl : dot_S512x640_S512x640_S640x640_0_0_1_1_n_n.lhsIdx (ix2 m n)
      ((contrEquiv1 dot_S512x640_S512x640_S640x640_0_0_1_1_n_n 512 rfl rfl).symm c) = ix2 c m :=
    Shape.idx_ext₂ ((lhs_dot_S512x640_S512x640_S640x640_0_0_1_1_n_n_0 _ _).trans (contrEquiv1_symm_val _ 512 rfl rfl c))
      (lhs_dot_S512x640_S512x640_S640x640_0_0_1_1_n_n_1 _ _)
  have hr : dot_S512x640_S512x640_S640x640_0_0_1_1_n_n.rhsIdx (ix2 m n)
      ((contrEquiv1 dot_S512x640_S512x640_S640x640_0_0_1_1_n_n 512 rfl rfl).symm c) = ix2 c n :=
    Shape.idx_ext₂ ((rhs_dot_S512x640_S512x640_S640x640_0_0_1_1_n_n_0 _ _).trans (contrEquiv1_symm_val _ 512 rfl rfl c))
      (rhs_dot_S512x640_S512x640_S640x640_0_0_1_1_n_n_1 _ _)
  rw [hl, hr, shapeCast_1ab_ab_apply, EReal.coe_mul]
  rfl

/-- The mask's fill is minus infinity. -/
theorem k1_neg_big_eq : Named.named (F := Ideal) κ "neg_big" (φ := .f32) 0xF149F2CA#32 = ⊥ :=
  IdealRules.named_const.ideal_named_scalar κ "neg_big" _ ⊥ rfl

/-- The masked exponential weights over a product `G` of a key block and the query block: the exponential of minus
    the product on the rows below token 3136, zero (the exponential of minus infinity) on the padding rows. -/
theorem k1_weights_real (i : grid1.Coords) (QN K : Spec.Blk) (G : FVec Ideal S640x640 .f32)
    (hG : ∀ m n, G (ix2 m n) = ((∑ c, K c m * QN c n : ℝ) : EReal)) :
    exp (select (k1_pay8 i) (subf (broadcast S640x640 (Scalar.ofBits .f32 0x00000000#32)) G)
      (broadcast S640x640 (Named.named κ "neg_big" 0xF149F2CA#32))) = cP (Spec.pw (i 2).val K QN) := by
  funext j
  obtain ⟨m, n, rfl⟩ : ∃ m n, j = ix2 m n := ⟨j 0, j 1, eq_ix2 j⟩
  show Ideal.exp (Scalar.select (k1_pay8 i (ix2 m n)) (Ideal.ofBits .f32 0x00000000#32 - G (ix2 m n))
    (Named.named (F := Ideal) κ "neg_big" (φ := .f32) 0xF149F2CA#32)) = ((Spec.pw (i 2).val K QN m n : ℝ) : EReal)
  unfold Spec.pw
  by_cases h : (i 2).val * 640 + m.val < 3136
  · rw [(k1_pay8_apply i m n).mpr h, select_one, if_pos h, hG, Cert.Consts.ofBits_zero, ← EReal.coe_zero,
      ← EReal.coe_sub, Ideal.exp_coe]
  · have h0 : k1_pay8 i (ix2 m n) = 0#1 := eq_zero_of_ne_one fun h' => h ((k1_pay8_apply i m n).mp h')
    rw [h0, select_zero, if_neg h, k1_neg_big_eq, Ideal.exp_bot, EReal.coe_zero]

theorem k1_pay9_real (i : grid1.Coords) (QN K : Spec.Blk) :
    k1_pay9 (F := Ideal) i (cB2 QN) (cB3 K) = cP (Spec.pw (i 2).val K QN) :=
  k1_weights_real i QN K _ (k1_gram_apply K QN)
theorem k1_pay10_real (i : grid1.Coords) (QN K : Spec.Blk) :
    k1_pay10 (F := Ideal) i (cB2 QN) (cB3 K) = cP (Spec.pw (i 2).val K QN) :=
  k1_weights_real i QN K _ (k1_gram_apply K QN)

/-! ## A denominator step: the weights summed over the keys, added on -/

/-- The sum of a weight matrix down its rows (the keys), read at query `n`. -/
theorem k1_colsum_apply (Pw : Fin 640 → Fin 640 → ℝ) (n : Fin 640) :
    multiReduction (F := Ideal) .add [0] S640 (cP Pw) 0x00000000#32 reduces_S640x640_S640 (.inl rfl) rfl (ix1 n)
      = ((∑ m, Pw m n : ℝ) : EReal) := by
  refine (Ideal.multiReduction_add_single (φ := .f32) (cP Pw) _ reduces_S640x640_S640 _ _ (ix1 n)).trans ?_
  rw [k1_coe_sum]
  exact Finset.sum_congr rfl fun m _ => rfl

theorem k1_pay12_real (Pw : Fin 640 → Fin 640 → ℝ) (L : Fin 640 → ℝ) :
    k1_pay12 (F := Ideal) (cP Pw) (cL2 L) = cL2 (Spec.lstep L Pw) := by
  funext j
  obtain ⟨u, n, rfl⟩ : ∃ u n, j = ix2 u n := ⟨j 0, j 1, eq_ix2 j⟩
  unfold k1_pay12
  rw [shapeCast_self, addf_apply, shapeCast_a_1a_apply, k1_colsum_apply]
  unfold cL2 Spec.lstep
  rw [← EReal.coe_add]

theorem k1_pay11_real (i : grid1.Coords) (QN K : Spec.Blk) (L : Fin 640 → ℝ) :
    k1_pay11 (F := Ideal) i (cB2 QN) (cB3 K) (cL2 L) = cL2 (Spec.lstep L (Spec.pw (i 2).val K QN)) := by
  show k1_pay12 (F := Ideal) (k1_pay9 (F := Ideal) i (cB2 QN) (cB3 K)) (cL2 L) = _
  rw [k1_pay9_real, k1_pay12_real]

/-! ## A numerator step: the product over the 640 keys with the weights scaled by the key norms, added on -/

theorem lhs_dot_S512x640_S640x640_S512x640_1_0_0_1_n_n_0 (j : S512x640.Idx) (k : dot_S512x640_S640x640_S512x640_1_0_0_1_n_n.contr.Idx) :
    (dot_S512x640_S640x640_S512x640_1_0_0_1_n_n.lhsIdx j k 0 : ℕ) = j 0 := by
  simp [DotDims.lhsIdx, dot_S512x640_S640x640_S512x640_1_0_0_1_n_n]; rfl
theorem lhs_dot_S512x640_S640x640_S512x640_1_0_0_1_n_n_1 (j : S512x640.Idx) (k : dot_S512x640_S640x640_S512x640_1_0_0_1_n_n.contr.Idx) :
    (dot_S512x640_S640x640_S512x640_1_0_0_1_n_n.lhsIdx j k 1 : ℕ) = k ⟨0, by decide⟩ :=
  DotDims.lhsIdx_val_of_single _ rfl j k
theorem rhs_dot_S512x640_S640x640_S512x640_1_0_0_1_n_n_0 (j : S512x640.Idx) (k : dot_S512x640_S640x640_S512x640_1_0_0_1_n_n.contr.Idx) :
    (dot_S512x640_S640x640_S512x640_1_0_0_1_n_n.rhsIdx j k 0 : ℕ) = k ⟨0, by decide⟩ :=
  DotDims.rhsIdx_val_of_single _ rfl j k
theorem rhs_dot_S512x640_S640x640_S512x640_1_0_0_1_n_n_1 (j : S512x640.Idx) (k : dot_S512x640_S640x640_S512x640_1_0_0_1_n_n.contr.Idx) :
    (dot_S512x640_S640x640_S512x640_1_0_0_1_n_n.rhsIdx j k 1 : ℕ) = j 1 := by
  simp [DotDims.rhsIdx, dot_S512x640_S640x640_S512x640_1_0_0_1_n_n]; rfl

/-- A column of 640 reals, given as a (1, 640, 1) vector, spread along the rows of a (640, 640) matrix. -/
theorem k1_spread_apply (N : Fin 640 → ℝ) (m n : Fin 640) :
    broadcastTo S640x640 (shapeCast S640x1 (cN3 N) shapeCasts_S1x640x1_S640x1) broadcasts_S640x1_S640x640 (ix2 m n)
      = ((N m : ℝ) : EReal) := by
  rw [broadcastTo_apply _ broadcasts_S640x1_S640x640 (ix2 m n) (ix2 m (0 : Fin 1)) (fun a => by
    match a with
    | ⟨0, _⟩ =>
      show m.val = if (640 : ℕ) = 1 then 0 else m.val
      exact (if_neg (by decide)).symm
    | ⟨1, _⟩ =>
      show (0 : ℕ) = if (1 : ℕ) = 1 then 0 else n.val
      exact (if_pos rfl).symm), shapeCast_1ab_ab_apply]
  rfl

/-- The product that contracts the 640 keys: a block (as a (1, 512, 640) vector) against a weight matrix scaled row by
    row, read at (channel c, query n). -/
theorem k1_keysum_apply (K : Spec.Blk) (Pw : Fin 640 → Fin 640 → ℝ) (N : Fin 640 → ℝ) (c : Fin 512) (n : Fin 640) :
    matmul (F := Ideal) (φ₁ := .bf16) (φ₂ := .bf16) dot_S512x640_S640x640_S512x640_1_0_0_1_n_n none
        (shapeCast S512x640 (cB3 K) shapeCasts_S1x512x640_S512x640)
        (truncf .bf16 (mulf (cP Pw) (broadcastTo S640x640 (shapeCast S640x1 (cN3 N) shapeCasts_S1x640x1_S640x1)
          broadcasts_S640x1_S640x640)) bitsLt_bf16_f32)
        (constant S512x640 .f32 0x00000000#32) (ix2 c n)
      = ((∑ m, K c m * (Pw m n * N m) : ℝ) : EReal) := by
  simp only [matmul]
  rw [Ideal.matmul_constant_zero_apply,
    ← Equiv.sum_comp (contrEquiv1 dot_S512x640_S640x640_S512x640_1_0_0_1_n_n 640 rfl rfl).symm, k1_coe_sum]
  refine Finset.sum_congr rfl fun m _ => ?_
  have hl : dot_S512x640_S640x640_S512x640_1_0_0_1_n_n.lhsIdx (ix2 c n)
      ((contrEquiv1 dot_S512x640_S640x640_S512x640_1_0_0_1_n_n 640 rfl rfl).symm m) = ix2 c m :=
    Shape.idx_ext₂ (lhs_dot_S512x640_S640x640_S512x640_1_0_0_1_n_n_0 _ _)
      ((lhs_dot_S512x640_S640x640_S512x640_1_0_0_1_n_n_1 _ _).trans (contrEquiv1_symm_val _ 640 rfl rfl m))
  have hr : dot_S512x640_S640x640_S512x640_1_0_0_1_n_n.rhsIdx (ix2 c n)
      ((contrEquiv1 dot_S512x640_S640x640_S512x640_1_0_0_1_n_n 640 rfl rfl).symm m) = ix2 m n :=
    Shape.idx_ext₂ ((rhs_dot_S512x640_S640x640_S512x640_1_0_0_1_n_n_0 _ _).trans (contrEquiv1_symm_val _ 640 rfl rfl m))
      (rhs_dot_S512x640_S640x640_S512x640_1_0_0_1_n_n_1 _ _)
  rw [hl, hr, shapeCast_1ab_ab_apply, truncf_apply, mulf_apply, k1_spread_apply, EReal.coe_mul, EReal.coe_mul]
  rfl

/-- One key tile added onto a numerator, for the key block read through either of its two names. -/
theorem k1_numer_real (K A : Spec.Blk) (Pw : Fin 640 → Fin 640 → ℝ) (N : Fin 640 → ℝ) (V : FVec Ideal S512x640 .f32)
    (hV : ∀ c n, V (ix2 c n) = ((∑ m, K c m * (Pw m n * N m) : ℝ) : EReal)) :
    shapeCast S512x640 (addf (cB2 A) V) shapeCasts_S512x640_S512x640 = cB2 (Spec.astep A K Pw N) := by
  funext j
  obtain ⟨c, n, rfl⟩ : ∃ c n, j = ix2 c n := ⟨j 0, j 1, eq_ix2 j⟩
  rw [shapeCast_self, addf_apply, hV]
  unfold cB2 Spec.astep
  rw [← EReal.coe_add]

theorem k1_pay13_real (K A : Spec.Blk) (Pw : Fin 640 → Fin 640 → ℝ) (N : Fin 640 → ℝ) :
    k1_pay13 (F := Ideal) (k1_pay6 (F := Ideal) (cB3 K)) (cP Pw) (cN3 N) (cB2 A) = cB2 (Spec.astep A K Pw N) :=
  k1_numer_real K A Pw N _ (k1_keysum_apply K Pw N)
theorem k1_pay14_real (K A : Spec.Blk) (Pw : Fin 640 → Fin 640 → ℝ) (N : Fin 640 → ℝ) :
    k1_pay14 (F := Ideal) (k1_pay7 (F := Ideal) (cB3 K)) (cP Pw) (cN3 N) (cB2 A) = cB2 (Spec.astep A K Pw N) :=
  k1_numer_real K A Pw N _ (k1_keysum_apply K Pw N)

/-! ## The output block: the residual plus the two scaled quotients -/

/-- A block divided, query by query, by a row of nonzero reals. -/
theorem k1_quot_apply (A : Spec.Blk) (L : Fin 640 → ℝ) (hL : ∀ n, L n ≠ 0) (c : Fin 512) (n : Fin 640) :
    divf (F := Ideal) (φ := .f32) (cB2 A) (broadcastTo S512x640 (cL2 L) broadcasts_S1x640_S512x640) (ix2 c n)
      = ((A c n / L n : ℝ) : EReal) := by
  rw [divf_apply, broadcastTo_1b_ab_apply]
  show Ideal.div ((A c n : ℝ) : EReal) ((L n : ℝ) : EReal) = _
  rw [Ideal.div_coe (hL n), ← EReal.coe_mul, ← div_eq_mul_one_div]

theorem k1_pay15_real (X A2 A3 : Spec.Blk) (L2 L3 : Fin 640 → ℝ) (h2 : ∀ n, L2 n ≠ 0) (h3 : ∀ n, L3 n ≠ 0) :
    k1_pay15 (F := Ideal) (cB2 A2) (cL2 L2) (cB2 A3) (cL2 L3) (cB3 X) = cB3 (Spec.outBlk X A2 A3 L2 L3) := by
  funext j
  obtain ⟨u, c, n, rfl⟩ : ∃ u c n, j = ix3 u c n := ⟨j 0, j 1, j 2, eq_ix3 j⟩
  unfold k1_pay15
  rw [shapeCast_ab_1ab_apply, addf_apply, addf_apply, mulf_apply, mulf_apply, k1_quot_apply A2 L2 h2, k1_quot_apply A3 L3 h3,
    shapeCast_1ab_ab_apply]
  show ((X c n : ℝ) : EReal) + Ideal.ofBits .f32 0x3A83126F#32 * _ + Ideal.ofBits .f32 0x3A83126F#32 * _ = _
  rw [Cert.Consts.ofBits_fac, ← EReal.coe_mul, ← EReal.coe_mul, ← EReal.coe_add, ← EReal.coe_add]
  rfl

end Cert.KernelIdeal.Hand

end
-- ==== Proof.Math.lean ====
import proofs.«413954_j46394236731667_3_alg».proof.Proof.Spec
import Mathlib.Algebra.BigOperators.Fin
import Mathlib.Algebra.BigOperators.Intervals
import Mathlib.Algebra.Order.BigOperators.Group.Finset
import Mathlib.Analysis.SpecialFunctions.Exp

/-! # The two array-level formulas agree

Over the reals: the kernel's tiled, padded, unshifted accumulation equals the reference's shifted softmax average.
Padding contributes nothing (a padded key has weight zero, and a padded key's normalised vector is zero); the
normalised key times its clamped norm is the key; the shift by the largest score cancels between numerator and
denominator; a quotient of sums is the sum of quotients. -/

noncomputable section

namespace Cert.Spec

open Finset

/-! ## Positivity of the denominators -/

/-- A weight is an exponential or zero. -/
theorem pw_nonneg (ki : ℕ) (K QN : Blk) (m n : Fin 640) : 0 ≤ pw ki K QN m n := by
  unfold pw
  split_ifs
  · exact (Real.exp_pos _).le
  · exact le_rfl

/-- The denominators are positive: every key tile adds nonnegative weights, and key 0 of tile 0 is real. -/
theorem accL_pos (QN : Blk) (A : Pad) (k : ℕ) (n : Fin 640) : 0 < accL QN A k n := by
  induction k with
  | zero =>
    show 0 < (0 : ℝ) + ∑ m, pw 0 (nrmlz (tile A 0)) QN m n
    rw [zero_add]
    refine lt_of_lt_of_le ?_
      (Finset.single_le_sum (fun m _ => pw_nonneg 0 (nrmlz (tile A 0)) QN m n) (Finset.mem_univ (0 : Fin 640)))
    unfold pw
    rw [if_pos (by simp)]
    exact Real.exp_pos _
  | succ k ih =>
    show 0 < accL QN A k n + ∑ m, pw (k + 1) (nrmlz (tile A (k + 1))) QN m n
    exact add_pos_of_pos_of_nonneg ih (Finset.sum_nonneg (fun m _ => pw_nonneg _ _ _ m n))

/-! ## The accumulations are double sums over tiles and rows -/

theorem accL_eq_sum (QN : Blk) (A : Pad) (k : ℕ) (n : Fin 640) :
    accL QN A k n = ∑ j ∈ range (k + 1), ∑ m, pw j (nrmlz (tile A j)) QN m n := by
  induction k with
  | zero => simp [accL, lstep]
  | succ k ih =>
    rw [sum_range_succ, ← ih]
    rfl

theorem accA_eq_sum (QN : Blk) (A : Pad) (k : ℕ) (c : Fin 512) (n : Fin 640) :
    accA QN A k c n
      = ∑ j ∈ range (k + 1), ∑ m, nrmlz (tile A j) c m * (pw j (nrmlz (tile A j)) QN m n * tnrm A j m) := by
  induction k with
  | zero => simp [accA, astep]
  | succ k ih =>
    rw [sum_range_succ, ← ih]
    rfl

/-- A sum over `a` tiles of `b` rows each is one sum over `a * b` global indices. -/
theorem sum_tiles (f : ℕ → ℝ) (a b : ℕ) :
    ∑ j ∈ range a, ∑ m : Fin b, f (j * b + m.val) = ∑ p ∈ range (a * b), f p := by
  induction a with
  | zero => simp
  | succ a ih =>
    rw [sum_range_succ, ih, Nat.succ_mul, sum_range_add, Fin.sum_univ_eq_sum_range (fun m => f (a * b + m)) b]

/-- A function of the 3136 real tokens, extended by zero, summed over the 3200 padded tokens. -/
theorem sum_range_pad (g : Fin 3136 → ℝ) :
    ∑ p ∈ range 3200, (if h : p < 3136 then g ⟨p, h⟩ else 0) = ∑ m, g m := by
  rw [show (3200 : ℕ) = 3136 + 64 from rfl, sum_range_add, Finset.sum_range,
    sum_eq_zero (s := range 64), add_zero]
  · refine sum_congr rfl (fun m _ => ?_)
    rw [dif_pos m.isLt]
  · intro x _
    rw [dif_neg (by omega)]

/-! ## A real token's tile entries are the flattened array's -/

theorem tile_padR (x : In) (b : Fin 8) (k : ℕ) (c : Fin 512) (r : Fin 640) (h : k * 640 + r.val < 3136) :
    tile (padR x b) k c r = flat x b c ⟨k * 640 + r.val, h⟩ := by
  unfold tile padR flat
  rw [dif_pos (by omega : k * 640 + r.val < 3200)]
  dsimp only
  rw [dif_pos h]

theorem nrm_tile_padR (x : In) (b : Fin 8) (k : ℕ) (r : Fin 640) (h : k * 640 + r.val < 3136) :
    nrm (tile (padR x b) k) r = rnrm x b ⟨k * 640 + r.val, h⟩ := by
  unfold nrm rnrm
  simp_rw [tile_padR x b k _ r h]

theorem nrmlz_tile_padR (x : In) (b : Fin 8) (k : ℕ) (c : Fin 512) (r : Fin 640) (h : k * 640 + r.val < 3136) :
    nrmlz (tile (padR x b) k) c r = rn x b c ⟨k * 640 + r.val, h⟩ := by
  unfold nrmlz rn
  rw [tile_padR x b k c r h, nrm_tile_padR x b k r h]

/-! ## The weights and the numerator terms as functions of the global key index -/

/-- The unshifted weight of global key `p` for query `n`; zero on the padding. -/
def wE (x1 xk : In) (b : Fin 8) (n : Fin 3136) (p : ℕ) : ℝ :=
  if h : p < 3136 then Real.exp (score x1 xk b n ⟨p, h⟩) else 0

/-- The raw key times its unshifted weight; zero on the padding. -/
def wF (x1 xk : In) (b : Fin 8) (c : Fin 512) (n : Fin 3136) (p : ℕ) : ℝ :=
  if h : p < 3136 then flat xk b c ⟨p, h⟩ * Real.exp (score x1 xk b n ⟨p, h⟩) else 0

theorem pw_eq (x1 xk : In) (b : Fin 8) (qi : ℕ) (r : Fin 640) (hq : qi * 640 + r.val < 3136)
    (j : ℕ) (m : Fin 640) :
    pw j (nrmlz (tile (padR xk b) j)) (nrmlz (tile (padR x1 b) qi)) m r
      = wE x1 xk b ⟨qi * 640 + r.val, hq⟩ (j * 640 + m.val) := by
  unfold pw wE
  by_cases h : j * 640 + m.val < 3136
  · rw [if_pos h, dif_pos h]
    unfold score
    rw [zero_sub]
    congr 2
    refine sum_congr rfl (fun c _ => ?_)
    rw [nrmlz_tile_padR xk b j c m h, nrmlz_tile_padR x1 b qi c r hq, mul_comm]
  · rw [if_neg h, dif_neg h]

theorem aterm_eq (x1 xk : In) (b : Fin 8) (c : Fin 512) (qi : ℕ) (r : Fin 640) (hq : qi * 640 + r.val < 3136)
    (j : ℕ) (m : Fin 640) :
    nrmlz (tile (padR xk b) j) c m
        * (pw j (nrmlz (tile (padR xk b) j)) (nrmlz (tile (padR x1 b) qi)) m r * tnrm (padR xk b) j m)
      = wF x1 xk b c ⟨qi * 640 + r.val, hq⟩ (j * 640 + m.val) := by
  rw [pw_eq x1 xk b qi r hq j m]
  unfold wE wF
  by_cases h : j * 640 + m.val < 3136
  · rw [dif_pos h, dif_pos h, nrmlz_tile_padR xk b j c m h]
    unfold tnrm
    rw [nrm_tile_padR xk b j m h]
    unfold rn
    have hne : rnrm xk b ⟨j * 640 + m.val, h⟩ ≠ 0 := (rnrm_pos xk b _).ne'
    field_simp
  · rw [dif_neg h, dif_neg h, zero_mul, mul_zero]

/-! ## The five-tile accumulations as sums over the real tokens -/

theorem accL_eq (x1 xk : In) (b : Fin 8) (qi : ℕ) (r : Fin 640) (hq : qi * 640 + r.val < 3136) :
    accL (nrmlz (tile (padR x1 b) qi)) (padR xk b) 4 r
      = ∑ m, Real.exp (score x1 xk b ⟨qi * 640 + r.val, hq⟩ m) := by
  rw [accL_eq_sum]
  simp_rw [pw_eq x1 xk b qi r hq]
  rw [sum_tiles (wE x1 xk b ⟨qi * 640 + r.val, hq⟩) 5 640]
  exact sum_range_pad (fun m => Real.exp (score x1 xk b ⟨qi * 640 + r.val, hq⟩ m))

theorem accA_eq (x1 xk : In) (b : Fin 8) (c : Fin 512) (qi : ℕ) (r : Fin 640) (hq : qi * 640 + r.val < 3136) :
    accA (nrmlz (tile (padR x1 b) qi)) (padR xk b) 4 c r
      = ∑ m, flat xk b c m * Real.exp (score x1 xk b ⟨qi * 640 + r.val, hq⟩ m) := by
  rw [accA_eq_sum]
  simp_rw [aterm_eq x1 xk b c qi r hq]
  rw [sum_tiles (wF x1 xk b c ⟨qi * 640 + r.val, hq⟩) 5 640]
  exact sum_range_pad (fun m => flat xk b c m * Real.exp (score x1 xk b ⟨qi * 640 + r.val, hq⟩ m))

/-! ## The shift of the softmax cancels -/

theorem att_eq (x1 xk : In) (b : Fin 8) (c : Fin 512) (n : Fin 3136) :
    att x1 xk b c n
      = (∑ m, flat xk b c m * Real.exp (score x1 xk b n m)) / ∑ m, Real.exp (score x1 xk b n m) := by
  unfold att soft sexp
  have hM : Real.exp (smax x1 xk b n) ≠ 0 := (Real.exp_pos _).ne'
  simp_rw [Real.exp_sub]
  rw [← sum_div]
  simp_rw [div_div_div_cancel_right₀ hM]
  rw [sum_div]
  refine sum_congr rfl (fun m _ => ?_)
  rw [mul_div_assoc]

/-! ## The two results agree -/

theorem G_eq_Gk (x1 x2 x3 : In) (b : Fin 8) (c : Fin 512) (h w : Fin 56) : Gk x1 x2 x3 b c h w = G x1 x2 x3 b c h w := by
  have ht : h.val * 56 + w.val < 3136 := by omega
  have hq : (h.val * 56 + w.val) / 640 * 640 + (h.val * 56 + w.val) % 640 < 3136 := by omega
  -- the query's tile and column recombine to its token index
  have hn : (⟨(h.val * 56 + w.val) / 640 * 640 + (h.val * 56 + w.val) % 640, hq⟩ : Fin 3136)
      = ⟨h.val * 56 + w.val, ht⟩ := Fin.ext (by simp only; omega)
  -- the residual term: the padded, tiled first input read back at the query is the input itself
  have hX : tile (padR x1 b) ((h.val * 56 + w.val) / 640) c
      ⟨(h.val * 56 + w.val) % 640, Nat.mod_lt _ (by omega)⟩ = x1 b c h w := by
    rw [tile_padR x1 b _ c _ hq, hn]
    unfold flat
    congr 1 <;> exact Fin.ext (by simp only; omega)
  unfold Gk G kerBlk outBlk
  rw [hX, accL_eq x1 x2 b _ _ hq, accL_eq x1 x3 b _ _ hq, accA_eq x1 x2 b c _ _ hq, accA_eq x1 x3 b c _ _ hq,
    hn, att_eq, att_eq]

end Cert.Spec

end
-- ==== Proof.KiVal1.lean ====
import proofs.«413954_j46394236731667_3_alg».proof.Proof.KiVal1P
import proofs.«413954_j46394236731667_3_alg».proof.Proof.KiPay0
import proofs.«413954_j46394236731667_3_alg».proof.Proof.KiPay1
import proofs.«413954_j46394236731667_3_alg».proof.Proof.Blocks
import proofs.«413954_j46394236731667_3_alg».proof.Proof.SpecTile
import proofs.«413954_j46394236731667_3_alg».proof.Proof.Math

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The array the attention kernel leaves

If the region finds the residual's padded array, the two normalised key arrays and their clamped norms holding the
coerced reals, then after the region its output array holds the coerced padded output. Point by point: the blocks are
the coerced tiles; each case's stores are payloads of the blocks and of what the scratch buffers held; payloads of
coerced reals are coerced reals; so by induction on the point the scratch buffers hold the coerced normalised query
block, numerators and denominators after the key tiles so far, and at key tile 4 the output block is the coerced
residual plus scaled quotients (the denominators are positive, so the quotients are real). -/

section Region
variable (V : (c : Dev nD) → (b : Ref sig .tc) → Buf (Elt Ideal) ((c : Thread nD τ).loc b)) (x1 x2 x3 : Spec.In)
  (c : Dev nD) (hV3 : V c main_call0_v3 = cA3 (Spec.padA x1))
  (hK2 : V c main_call0_v6_0 = cA3 (Spec.knA x2)) (hN2 : V c main_call0_v6_1 = cC3 (Spec.nmA x2))
  (hK3 : V c main_call0_v6_2 = cA3 (Spec.knA x3)) (hN3 : V c main_call0_v6_3 = cC3 (Spec.nmA x3))

theorem mod5_lt1 (t : Fin cfg1.N) : t.val % 5 < 5 := Nat.mod_lt _ (by omega)
theorem qi_lt1 (t : Fin cfg1.N) : t.val / 5 % 5 < 5 := Nat.mod_lt _ (by omega)

/-! ## The blocks -/

include hV3 in
theorem iblk1_0 (t : Fin cfg1.N) : iblk1 V c 0 t = cB3 (Spec.tile (Spec.padR x1 (b1 t)) (t.val / 5 % 5)) := by
  unfold iblk1
  rw [show V c (Pipeline.arrRef spec1 0) = cA3 (Spec.padA x1) from hV3]
  exact rd1_0 t _
include hK2 in
theorem iblk1_1 (t : Fin cfg1.N) : iblk1 V c 1 t = cB3 (Spec.nrmlz (Spec.tile (Spec.padR x2 (b1 t)) (t.val % 5))) := by
  unfold iblk1
  rw [show V c (Pipeline.arrRef spec1 1) = cA3 (Spec.knA x2) from hK2, rd1_1, Spec.tileA_knA x2 _ _ (mod5_lt1 t)]
include hN2 in
theorem iblk1_2 (t : Fin cfg1.N) : iblk1 V c 2 t = cN3 (Spec.tnrm (Spec.padR x2 (b1 t)) (t.val % 5)) := by
  unfold iblk1
  rw [show V c (Pipeline.arrRef spec1 2) = cC3 (Spec.nmA x2) from hN2, rd1_2, Spec.tileC_nmA x2 _ _ (mod5_lt1 t)]
include hK3 in
theorem iblk1_3 (t : Fin cfg1.N) : iblk1 V c 3 t = cB3 (Spec.nrmlz (Spec.tile (Spec.padR x3 (b1 t)) (t.val % 5))) := by
  unfold iblk1
  rw [show V c (Pipeline.arrRef spec1 3) = cA3 (Spec.knA x3) from hK3, rd1_3, Spec.tileA_knA x3 _ _ (mod5_lt1 t)]
include hN3 in
theorem iblk1_4 (t : Fin cfg1.N) : iblk1 V c 4 t = cN3 (Spec.tnrm (Spec.padR x3 (b1 t)) (t.val % 5)) := by
  unfold iblk1
  rw [show V c (Pipeline.arrRef spec1 4) = cC3 (Spec.nmA x3) from hN3, rd1_4, Spec.tileC_nmA x3 _ _ (mod5_lt1 t)]

/-! ## One point, per case -/

include hV3 hK2 hN2 hK3 hN3 in
/-- Key tile 0: everything from this point's blocks, the accumulators started from zero. -/
theorem stepA_real (t : Fin cfg1.N) (h0 : t.val % 5 = 0) :
    (stepA V c t h0).2.1 = cB2 (Spec.nrmlz (Spec.tile (Spec.padR x1 (b1 t)) (t.val / 5 % 5)))
    ∧ (stepA V c t h0).2.2.1 = cB2 (Spec.astep (fun _ _ => 0) (Spec.nrmlz (Spec.tile (Spec.padR x2 (b1 t)) (t.val % 5))) (Spec.pw (t.val % 5) (Spec.nrmlz (Spec.tile (Spec.padR x2 (b1 t)) (t.val % 5))) (Spec.nrmlz (Spec.tile (Spec.padR x1 (b1 t)) (t.val / 5 % 5)))) (Spec.tnrm (Spec.padR x2 (b1 t)) (t.val % 5)))
    ∧ (stepA V c t h0).2.2.2.1 = cB2 (Spec.astep (fun _ _ => 0) (Spec.nrmlz (Spec.tile (Spec.padR x3 (b1 t)) (t.val % 5))) (Spec.pw (t.val % 5) (Spec.nrmlz (Spec.tile (Spec.padR x3 (b1 t)) (t.val % 5))) (Spec.nrmlz (Spec.tile (Spec.padR x1 (b1 t)) (t.val / 5 % 5)))) (Spec.tnrm (Spec.padR x3 (b1 t)) (t.val % 5)))
    ∧ (stepA V c t h0).2.2.2.2.1 = cL2 (Spec.lstep (fun _ => 0) (Spec.pw (t.val % 5) (Spec.nrmlz (Spec.tile (Spec.padR x2 (b1 t)) (t.val % 5))) (Spec.nrmlz (Spec.tile (Spec.padR x1 (b1 t)) (t.val / 5 % 5)))))
    ∧ (stepA V c t h0).2.2.2.2.2 = cL2 (Spec.lstep (fun _ => 0) (Spec.pw (t.val % 5) (Spec.nrmlz (Spec.tile (Spec.padR x3 (b1 t)) (t.val % 5))) (Spec.nrmlz (Spec.tile (Spec.padR x1 (b1 t)) (t.val / 5 % 5))))) := by
  have hki : (grid1.coords t 2).val = t.val % 5 := coords1_2 t
  unfold stepA
  dsimp only
  refine ⟨?_, ?_, ?_, ?_, ?_⟩
  · rw [sout1_A_0_eq, iblk1_0 V x1 c hV3, k1_pay1_real]
  · rw [sout1_A_1_eq]; simp only [iblk1_0 V x1 c hV3, iblk1_1 V x2 c hK2, iblk1_2 V x2 c hN2, iblk1_3 V x3 c hK3, iblk1_4 V x3 c hN3]; rw [k1_pay1_real, k1_pay9_real, k1_pay3_real, k1_pay13_real, hki]
  · rw [sout1_A_2_eq]; simp only [iblk1_0 V x1 c hV3, iblk1_1 V x2 c hK2, iblk1_2 V x2 c hN2, iblk1_3 V x3 c hK3, iblk1_4 V x3 c hN3]; rw [k1_pay1_real, k1_pay10_real, k1_pay5_real, k1_pay14_real, hki]
  · rw [sout1_A_3_eq]; simp only [iblk1_0 V x1 c hV3, iblk1_1 V x2 c hK2, iblk1_2 V x2 c hN2, iblk1_3 V x3 c hK3, iblk1_4 V x3 c hN3]; rw [k1_pay1_real, k1_pay2_real, k1_pay11_real, hki]
  · rw [sout1_A_4_eq]; simp only [iblk1_0 V x1 c hV3, iblk1_1 V x2 c hK2, iblk1_2 V x2 c hN2, iblk1_3 V x3 c hK3, iblk1_4 V x3 c hN3]; rw [k1_pay1_real, k1_pay10_real, k1_pay4_real, k1_pay12_real, hki]

include hV3 hK2 hN2 hK3 hN3 in
/-- Key tiles 1 to 3: the accumulators over what the point before left. -/
theorem stepB_real (t : Fin cfg1.N) (h0 : ¬ t.val % 5 = 0) (h1 : ¬ t.val % 5 = 4) (p : T6 Ideal)
    (QN A2 A3 : Spec.Blk) (L2 L3 : Fin 640 → ℝ)
    (e0 : p.2.1 = cB2 QN) (e1 : p.2.2.1 = cB2 A2) (e2 : p.2.2.2.1 = cB2 A3) (e3 : p.2.2.2.2.1 = cL2 L2) (e4 : p.2.2.2.2.2 = cL2 L3) :
    (stepB V c t h0 h1 p).2.1 = cB2 QN
    ∧ (stepB V c t h0 h1 p).2.2.1 = cB2 (Spec.astep A2 (Spec.nrmlz (Spec.tile (Spec.padR x2 (b1 t)) (t.val % 5))) (Spec.pw (t.val % 5) (Spec.nrmlz (Spec.tile (Spec.padR x2 (b1 t)) (t.val % 5))) QN) (Spec.tnrm (Spec.padR x2 (b1 t)) (t.val % 5)))
    ∧ (stepB V c t h0 h1 p).2.2.2.1 = cB2 (Spec.astep A3 (Spec.nrmlz (Spec.tile (Spec.padR x3 (b1 t)) (t.val % 5))) (Spec.pw (t.val % 5) (Spec.nrmlz (Spec.tile (Spec.padR x3 (b1 t)) (t.val % 5))) QN) (Spec.tnrm (Spec.padR x3 (b1 t)) (t.val % 5)))
    ∧ (stepB V c t h0 h1 p).2.2.2.2.1 = cL2 (Spec.lstep L2 (Spec.pw (t.val % 5) (Spec.nrmlz (Spec.tile (Spec.padR x2 (b1 t)) (t.val % 5))) QN))
    ∧ (stepB V c t h0 h1 p).2.2.2.2.2 = cL2 (Spec.lstep L3 (Spec.pw (t.val % 5) (Spec.nrmlz (Spec.tile (Spec.padR x3 (b1 t)) (t.val % 5))) QN)) := by
  have hki : (grid1.coords t 2).val = t.val % 5 := coords1_2 t
  unfold stepB
  dsimp only
  refine ⟨e0, ?_, ?_, ?_, ?_⟩
  · rw [sout1_B_1_eq]; simp only [iblk1_0 V x1 c hV3, iblk1_1 V x2 c hK2, iblk1_2 V x2 c hN2, iblk1_3 V x3 c hK3, iblk1_4 V x3 c hN3]; rw [e0, e1, k1_pay9_real, k1_pay13_real, hki]
  · rw [sout1_B_2_eq]; simp only [iblk1_0 V x1 c hV3, iblk1_1 V x2 c hK2, iblk1_2 V x2 c hN2, iblk1_3 V x3 c hK3, iblk1_4 V x3 c hN3]; rw [e0, e2, k1_pay10_real, k1_pay14_real, hki]
  · rw [sout1_B_3_eq]; simp only [iblk1_0 V x1 c hV3, iblk1_1 V x2 c hK2, iblk1_2 V x2 c hN2, iblk1_3 V x3 c hK3, iblk1_4 V x3 c hN3]; rw [e0, e3, k1_pay11_real, hki]
  · rw [sout1_B_4_eq]; simp only [iblk1_0 V x1 c hV3, iblk1_1 V x2 c hK2, iblk1_2 V x2 c hN2, iblk1_3 V x3 c hK3, iblk1_4 V x3 c hN3]; rw [e0, e4, k1_pay10_real, k1_pay12_real, hki]

include hV3 hK2 hN2 hK3 hN3 in
/-- Key tile 4: the same, and the output block from the finished accumulators (the denominators nonzero). -/
theorem stepC_real (t : Fin cfg1.N) (h0 : ¬ t.val % 5 = 0) (h1 : t.val % 5 = 4) (p : T6 Ideal)
    (QN A2 A3 : Spec.Blk) (L2 L3 : Fin 640 → ℝ)
    (e0 : p.2.1 = cB2 QN) (e1 : p.2.2.1 = cB2 A2) (e2 : p.2.2.2.1 = cB2 A3) (e3 : p.2.2.2.2.1 = cL2 L2) (e4 : p.2.2.2.2.2 = cL2 L3)
    (hl2 : ∀ n, Spec.lstep L2 (Spec.pw (t.val % 5) (Spec.nrmlz (Spec.tile (Spec.padR x2 (b1 t)) (t.val % 5))) QN) n ≠ 0) (hl3 : ∀ n, Spec.lstep L3 (Spec.pw (t.val % 5) (Spec.nrmlz (Spec.tile (Spec.padR x3 (b1 t)) (t.val % 5))) QN) n ≠ 0) :
    (stepC V c t h0 h1 p).1 = cB3 (Spec.outBlk (Spec.tile (Spec.padR x1 (b1 t)) (t.val / 5 % 5)) (Spec.astep A2 (Spec.nrmlz (Spec.tile (Spec.padR x2 (b1 t)) (t.val % 5))) (Spec.pw (t.val % 5) (Spec.nrmlz (Spec.tile (Spec.padR x2 (b1 t)) (t.val % 5))) QN) (Spec.tnrm (Spec.padR x2 (b1 t)) (t.val % 5)))
        (Spec.astep A3 (Spec.nrmlz (Spec.tile (Spec.padR x3 (b1 t)) (t.val % 5))) (Spec.pw (t.val % 5) (Spec.nrmlz (Spec.tile (Spec.padR x3 (b1 t)) (t.val % 5))) QN) (Spec.tnrm (Spec.padR x3 (b1 t)) (t.val % 5))) (Spec.lstep L2 (Spec.pw (t.val % 5) (Spec.nrmlz (Spec.tile (Spec.padR x2 (b1 t)) (t.val % 5))) QN)) (Spec.lstep L3 (Spec.pw (t.val % 5) (Spec.nrmlz (Spec.tile (Spec.padR x3 (b1 t)) (t.val % 5))) QN)))
    ∧ (stepC V c t h0 h1 p).2.1 = cB2 QN
    ∧ (stepC V c t h0 h1 p).2.2.1 = cB2 (Spec.astep A2 (Spec.nrmlz (Spec.tile (Spec.padR x2 (b1 t)) (t.val % 5))) (Spec.pw (t.val % 5) (Spec.nrmlz (Spec.tile (Spec.padR x2 (b1 t)) (t.val % 5))) QN) (Spec.tnrm (Spec.padR x2 (b1 t)) (t.val % 5)))
    ∧ (stepC V c t h0 h1 p).2.2.2.1 = cB2 (Spec.astep A3 (Spec.nrmlz (Spec.tile (Spec.padR x3 (b1 t)) (t.val % 5))) (Spec.pw (t.val % 5) (Spec.nrmlz (Spec.tile (Spec.padR x3 (b1 t)) (t.val % 5))) QN) (Spec.tnrm (Spec.padR x3 (b1 t)) (t.val % 5)))
    ∧ (stepC V c t h0 h1 p).2.2.2.2.1 = cL2 (Spec.lstep L2 (Spec.pw (t.val % 5) (Spec.nrmlz (Spec.tile (Spec.padR x2 (b1 t)) (t.val % 5))) QN))
    ∧ (stepC V c t h0 h1 p).2.2.2.2.2 = cL2 (Spec.lstep L3 (Spec.pw (t.val % 5) (Spec.nrmlz (Spec.tile (Spec.padR x3 (b1 t)) (t.val % 5))) QN)) := by
  have hki : (grid1.coords t 2).val = t.val % 5 := coords1_2 t
  unfold stepC
  dsimp only
  refine ⟨?_, e0, ?_, ?_, ?_, ?_⟩
  · rw [out1_C_5_eq]; simp only [iblk1_0 V x1 c hV3, iblk1_1 V x2 c hK2, iblk1_2 V x2 c hN2, iblk1_3 V x3 c hK3, iblk1_4 V x3 c hN3]; rw [e0, e1, e2, e3, e4, k1_pay9_real, k1_pay10_real, k1_pay13_real, k1_pay14_real, k1_pay11_real,
      k1_pay12_real, hki, k1_pay15_real _ _ _ _ _ hl2 hl3]
  · rw [sout1_C_1_eq]; simp only [iblk1_0 V x1 c hV3, iblk1_1 V x2 c hK2, iblk1_2 V x2 c hN2, iblk1_3 V x3 c hK3, iblk1_4 V x3 c hN3]; rw [e0, e1, k1_pay9_real, k1_pay13_real, hki]
  · rw [sout1_C_2_eq]; simp only [iblk1_0 V x1 c hV3, iblk1_1 V x2 c hK2, iblk1_2 V x2 c hN2, iblk1_3 V x3 c hK3, iblk1_4 V x3 c hN3]; rw [e0, e2, k1_pay10_real, k1_pay14_real, hki]
  · rw [sout1_C_3_eq]; simp only [iblk1_0 V x1 c hV3, iblk1_1 V x2 c hK2, iblk1_2 V x2 c hN2, iblk1_3 V x3 c hK3, iblk1_4 V x3 c hN3]; rw [e0, e3, k1_pay11_real, hki]
  · rw [sout1_C_4_eq]; simp only [iblk1_0 V x1 c hV3, iblk1_1 V x2 c hK2, iblk1_2 V x2 c hN2, iblk1_3 V x3 c hK3, iblk1_4 V x3 c hN3]; rw [e0, e4, k1_pay10_real, k1_pay12_real, hki]

end Region

end Cert.KernelIdeal.Hand

end
-- ==== Proof.KiVal1I.lean ====
import proofs.«413954_j46394236731667_3_alg».proof.Proof.KiVal1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The attention kernel's scratch buffers point by point, and its output array

For a fixed batch element and query tile the five key tiles are five consecutive grid points. By induction on the key
tile the scratch buffers hold, after each, the coerced normalised query block and the coerced numerators and
denominators of the key tiles so far; after the fifth the output window's buffer holds the coerced output block. -/

section Region
variable (V : (c : Dev nD) → (b : Ref sig .tc) → Buf (Elt Ideal) ((c : Thread nD τ).loc b)) (x1 x2 x3 : Spec.In)
  (c : Dev nD) (hV3 : V c main_call0_v3 = cA3 (Spec.padA x1))
  (hK2 : V c main_call0_v6_0 = cA3 (Spec.knA x2)) (hN2 : V c main_call0_v6_1 = cC3 (Spec.nmA x2))
  (hK3 : V c main_call0_v6_2 = cA3 (Spec.knA x3)) (hN3 : V c main_call0_v6_3 = cC3 (Spec.nmA x3))

/-- What the buffers hold after point `t`, when `t` is key tile `k` of query tile `qi` of batch element `b`. -/
def InvAt (t : Fin cfg1.N) (b : Fin 8) (qi k : ℕ) : Prop :=
  (outsAt1 V c t.val t.isLt).2.1 = cB2 (Spec.nrmlz (Spec.tile (Spec.padR x1 b) qi))
  ∧ (outsAt1 V c t.val t.isLt).2.2.1 = cB2 (Spec.accA (Spec.nrmlz (Spec.tile (Spec.padR x1 b) qi)) (Spec.padR x2 b) k)
  ∧ (outsAt1 V c t.val t.isLt).2.2.2.1 = cB2 (Spec.accA (Spec.nrmlz (Spec.tile (Spec.padR x1 b) qi)) (Spec.padR x3 b) k)
  ∧ (outsAt1 V c t.val t.isLt).2.2.2.2.1 = cL2 (Spec.accL (Spec.nrmlz (Spec.tile (Spec.padR x1 b) qi)) (Spec.padR x2 b) k)
  ∧ (outsAt1 V c t.val t.isLt).2.2.2.2.2 = cL2 (Spec.accL (Spec.nrmlz (Spec.tile (Spec.padR x1 b) qi)) (Spec.padR x3 b) k)
  ∧ (k = 4 → (outsAt1 V c t.val t.isLt).1 = cB3 (Spec.kerBlk x1 x2 x3 b qi))

include hV3 hK2 hN2 hK3 hN3 in
theorem inv_k (b : Fin 8) (qi : ℕ) (hqi : qi < 5) :
    ∀ (k : ℕ) (_ : k < 5) (t : Fin cfg1.N), t.val = b.val * 25 + qi * 5 + k → InvAt V x1 x2 x3 c t b qi k
  | 0, _, t, ht => by
    have hbl := b.isLt
    have h0 : t.val % 5 = 0 := by omega
    have hb : b1 t = b := Fin.ext (by show t.val / 25 = b.val; omega)
    have hq : t.val / 5 % 5 = qi := by omega
    have h := stepA_real V x1 x2 x3 c hV3 hK2 hN2 hK3 hN3 t h0
    rw [← outsAt1_A V c t h0, hb, hq, h0] at h
    exact ⟨h.1, h.2.1, h.2.2.1, h.2.2.2.1, h.2.2.2.2, fun e => absurd e (by decide)⟩
  | k + 1, hk, t, ht => by
    have hbl := b.isLt
    have hN : cfg1.N = 200 := N_1
    have h0 : ¬ t.val % 5 = 0 := by omega
    have hb : b1 t = b := Fin.ext (by show t.val / 25 = b.val; omega)
    have hq : t.val / 5 % 5 = qi := by omega
    have hkk : t.val % 5 = k + 1 := by omega
    have ih := inv_k b qi hqi k (by omega) ⟨t.val - 1, by omega⟩ (by show t.val - 1 = _; omega)
    obtain ⟨i0, i1, i2, i3, i4, -⟩ := ih
    by_cases h1 : t.val % 5 = 4
    · have h := stepC_real V x1 x2 x3 c hV3 hK2 hN2 hK3 hN3 t h0 h1 (outsAt1 V c (t.val - 1) (Nat.lt_of_le_of_lt (Nat.sub_le _ _) t.isLt)) _ _ _ _ _ i0 i1 i2 i3 i4
        (fun n => by rw [hkk, hb]; exact (Spec.accL_pos _ (Spec.padR x2 b) (k + 1) n).ne')
        (fun n => by rw [hkk, hb]; exact (Spec.accL_pos _ (Spec.padR x3 b) (k + 1) n).ne')
      rw [← outsAt1_C V c t h0 h1, hb, hq, hkk] at h
      refine ⟨h.2.1, h.2.2.1, h.2.2.2.1, h.2.2.2.2.1, h.2.2.2.2.2, fun e => ?_⟩
      have hk3 : k = 3 := by omega
      subst hk3
      exact h.1
    · have h := stepB_real V x1 x2 x3 c hV3 hK2 hN2 hK3 hN3 t h0 h1 (outsAt1 V c (t.val - 1) (Nat.lt_of_le_of_lt (Nat.sub_le _ _) t.isLt)) _ _ _ _ _ i0 i1 i2 i3 i4
      rw [← outsAt1_B V c t h0 h1, hb, hkk] at h
      exact ⟨h.1, h.2.1, h.2.2.1, h.2.2.2.1, h.2.2.2.2, fun e => absurd (by omega : t.val % 5 = 4) h1⟩

include hV3 hK2 hN2 hK3 hN3 in
/-- After a point whose key tile is 4 the output window's buffer holds the coerced output block. -/
theorem out_at (t : Fin cfg1.N) (h1 : t.val % 5 = 4) :
    (outsAt1 V c t.val t.isLt).1 = cB3 (Spec.kerBlk x1 x2 x3 (b1 t) (t.val / 5 % 5)) := by
  have hN : cfg1.N = 200 := N_1
  have := t.isLt
  exact (inv_k V x1 x2 x3 c hV3 hK2 hN2 hK3 hN3 (b1 t) (t.val / 5 % 5) (Nat.mod_lt _ (by omega)) 4 (by omega) t
    (by show t.val = t.val / 25 * 25 + t.val / 5 % 5 * 5 + 4; omega)).2.2.2.2.2 rfl

include hV3 hK2 hN2 hK3 hN3 in
/-- What a point with key tile 4 writes back is its block of the padded output array. -/
theorem flushed1_5 (t : Fin cfg1.N) (hf : (cfg1.win 5).flush t = true) :
    (dat1 V c).flushed 5 t = ((cfg1.win 5).blk t).view.read (Elt Ideal) (cA3 (Spec.outA x1 x2 x3)) := by
  have h1 : t.val % 5 = 4 := (flush1_5 t).mp hf
  show (cfg1.win 5).cut (grid1.coords t) ((dat1 V c).after 5 t) = _
  rw [after1_5, out_at V x1 x2 x3 c hV3 hK2 hN2 hK3 hN3 t h1, rd1_5, Spec.tileA_outA x1 x2 x3 _ _ (Nat.mod_lt _ (by omega))]
  rfl

include hV3 hK2 hN2 hK3 hN3 in
/-- So the output array ends holding the padded output. -/
theorem final1_5 : (dat1 V c).arrAt 5 cfg1.N = cA3 (Spec.outA x1 x2 x3) :=
  (dat1 V c).arrAt_eq_of_cover 5 _ (fun t hf => flushed1_5 V x1 x2 x3 c hV3 hK2 hN2 hK3 hN3 t hf) cov1_5

end Region

end Cert.KernelIdeal.Hand

end
-- ==== Proof.HostVal.lean ====
import proofs.«413954_j46394236731667_3_alg».proof.Proof.KiCoeA
import proofs.«413954_j46394236731667_3_alg».proof.Proof.Gen.KernelIdeal
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Hand

open Cert.KernelIdeal Cert.KernelIdeal.Gen Idealize.ShloMosaic Idealize.ShloMosaic.ValueIdx

/-! # The host operations around the kernels, at real arrays

Before the kernels each input is flattened over its two image axes and its token axis padded with zeros; after them
the padding is sliced off and the token axis unflattened. Applied to an array of coerced reals each gives the array
of coerced reals of the matching real function. -/

/-- Flatten and pad: the padded real array. The padding value is the integer zero converted to a float. -/
theorem pad_reshape_real (x : Spec.In) :
    pad S8x512x3200 ![0, 0, 0] ![0, 0, 64] ![0, 0, 0]
        (shapeCast S8x512x3136 (Spec.cIn x) shapeCasts_S8x512x56x56_S8x512x3136)
        (sitofp (F := Ideal) .f32 (constantI S_ 32 0#32)) pads_S8x512x3136_S8x512x3200_000_000_0640 h_S_
      = cA3 (Spec.padA x) := by
  funext j
  have h0 : (j 0).val < 8 := (j 0).isLt
  have h1 : (j 1).val < 512 := (j 1).isLt
  have h2 : (j 2).val < 3200 := (j 2).isLt
  by_cases hin : (j 2).val < 3136
  · -- a real token: the pad reads the flattened array, the flattening reads the input at (n / 56, n % 56)
    refine (pad_apply_of_inside ![0, 0, 0] ![0, 0, 64] ![0, 0, 0] _ _ pads_S8x512x3136_S8x512x3200_000_000_0640 h_S_ j
      (ix3 (j 0) (j 1) ⟨(j 2).val, hin⟩) ?_).trans ?_
    · intro a
      match a with
      | ⟨0, _⟩ => show (j 0).val = 0 + (j 0).val * (0 + 1); omega
      | ⟨1, _⟩ => show (j 1).val = 0 + (j 1).val * (0 + 1); omega
      | ⟨2, _⟩ => show (j 2).val = 0 + (j 2).val * (0 + 1); omega
    refine (shapeCast_apply (Spec.cIn x) shapeCasts_S8x512x56x56_S8x512x3136 (ix3 (j 0) (j 1) ⟨(j 2).val, hin⟩)
      (ix4 (j 0) (j 1) ⟨(j 2).val / 56, by omega⟩ ⟨(j 2).val % 56, Nat.mod_lt _ (by omega)⟩) ?_).trans ?_
    · rw [Shape.rowMajor_val_four, Shape.rowMajor_val_three]
      show (((j 0).val * 512 + (j 1).val) * 56 + (j 2).val / 56) * 56 + (j 2).val % 56
        = ((j 0).val * 512 + (j 1).val) * 3136 + (j 2).val
      omega
    · show ((x (j 0) (j 1) ⟨(j 2).val / 56, _⟩ ⟨(j 2).val % 56, _⟩ : ℝ) : EReal)
        = ((Spec.padR x (j 0) (j 1) (j 2) : ℝ) : EReal)
      unfold Spec.padR
      rw [dif_pos hin]
  · -- a padded token: the pad reads its padding value, the integer zero converted, which is the real zero
    refine (pad_apply_of_not_inside (s := S8x512x3136) ![0, 0, 0] ![0, 0, 64] ![0, 0, 0] _ _
      pads_S8x512x3136_S8x512x3200_000_000_0640 h_S_ j (⟨2, by decide⟩ : Fin S8x512x3136.rank) ?_).trans ?_
    · intro h
      have h3 : ((j 2).val - 0) / (0 + 1) < 3136 := h.2.2
      omega
    · show ((((0#32 : BitVec 32).toInt : ℤ) : ℝ) : EReal) = ((Spec.padR x (j 0) (j 1) (j 2) : ℝ) : EReal)
      unfold Spec.padR
      rw [dif_neg hin]
      simp

/-- Slice the padding off and unflatten: entry (b, c, h, w) is the padded array's entry at token h·56 + w. -/
theorem slice_reshape_real (A : Spec.Arr) :
    shapeCast S8x512x56x56 (extractStridedSlice S8x512x3136 ![0, 0, 0] (cA3 A) slices_S8x512x3200_S8x512x3136_0_0_0)
        shapeCasts_S8x512x3136_S8x512x56x56
      = Spec.cIn (fun b c h w => A b c ⟨h.val * 56 + w.val, by omega⟩) := by
  funext j
  have h0 : (j 0).val < 8 := (j 0).isLt
  have h1 : (j 1).val < 512 := (j 1).isLt
  have h2 : (j 2).val < 56 := (j 2).isLt
  have h3 : (j 3).val < 56 := (j 3).isLt
  -- the unflattening reads the sliced array at token h · 56 + w (the same row-major position)
  refine (shapeCast_apply _ shapeCasts_S8x512x3136_S8x512x56x56 j
    (ix3 (j 0) (j 1) ⟨(j 2).val * 56 + (j 3).val, by omega⟩) ?_).trans ?_
  · rw [Shape.rowMajor_val_four, Shape.rowMajor_val_three]
    show ((j 0).val * 512 + (j 1).val) * 3136 + ((j 2).val * 56 + (j 3).val)
      = (((j 0).val * 512 + (j 1).val) * 56 + (j 2).val) * 56 + (j 3).val
    omega
  -- the slice starts at the origin: it reads the padded array at the same coordinates
  refine (extractStridedSlice_apply ![0, 0, 0] (cA3 A) slices_S8x512x3200_S8x512x3136_0_0_0
    (ix3 (j 0) (j 1) ⟨(j 2).val * 56 + (j 3).val, by omega⟩)
    (ix3 (j 0) (j 1) ⟨(j 2).val * 56 + (j 3).val, by omega⟩) ?_).trans ?_
  · intro a
    match a with
    | ⟨0, _⟩ => show (j 0).val = 0 + (j 0).val; omega
    | ⟨1, _⟩ => show (j 1).val = 0 + (j 1).val; omega
    | ⟨2, _⟩ => show (j 2).val * 56 + (j 3).val = 0 + ((j 2).val * 56 + (j 3).val); omega
  · rfl

end Cert.KernelIdeal.Hand

end
-- ==== Proof.KiValRun.lean ====
import proofs.«413954_j46394236731667_3_alg».proof.Proof.KiRun
import proofs.«413954_j46394236731667_3_alg».proof.Proof.KiVal0
import proofs.«413954_j46394236731667_3_alg».proof.Proof.KiVal1I
import proofs.«413954_j46394236731667_3_alg».proof.Proof.HostVal
import proofs.«413954_j46394236731667_3_alg».proof.Proof.Math
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The idealised kernel program's result, from real inputs

On a core whose three argument arrays hold coerced reals: the first host stretch leaves the three padded arrays; the
normalising region the normalised arrays and clamped norms; the host copy changes none of these; the attention
region leaves the padded output; the last host stretch slices and unflattens it. The result is the coerced
kernel-shaped formula, which over the reals is the reference's. -/

variable (m : (ℓ : Loc nD τ sig) → Buf (Elt Ideal) ℓ) (ρ : Dev nD → PrngReg) (c : Dev nD) (x1 x2 x3 : Spec.In)
  (h0 : m ((c : Thread nD τ).loc main_arg0) = Spec.cIn x1) (h1 : m ((c : Thread nD τ).loc main_arg1) = Spec.cIn x2)
  (h2 : m ((c : Thread nD τ).loc main_arg2) = Spec.cIn x3)

/-! ## The first host stretch -/

include h0 in
theorem W1_v3 : W1 m ρ c (Proc.devRef .tc main_call0_v3) = cA3 (Spec.padA x1) := by
  have e : W1 m ρ c (Proc.devRef .tc main_call0_v3)
      = pad S8x512x3200 ![0, 0, 0] ![0, 0, 64] ![0, 0, 0]
          (shapeCast S8x512x3136 (m ((c : Thread nD τ).loc main_arg0)) shapeCasts_S8x512x56x56_S8x512x3136)
          (sitofp (F := Ideal) .f32 (constantI S_ 32 0#32)) pads_S8x512x3136_S8x512x3200_000_000_0640 h_S_ := by
    show StableHlo.after hostOps0 (W0 m ρ c) (Proc.devRef .tc main_call0_v3) = _
    after_results
    rfl
  rw [e, h0, pad_reshape_real]
include h1 in
theorem W1_v4 : W1 m ρ c (Proc.devRef .tc main_call0_v4) = cA3 (Spec.padA x2) := by
  have e : W1 m ρ c (Proc.devRef .tc main_call0_v4)
      = pad S8x512x3200 ![0, 0, 0] ![0, 0, 64] ![0, 0, 0]
          (shapeCast S8x512x3136 (m ((c : Thread nD τ).loc main_arg1)) shapeCasts_S8x512x56x56_S8x512x3136)
          (sitofp (F := Ideal) .f32 (constantI S_ 32 0#32)) pads_S8x512x3136_S8x512x3200_000_000_0640 h_S_ := by
    show StableHlo.after hostOps0 (W0 m ρ c) (Proc.devRef .tc main_call0_v4) = _
    after_results
    rfl
  rw [e, h1, pad_reshape_real]
include h2 in
theorem W1_v5 : W1 m ρ c (Proc.devRef .tc main_call0_v5) = cA3 (Spec.padA x3) := by
  have e : W1 m ρ c (Proc.devRef .tc main_call0_v5)
      = pad S8x512x3200 ![0, 0, 0] ![0, 0, 64] ![0, 0, 0]
          (shapeCast S8x512x3136 (m ((c : Thread nD τ).loc main_arg2)) shapeCasts_S8x512x56x56_S8x512x3136)
          (sitofp (F := Ideal) .f32 (constantI S_ 32 0#32)) pads_S8x512x3136_S8x512x3200_000_000_0640 h_S_ := by
    show StableHlo.after hostOps0 (W0 m ρ c) (Proc.devRef .tc main_call0_v5) = _
    after_results
    rfl
  rw [e, h2, pad_reshape_real]

/-! ## After the normalising region and the host copy: what the attention region finds -/

/-- A buffer the host copy does not write and the normalising region does not own is as the first stretch left it. -/
theorem V3_of_W1 (r : Ref sig .tc) (hr1 : r ∉ (hostOps1_W : List (Ref sig .tc))) (ha0 : ∀ w, Pipeline.arrRef spec0 w ≠ r) :
    W3 m ρ c (Proc.devRef .tc r) = W1 m ρ c (Proc.devRef .tc r) :=
  (StableHlo.after_of_writes_sub hostOps1 _ hostOps1_writes hr1).trans (W2_of_ne m ρ c r ha0)
/-- An array the normalising region writes, which the host copy does not, is as that region left it. -/
theorem V3_of_arr (w : Fin cfg0.W) (hr1 : Pipeline.arrRef spec0 w ∉ (hostOps1_W : List (Ref sig .tc))) :
    W3 m ρ c (Proc.devRef .tc (Pipeline.arrRef spec0 w)) = (dat0 (V1 m ρ) c).arrAt w cfg0.N :=
  (StableHlo.after_of_writes_sub hostOps1 _ hostOps1_writes hr1).trans (W2_arr m ρ c w)

include h0 in
theorem V3_v3 : V3 m ρ c main_call0_v3 = cA3 (Spec.padA x1) :=
  (V3_of_W1 m ρ c main_call0_v3 (by decide) (by decide)).trans (W1_v3 m ρ c x1 h0)
include h1 in
theorem V3_k2 : V3 m ρ c main_call0_v6_0 = cA3 (Spec.knA x2) :=
  (V3_of_arr m ρ c 2 (by decide)).trans (final0_2 (V1 m ρ) x2 c (W1_v4 m ρ c x2 h1))
include h1 in
theorem V3_n2 : V3 m ρ c main_call0_v6_1 = cC3 (Spec.nmA x2) :=
  (V3_of_arr m ρ c 3 (by decide)).trans (final0_3 (V1 m ρ) x2 c (W1_v4 m ρ c x2 h1))
include h2 in
theorem V3_k3 : V3 m ρ c main_call0_v6_2 = cA3 (Spec.knA x3) :=
  (V3_of_arr m ρ c 4 (by decide)).trans (final0_4 (V1 m ρ) x3 c (W1_v5 m ρ c x3 h2))
include h2 in
theorem V3_n3 : V3 m ρ c main_call0_v6_3 = cC3 (Spec.nmA x3) :=
  (V3_of_arr m ρ c 5 (by decide)).trans (final0_5 (V1 m ρ) x3 c (W1_v5 m ρ c x3 h2))

/-! ## The attention region's output array, and the last host stretch -/

include h0 h1 h2 in
theorem W4_v7 : W4 m ρ c (Proc.devRef .tc main_call0_v7) = cA3 (Spec.outA x1 x2 x3) :=
  (W4_arr m ρ c 5).trans (final1_5 (V3 m ρ) x1 x2 x3 c (V3_v3 m ρ c x1 h0) (V3_k2 m ρ c x2 h1) (V3_n2 m ρ c x2 h1)
    (V3_k3 m ρ c x3 h2) (V3_n3 m ρ c x3 h2))

include h0 h1 h2 in
/-- The program's result on this core is the coerced reference formula. -/
theorem value_main_v0 : W5 m ρ c (Proc.devRef .tc main_v0) = Spec.cIn (Spec.G x1 x2 x3) := by
  have e : W5 m ρ c (Proc.devRef .tc main_v0)
      = shapeCast S8x512x56x56 (extractStridedSlice S8x512x3136 ![0, 0, 0] (W4 m ρ c (Proc.devRef .tc main_call0_v7))
          slices_S8x512x3200_S8x512x3136_0_0_0) shapeCasts_S8x512x3136_S8x512x56x56 := by
    show StableHlo.after hostOps2 (W4 m ρ c) (Proc.devRef .tc main_v0) = _
    after_results
    rfl
  rw [e, W4_v7 m ρ c x1 x2 x3 h0 h1 h2, slice_reshape_real]
  congr 1
  funext b ch h w
  exact Spec.G_eq_Gk x1 x2 x3 b ch h w

end Cert.KernelIdeal.Hand

end
-- ==== Proof.RefValue.lean ====
import proofs.«413954_j46394236731667_3_alg».proof.Proof.Gen.ReferenceIdeal.Run
import proofs.«413954_j46394236731667_3_alg».proof.Proof.Gen.ReferenceIdeal.Read
import proofs.«413954_j46394236731667_3_alg».proof.Proof.SpecCoe
import proofs.«413954_j46394236731667_3_alg».proof.Proof.Consts
import Idealize.ShloMosaic.Lib.ValueIdx
import Idealize.ShloMosaic.PureOps.Ideal.Laws

set_option maxRecDepth 16384

/-! # The reference's result at real inputs

Stage by stage, each host operation applied to arrays whose entries are reals gives an array whose entries are
reals: the three normalisations, the two score matrices, the two shifted softmaxes, the two weighted sums, the
scaled residual sum. The last stage is the coercion of the real formula `Spec.G`. Every stage is read at an index
given by its literal coordinates, so that the index arithmetic of reshapes and broadcasts is decided once per stage. -/

noncomputable section

namespace Cert.ReferenceIdeal.RefValue

open Cert.ReferenceIdeal Cert.ReferenceIdeal.Gen Cert.ReferenceIdeal.Read Idealize.ShloMosaic
  Idealize.ShloMosaic.ValueIdx Cert.Spec

/-! ## Coercions of reals into the extended reals -/

/-- A finite sum of coerced reals is the coercion of the sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The coercion of reals into the extended reals commutes with the maximum. -/
theorem coe_max (a b : ℝ) : ((max a b : ℝ) : EReal) = max (a : EReal) (b : EReal) :=
  EReal.coe_strictMono.monotone.map_max

/-- Division by the coercion of a nonzero real is the coercion of the real quotient. -/
theorem div_coe_coe (a b : ℝ) (hb : b ≠ 0) : Ideal.div (a : EReal) (b : EReal) = ((a / b : ℝ) : EReal) := by
  rw [Ideal.div_coe hb, ← EReal.coe_mul, mul_one_div]

/-! ## The flattened input -/

theorem v0_val (x : In) (b : Fin 8) (c : Fin 512) (n : Fin 3136) :
    val_main_v0 (F := Ideal) (cIn x) (ix3 b c n) = ((flat x b c n : ℝ) : EReal) := by
  rw [val_main_v0_apply]
  unfold cIn flat
  have hb := b.isLt; have hc := c.isLt; have hn := n.isLt
  congr 2
  · exact Fin.ext (by show ((b.val * 512 + c.val) * 3136 + n.val) / 1605632 = b.val; omega)
  · exact Fin.ext (by show ((b.val * 512 + c.val) * 3136 + n.val) / 3136 % 512 = c.val; omega)
  · exact Fin.ext (by show ((b.val * 512 + c.val) * 3136 + n.val) / 56 % 56 = n.val / 56; omega)
  · exact Fin.ext (by show ((b.val * 512 + c.val) * 3136 + n.val) % 56 = n.val % 56; omega)

/-! ## The clamped norm and the normalised array -/

theorem idx_v4 (b : Fin 8) (n : Fin 3136) (k : Fin 512) : idx_main_v4 (ix2 b n) k = ix3 b k n := by
  funext a; match a with | ⟨0, _⟩ => rfl | ⟨1, _⟩ => rfl | ⟨2, _⟩ => rfl

theorem idx_v5 (b : Fin 8) (z : Fin 1) (n : Fin 3136) : idx_main_v5 (ix3 b z n) = ix2 b n := by
  funext a; match a with | ⟨0, _⟩ => rfl | ⟨1, _⟩ => rfl

theorem idx_v9 (b : Fin 8) (c : Fin 512) (n : Fin 3136) : idx_main_v9 (ix3 b c n) = ix3 b (0 : Fin 1) n := by
  funext a; match a with | ⟨0, _⟩ => rfl | ⟨1, _⟩ => rfl | ⟨2, _⟩ => rfl

theorem v4_val (x : In) (b : Fin 8) (n : Fin 3136) :
    val_main_v4 (F := Ideal) (cIn x) (ix2 b n) = ((∑ c, flat x b c n * flat x b c n : ℝ) : EReal) := by
  rw [val_main_v4_apply, val_main_cst_apply]
  simp only [idx_v4, val_main_v3_apply, v0_val, Ideal.mulf_def, Ideal.ofBits_def, Consts.ofBits_zero, ← EReal.coe_mul,
    coe_sum, zero_add]

theorem v8_val (x : In) (b : Fin 8) (z : Fin 1) (n : Fin 3136) :
    val_main_v8 (F := Ideal) (cIn x) (ix3 b z n) = ((rnrm x b n : ℝ) : EReal) := by
  rw [val_main_v8_apply, val_main_v6_apply, val_main_v5_apply, val_main_v7_apply, val_main_cst_0_apply, idx_v5, v4_val,
    Ideal.hostUnary_sqrt_def, Ideal.sqrt_coe, if_neg (not_lt.2 (Finset.sum_nonneg fun c _ => mul_self_nonneg _)),
    Ideal.maximumf_def, Ideal.ofBits_def, Consts.ofBits_eps, ← coe_max]
  rfl

theorem v10_val (x : In) (b : Fin 8) (c : Fin 512) (n : Fin 3136) :
    val_main_v10 (F := Ideal) (cIn x) (ix3 b c n) = ((rn x b c n : ℝ) : EReal) := by
  rw [val_main_v10_apply, val_main_v9_apply, idx_v9, v8_val, v0_val, Ideal.hostDivf_def,
    div_coe_coe _ _ (rnrm_pos x b n).ne']
  rfl

/-! ## The second and third inputs are normalised by the same operations -/

theorem v1_eq : @val_main_v1 = @val_main_v0 := rfl
theorem v2_eq : @val_main_v2 = @val_main_v0 := rfl
theorem v18_eq : @val_main_v18 = @val_main_v10 := rfl
theorem v26_eq : @val_main_v26 = @val_main_v10 := rfl

/-! ## The scores -/

theorem lidx_v27 (b : Fin 8) (n m : Fin 3136) (k : Fin 512) : lidx_main_v27 (ix3 b n m) k = ix3 b k n := by
  funext a; match a with | ⟨0, _⟩ => rfl | ⟨1, _⟩ => rfl | ⟨2, _⟩ => rfl

theorem ridx_v27 (b : Fin 8) (n m : Fin 3136) (k : Fin 512) : ridx_main_v27 (ix3 b n m) k = ix3 b k m := by
  funext a; match a with | ⟨0, _⟩ => rfl | ⟨1, _⟩ => rfl | ⟨2, _⟩ => rfl

theorem v28_val (x1 xk : In) (b : Fin 8) (n m : Fin 3136) :
    val_main_v28 (F := Ideal) (cIn x1) (cIn xk) (ix3 b n m) = ((score x1 xk b n m : ℝ) : EReal) := by
  rw [val_main_v28_apply, val_main_v27_apply]
  simp only [lidx_v27, ridx_v27, v18_eq, v10_val, ← EReal.coe_mul, coe_sum, Ideal.hostNegf_def, Ideal.negf_def,
    ← EReal.coe_neg]
  rfl

/-! ## The running maximum of a row of scores -/

/-- The fold of the maximum from minus infinity over coerced reals is the coercion of their largest. -/
theorem fold_max_coe {ι : Type*} [Fintype ι] [Nonempty ι] (f : ι → ℝ) :
    (Finset.univ : Finset ι).fold max (⊥ : EReal) (fun k => ((f k : ℝ) : EReal))
      = ((Finset.univ.sup' Finset.univ_nonempty f : ℝ) : EReal) := by
  refine le_antisymm ?_ ?_
  · exact (Finset.fold_max_le _).2 ⟨bot_le, fun k _ => EReal.coe_le_coe_iff.2 (Finset.le_sup' f (Finset.mem_univ k))⟩
  · obtain ⟨k, _, hk⟩ := Finset.exists_mem_eq_sup' Finset.univ_nonempty f
    rw [hk]; exact (Finset.le_fold_max _).2 (Or.inr ⟨k, Finset.mem_univ k, le_rfl⟩)

theorem lift_d2 (h : S8x3136x3136.Reduces [2] S8x3136) (b : Fin 8) (n : Fin 3136) (k : Fin 3136) :
    h.lift (ix2 b n) k = ix3 b n k := by
  funext a; match a with | ⟨0, _⟩ => rfl | ⟨1, _⟩ => rfl | ⟨2, _⟩ => rfl

theorem v31_val (x1 xk : In) (b : Fin 8) (n : Fin 3136) :
    val_main_v31 (F := Ideal) (cIn x1) (cIn xk) (ix2 b n) = ((smax x1 xk b n : ℝ) : EReal) := by
  unfold val_main_v31
  rw [Host.reduce_eq_fold_single FloatOps.maximumf _ _ reducesTo_S8x3136x3136_S8x3136_d2 (by decide) h_S_]
  refine Eq.trans ?_ (fold_max_coe (fun m : Fin 3136 => score x1 xk b n m))
  rw [val_main_cst_5_apply, Ideal.ofBits_def, Consts.ofBits_neg_inf]
  refine congrArg (fun g => (Finset.univ : Finset (Fin 3136)).fold max (⊥ : EReal) g) (funext fun k => ?_)
  exact (congrArg (val_main_v28 (F := Ideal) (cIn x1) (cIn xk)) (lift_d2 _ b n k)).trans (v28_val x1 xk b n k)

/-! ## The shifted exponentials, their row sums, the softmax weights -/

theorem idx_v34 (b : Fin 8) (n : Fin 3136) (z : Fin 1) : idx_main_v34 (ix3 b n z) = ix2 b n := by
  funext a; match a with | ⟨0, _⟩ => rfl | ⟨1, _⟩ => rfl

theorem idx_v35 (b : Fin 8) (n m : Fin 3136) : idx_main_v35 (ix3 b n m) = ix3 b n (0 : Fin 1) := by
  funext a; match a with | ⟨0, _⟩ => rfl | ⟨1, _⟩ => rfl | ⟨2, _⟩ => rfl

theorem idx_v38 (b : Fin 8) (n : Fin 3136) (k : Fin 3136) : idx_main_v38 (ix2 b n) k = ix3 b n k := by
  funext a; match a with | ⟨0, _⟩ => rfl | ⟨1, _⟩ => rfl | ⟨2, _⟩ => rfl

theorem idx_v39 (b : Fin 8) (n : Fin 3136) (z : Fin 1) : idx_main_v39 (ix3 b n z) = ix2 b n := by
  funext a; match a with | ⟨0, _⟩ => rfl | ⟨1, _⟩ => rfl

theorem idx_v40 (b : Fin 8) (n m : Fin 3136) : idx_main_v40 (ix3 b n m) = ix3 b n (0 : Fin 1) := by
  funext a; match a with | ⟨0, _⟩ => rfl | ⟨1, _⟩ => rfl | ⟨2, _⟩ => rfl

theorem v37_val (x1 xk : In) (b : Fin 8) (n m : Fin 3136) :
    val_main_v37 (F := Ideal) (cIn x1) (cIn xk) (ix3 b n m) = ((sexp x1 xk b n m : ℝ) : EReal) := by
  rw [val_main_v37_apply, val_main_v36_apply, val_main_v35_apply, idx_v35, val_main_v34_apply, idx_v34,
    val_main_v33_apply, val_main_v32_apply, val_main_cst_6_apply, v31_val, v28_val, Ideal.ofBits_def,
    Consts.ofBits_neg_inf, Ideal.maximumf_def, max_eq_right bot_le, Ideal.subf_def, ← EReal.coe_sub,
    Ideal.hostUnary_exp_def, Ideal.exp_coe]
  rfl

theorem v38_val (x1 xk : In) (b : Fin 8) (n : Fin 3136) :
    val_main_v38 (F := Ideal) (cIn x1) (cIn xk) (ix2 b n) = ((∑ m, sexp x1 xk b n m : ℝ) : EReal) := by
  rw [val_main_v38_apply, val_main_cst_7_apply]
  simp only [idx_v38, v37_val, Ideal.ofBits_def, Consts.ofBits_zero, coe_sum, zero_add]

theorem sum_sexp_pos (x1 xk : In) (b : Fin 8) (n : Fin 3136) : 0 < ∑ m, sexp x1 xk b n m :=
  Finset.sum_pos (fun m _ => Real.exp_pos _) Finset.univ_nonempty

theorem v41_val (x1 xk : In) (b : Fin 8) (n m : Fin 3136) :
    val_main_v41 (F := Ideal) (cIn x1) (cIn xk) (ix3 b n m) = ((soft x1 xk b n m : ℝ) : EReal) := by
  rw [val_main_v41_apply, val_main_v40_apply, idx_v40, val_main_v39_apply, idx_v39, v38_val, v37_val,
    Ideal.hostDivf_def, div_coe_coe _ _ (sum_sexp_pos x1 xk b n).ne']
  rfl

/-! ## The attended values and the result -/

theorem lidx_v53 (b : Fin 8) (c : Fin 512) (n k : Fin 3136) : lidx_main_v53 (ix3 b c n) k = ix3 b c k := by
  funext a; match a with | ⟨0, _⟩ => rfl | ⟨1, _⟩ => rfl | ⟨2, _⟩ => rfl

theorem ridx_v53 (b : Fin 8) (c : Fin 512) (n k : Fin 3136) : ridx_main_v53 (ix3 b c n) k = ix3 b n k := by
  funext a; match a with | ⟨0, _⟩ => rfl | ⟨1, _⟩ => rfl | ⟨2, _⟩ => rfl

theorem v53_val (x1 xk : In) (b : Fin 8) (c : Fin 512) (n : Fin 3136) :
    val_main_v53 (F := Ideal) (cIn x1) (cIn xk) (ix3 b c n) = ((att x1 xk b c n : ℝ) : EReal) := by
  rw [val_main_v53_apply]
  simp only [lidx_v53, ridx_v53, v1_eq, v0_val, v41_val, ← EReal.coe_mul, coe_sum]
  rfl

theorem idx_v54 (b : Fin 8) (c : Fin 512) (h w : Fin 56) :
    idx_main_v54 (ix4 b c h w) = ix3 b c (⟨h.val * 56 + w.val, by omega⟩ : Fin 3136) := by
  have hb := b.isLt; have hc := c.isLt; have hh := h.isLt; have hw := w.isLt
  funext a
  match a with
  | ⟨0, _⟩ => exact Fin.ext (by show (((b.val * 512 + c.val) * 56 + h.val) * 56 + w.val) / 1605632 = b.val; omega)
  | ⟨1, _⟩ => exact Fin.ext (by show (((b.val * 512 + c.val) * 56 + h.val) * 56 + w.val) / 3136 % 512 = c.val; omega)
  | ⟨2, _⟩ => exact Fin.ext (by show (((b.val * 512 + c.val) * 56 + h.val) * 56 + w.val) % 3136 = h.val * 56 + w.val; omega)

theorem v54_val (x1 xk : In) (b : Fin 8) (c : Fin 512) (h w : Fin 56) :
    val_main_v54 (F := Ideal) (cIn x1) (cIn xk) (ix4 b c h w)
      = ((att x1 xk b c ⟨h.val * 56 + w.val, by omega⟩ : ℝ) : EReal) := by
  rw [val_main_v54_apply, idx_v54, v53_val]

/-- The third input runs through the same operations as the second. -/
theorem v56_eq : @val_main_v56 = @val_main_v54 := rfl

theorem ref_real (x1 x2 x3 : Cert.Spec.In) :
    Cert.ReferenceIdeal.Read.val_main_v62 (F := Ideal) (Cert.Spec.cIn x1) (Cert.Spec.cIn x2) (Cert.Spec.cIn x3)
      = Cert.Spec.cIn (Cert.Spec.G x1 x2 x3) := by
  funext i
  obtain ⟨b, c, h, w, rfl⟩ : ∃ b c h w, i = ix4 b c h w := ⟨_, _, _, _, eq_ix4 i⟩
  rw [val_main_v62_apply, val_main_v59_apply, val_main_v61_apply, val_main_v58_apply, val_main_v57_apply,
    val_main_v60_apply, val_main_cst_11_apply, val_main_cst_12_apply, v56_eq, v54_val, v54_val, Ideal.ofBits_def,
    Consts.ofBits_fac, Ideal.addf_def, Ideal.addf_def, Ideal.mulf_def, Ideal.mulf_def, ← EReal.coe_mul, ← EReal.coe_mul]
  show ((x1 b c h w : ℝ) : EReal) + _ + _ = ((G x1 x2 x3 b c h w : ℝ) : EReal)
  rw [← EReal.coe_add, ← EReal.coe_add]
  rfl

end Cert.ReferenceIdeal.RefValue

end
-- ==== Proof.Finite.lean ====
import proofs.«413954_j46394236731667_3_alg».proof.Proof.Gen.Pre_finite_inputs
import proofs.«413954_j46394236731667_3_alg».proof.Proof.SpecCoe
import Idealize.ShloMosaic.Lib.ReduceAll
import Idealize.ShloMosaic.Lib.ValueIdx
import Idealize.ShloMosaic.PureOps.Ideal

noncomputable section

namespace Cert.Spec

open Idealize.ShloMosaic Idealize.ShloMosaic.ValueIdx

/-! # The precondition makes the inputs real

The precondition tests, for each of the three input arrays, that every entry's absolute value is below plus infinity,
and takes the conjunction. An extended real with that property is neither infinity, so it is the coercion of a real:
each input is the coercion of a real array. -/

/-- Plus infinity's single-precision pattern. -/
theorem ofBits_pos_inf : Ideal.ofBits .f32 0x7F800000#32 = ⊤ := by
  simp [Ideal.ofBits, Ideal.ieee]

/-- An extended real whose absolute value is below plus infinity is the coercion of a real. -/
theorem eq_coe_of_abs_lt_top (x : EReal) (h : max x (-x) < ⊤) : x = ((x.toReal : ℝ) : EReal) := by
  have h1 : x ≠ ⊤ := fun e => by rw [e] at h; simp at h
  have h2 : x ≠ ⊥ := fun e => by rw [e] at h; simp at h
  exact (EReal.coe_toReal h1 h2).symm

/-- The scalar shape has one index. -/
instance subsingleton_scalar_idx : Subsingleton Cert.Pre_finite_inputs.S_.Idx := ⟨fun a b => funext fun d => d.elim0⟩

/-- One input's test: where the conjunction over all entries of "the absolute value is below plus infinity" holds,
    the array is the coercion of a real array. -/
theorem finite_one (a : FVec Ideal Cert.Pre_finite_inputs.S8x512x56x56 .f32)
    (h : Host.reduce IntOp.andi
        (cmpf .olt (Host.absf a) (broadcastInDim Cert.Pre_finite_inputs.S8x512x56x56 ![]
          Cert.Pre_finite_inputs.Facts.bcast_S_S8x512x56x56 (constant Cert.Pre_finite_inputs.S_ .f32 0x7F800000#32)))
        (constantI Cert.Pre_finite_inputs.S_ 1 1#1) Cert.Pre_finite_inputs.Facts.reducesTo_S8x512x56x56_S_d0_1_2_3
        Cert.Pre_finite_inputs.Facts.h_S_ ix0 = 1#1) :
    ∃ x : In, a = cIn x := by
  refine ⟨fun b c hh w => (a (ix4 b c hh w)).toReal, funext fun i => ?_⟩
  have e : Ideal.cmp .olt (max (a i) (-(a i))) (Ideal.ofBits .f32 0x7F800000#32) = 1#1 :=
    Host.reduce_andi_all _ _ _ _ _ h i
  have hlt : max (a i) (-(a i)) < ⊤ := by
    rw [ofBits_pos_inf] at e
    by_contra hn
    have e0 : Ideal.cmp .olt (max (a i) (-(a i))) ⊤ = 0#1 := by simp [Ideal.cmp, hn]
    rw [e0] at e
    exact absurd e (by decide)
  show a i = (((a (ix4 (i 0) (i 1) (i 2) (i 3))).toReal : ℝ) : EReal)
  have hi : a i = a (ix4 (i 0) (i 1) (i 2) (i 3)) := congrArg a (eq_ix4 i)
  exact (eq_coe_of_abs_lt_top _ hlt).trans (congrArg (fun y : EReal => ((y.toReal : ℝ) : EReal)) hi)

/-- The printed precondition makes every entry of the three inputs a real. -/
theorem finite_of_pre (a0 a1 a2 : FVec Ideal Cert.Pre_finite_inputs.S8x512x56x56 .f32)
    (h : Cert.Pre_finite_inputs.fn (F := Ideal) a0 a1 a2 = (fun _ => 1#1)) :
    ∃ x1 x2 x3 : In, a0 = cIn x1 ∧ a1 = cIn x2 ∧ a2 = cIn x3 := by
  have h0 := congrFun h ix0
  dsimp only [Cert.Pre_finite_inputs.fn] at h0
  obtain ⟨h01, h2⟩ := IntOp.andi_eq_one.1 h0
  obtain ⟨h0', h1⟩ := IntOp.andi_eq_one.1 h01
  obtain ⟨x1, e1⟩ := finite_one a0 h0'
  obtain ⟨x2, e2⟩ := finite_one a1 h1
  obtain ⟨x3, e3⟩ := finite_one a2 h2
  exact ⟨x1, x2, x3, e1, e2, e3⟩

end Cert.Spec

end
-- ==== Proof.lean ====
/- The certificate: a tiled, padded cosine cross-attention kernel against its whole-array reference, over the extended reals.

   The kernel pads the 3136 tokens to 3200 = 5 · 640, normalises the two key arrays tile by tile keeping each token's
   clamped norm, and for each (batch, query tile) accumulates over five key tiles the unshifted exponential weights
   (a padded key masked to minus infinity, weight zero), their sum, and the normalised keys weighted by weight times
   norm; the output is the residual plus 0.001 times each numerator over its denominator. The reference normalises,
   takes the shifted softmax over all 3136 keys and averages the raw keys. Under finite inputs every quantity is a
   real; over the reals the normalised key times its clamped norm is the key, the padding contributes nothing, the
   softmax's shift cancels and the quotient of sums is the sum of quotients, so the two results agree entry by entry.

   The frames: each program runs to the end on every fair schedule, faults nowhere and leaves its arguments as
   launched. For the two kernel programs this is the launch theorem for a list of host stretches and pipeline
   regions, over a body run per control case of each kernel; the attention region's invariant carries its five
   scratch buffers from one grid point to the next. The idealisation names the mask's fill minus infinity. -/
import proofs.«413954_j46394236731667_3_alg».proof.Defs
import proofs.«413954_j46394236731667_3_alg».proof.Proof.Gen.Kernel
import proofs.«413954_j46394236731667_3_alg».proof.Proof.Gen.KernelIdeal
import proofs.«413954_j46394236731667_3_alg».proof.Proof.Gen.ReferenceIdeal
import proofs.«413954_j46394236731667_3_alg».proof.Proof.Gen.Pre_finite_inputs
import proofs.«413954_j46394236731667_3_alg».proof.Proof.Gen.ReferenceIdeal.Run
import proofs.«413954_j46394236731667_3_alg».proof.Proof.Gen.ReferenceIdeal.Read
import proofs.«413954_j46394236731667_3_alg».proof.Proof.KbRun
import proofs.«413954_j46394236731667_3_alg».proof.Proof.KiValRun
import proofs.«413954_j46394236731667_3_alg».proof.Proof.RefValue
import proofs.«413954_j46394236731667_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel := fun m ρ _ => Cert.Kernel.Hand.frame (F := Bits) m ρ
/-- The idealised kernel program's frame. -/
theorem frame_ki : Cert.frame_KernelIdeal := fun m ρ _ => Cert.KernelIdeal.Hand.frame (F := Ideal) m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation's two rewrites: both spell the mask's fill, which the table names minus infinity. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- From memories agreeing on finite arguments both programs end with the same result: on each core the arguments
    are coerced reals, the kernel program's result is the coerced reference formula of them, and so is the reference's. -/
theorem algebraic : Cert.algebraic_KernelIdeal_ReferenceIdeal := by
  intro m ρ m' ρ' hpre hagree
  have hx : ∀ c : Dev Cert.KernelIdeal.nD, ∃ x1 x2 x3 : Cert.Spec.In,
      m ((c.tc : Thread Cert.KernelIdeal.nD Cert.KernelIdeal.τ).loc Cert.KernelIdeal.main_arg0) = Cert.Spec.cIn x1
      ∧ m ((c.tc : Thread Cert.KernelIdeal.nD Cert.KernelIdeal.τ).loc Cert.KernelIdeal.main_arg1) = Cert.Spec.cIn x2
      ∧ m ((c.tc : Thread Cert.KernelIdeal.nD Cert.KernelIdeal.τ).loc Cert.KernelIdeal.main_arg2) = Cert.Spec.cIn x3 :=
    fun c => Cert.Spec.finite_of_pre _ _ _ (hpre c)
  choose x1 x2 x3 hx using hx
  refine ⟨fun c => Cert.Spec.cIn (Cert.Spec.G (x1 c) (x2 c) (x3 c)), ?_, ?_⟩
  · exact (θ_run Cert.KernelIdeal.defs _ _).mono (fun r h c =>
      ⟨(h c _ (Cert.KernelIdeal.Hand.mem_uc Cert.KernelIdeal.main_v0 (by decide))).trans
          (Cert.KernelIdeal.Hand.value_main_v0 m ρ c (x1 c) (x2 c) (x3 c) (hx c).1 (hx c).2.1 (hx c).2.2),
        (h c _ (Cert.KernelIdeal.Hand.mem_uc Cert.KernelIdeal.main_arg0 (by decide))).trans (Cert.KernelIdeal.Hand.W5_main_arg0 m ρ c),
        (h c _ (Cert.KernelIdeal.Hand.mem_uc Cert.KernelIdeal.main_arg1 (by decide))).trans (Cert.KernelIdeal.Hand.W5_main_arg1 m ρ c),
        (h c _ (Cert.KernelIdeal.Hand.mem_uc Cert.KernelIdeal.main_arg2 (by decide))).trans (Cert.KernelIdeal.Hand.W5_main_arg2 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v62_eq, (hagree c).1, (hagree c).2.1, (hagree c).2.2, (hx c).1, (hx c).2.1, (hx c).2.2]
    exact Cert.ReferenceIdeal.RefValue.ref_real _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
